-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x1 .f32) (main_arg13 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg12
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64x1 .f32) (main_arg9 : FVec F S1 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_v48 main_v49 main_v50

def fn_part1 {F : FTy → Type} [FloatOps F] (main_arg4 : FVec F S64x64 .f32) (main_arg5 : FVec F S64 .f32) (main_arg6 : FVec F S128x64 .f32) (main_arg7 : FVec F S64 .f32) (main_arg8 : FVec F S64x1 .f32) (main_arg9 : FVec F S1 .f32) (main_arg10 : FVec F S128x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x64 .f32) (main_arg1 : FVec F S800000 .f32) (main_arg2 : FVec F S64x64 .f32) (main_arg3 : FVec F S64 .f32) (main_arg4 : FVec F S64x64 .f32) (main_arg5 : FVec F S64 .f32) (main_arg6 : FVec F S128x64 .f32) (main_arg7 : FVec F S64 .f32) (main_arg8 : FVec F S64x1 .f32) (main_arg9 : FVec F S1 .f32) (main_arg10 : FVec F S128x64 .f32) (main_arg11 : FVec F S64 .f32) (main_arg12 : FVec F S64x1 .f32) (main_arg13 : FVec F S1 .f32) (main_arg14 : IVec S800000 32) (main_arg15 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S1x64 : Shape := ⟨2, ![1, 64]⟩
abbrev S5000x64 : Shape := ⟨2, ![5000, 64]⟩
abbrev S802816 : Shape := ⟨1, ![802816]⟩
abbrev S802816x1 : Shape := ⟨2, ![802816, 1]⟩
abbrev S802816x64 : Shape := ⟨2, ![802816, 64]⟩
abbrev S1x1 : Shape := ⟨2, ![1, 1]⟩
abbrev S802816x128 : Shape := ⟨2, ![802816, 128]⟩
abbrev S4096x64 : Shape := ⟨2, ![4096, 64]⟩
abbrev S4096 : Shape := ⟨1, ![4096]⟩
abbrev S4096x128 : Shape := ⟨2, ![4096, 128]⟩
abbrev S4096x1 : Shape := ⟨2, ![4096, 1]⟩
abbrev S5000x128 : Shape := ⟨2, ![5000, 128]⟩
abbrev S5000x1 : Shape := ⟨2, ![5000, 1]⟩

abbrev nBuf : Space → Nat
  | .hbm => 113
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S1x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S_, .i32⟩
  | .hbm, ⟨36, _⟩ => ⟨S802816, .i32⟩
  | .hbm, ⟨37, _⟩ => ⟨S_, .i32⟩
  | .hbm, ⟨38, _⟩ => ⟨S_, .i32⟩
  | .hbm, ⟨39, _⟩ => ⟨S802816, .i32⟩
  | .hbm, ⟨40, _⟩ => ⟨S_, .i32⟩
  | .hbm, ⟨41, _⟩ => ⟨S_, .f32⟩
  | .hbm, ⟨42, _⟩ => ⟨S802816, .f32⟩
  | .hbm, ⟨43, _⟩ => ⟨S_, .i32⟩
  | .hbm, ⟨44, _⟩ => ⟨S802816, .i32⟩
  | .hbm, ⟨45, _⟩ => ⟨S802816, .i1⟩
  | .hbm, ⟨46, _⟩ => ⟨S_, .i32⟩
  | .hbm, ⟨47, _⟩ => ⟨S802816, .i32⟩
  | .hbm, ⟨48, _⟩ => ⟨S802816, .i32⟩
  | .hbm, ⟨49, _⟩ => ⟨S802816, .i32⟩
  | .hbm, ⟨50, _⟩ => ⟨S802816x1, .i32⟩
  | .hbm, ⟨51, _⟩ => ⟨S802816x64, .f32⟩
  | .hbm, ⟨52, _⟩ => ⟨S_, .i32⟩
  | .hbm, ⟨53, _⟩ => ⟨S802816, .i32⟩
  | .hbm, ⟨54, _⟩ => ⟨S802816, .i1⟩
  | .hbm, ⟨55, _⟩ => ⟨S_, .i32⟩
  | .hbm, ⟨56, _⟩ => ⟨S802816, .i32⟩
  | .hbm, ⟨57, _⟩ => ⟨S802816, .i32⟩
  | .hbm, ⟨58, _⟩ => ⟨S802816, .i32⟩
  | .hbm, ⟨59, _⟩ => ⟨S802816x1, .i32⟩
  | .hbm, ⟨60, _⟩ => ⟨S802816x64, .f32⟩
  | .hbm, ⟨61, _⟩ => ⟨S_, .i32⟩
  | .hbm, ⟨62, _⟩ => ⟨S802816, .i32⟩
  | .hbm, ⟨63, _⟩ => ⟨S802816, .i1⟩
  | .hbm, ⟨64, _⟩ => ⟨S_, .i32⟩
  | .hbm, ⟨65, _⟩ => ⟨S802816, .i32⟩
  | .hbm, ⟨66, _⟩ => ⟨S802816, .i32⟩
  | .hbm, ⟨67, _⟩ => ⟨S802816, .i32⟩
  | .hbm, ⟨68, _⟩ => ⟨S802816x1, .i32⟩
  | .hbm, ⟨69, _⟩ => ⟨S802816, .f32⟩
  | .hbm, ⟨70, _⟩ => ⟨S_, .i32⟩
  | .hbm, ⟨71, _⟩ => ⟨S802816, .i32⟩
  | .hbm, ⟨72, _⟩ => ⟨S802816, .i1⟩
  | .hbm, ⟨73, _⟩ => ⟨S_, .i32⟩
  | .hbm, ⟨74, _⟩ => ⟨S802816, .i32⟩
  | .hbm, ⟨75, _⟩ => ⟨S802816, .i32⟩
  | .hbm, ⟨76, _⟩ => ⟨S802816, .i32⟩
  | .hbm, ⟨77, _⟩ => ⟨S802816x1, .i32⟩
  | .hbm, ⟨78, _⟩ => ⟨S802816, .f32⟩
  | .hbm, ⟨79, _⟩ => ⟨S_, .i32⟩
  | .hbm, ⟨80, _⟩ => ⟨S802816, .i32⟩
  | .hbm, ⟨81, _⟩ => ⟨S802816, .i1⟩
  | .hbm, ⟨82, _⟩ => ⟨S_, .i32⟩
  | .hbm, ⟨83, _⟩ => ⟨S802816, .i32⟩
  | .hbm, ⟨84, _⟩ => ⟨S802816, .i32⟩
  | .hbm, ⟨85, _⟩ => ⟨S802816, .i32⟩
  | .hbm, ⟨86, _⟩ => ⟨S802816x1, .i32⟩
  | .hbm, ⟨87, _⟩ => ⟨S802816x64, .f32⟩
  | .hbm, ⟨88, _⟩ => ⟨S_, .i32⟩
  | .hbm, ⟨89, _⟩ => ⟨S802816, .i32⟩
  | .hbm, ⟨90, _⟩ => ⟨S802816, .i1⟩
  | .hbm, ⟨91, _⟩ => ⟨S_, .i32⟩
  | .hbm, ⟨92, _⟩ => ⟨S802816, .i32⟩
  | .hbm, ⟨93, _⟩ => ⟨S802816, .i32⟩
  | .hbm, ⟨94, _⟩ => ⟨S802816, .i32⟩
  | .hbm, ⟨95, _⟩ => ⟨S802816x1, .i32⟩
  | .hbm, ⟨96, _⟩ => ⟨S802816x64, .f32⟩
  | .hbm, ⟨97, _⟩ => ⟨S1x64, .f32⟩
  | .hbm, ⟨98, _⟩ => ⟨S1x1, .f32⟩
  | .hbm, ⟨99, _⟩ => ⟨S802816x128, .f32⟩
  | .hbm, ⟨100, _⟩ => ⟨S802816x64, .f32⟩
  | .hbm, ⟨101, _⟩ => ⟨S802816x64, .f32⟩
  | .hbm, ⟨102, _⟩ => ⟨S_, .f32⟩
  | .hbm, ⟨103, _⟩ => ⟨S50000x64, .f32⟩
  | .hbm, ⟨104, _⟩ => ⟨S802816x1, .i32⟩
  | .hbm, ⟨105, _⟩ => ⟨S50000x64, .f32⟩
  | .hbm, ⟨106, _⟩ => ⟨S_, .f32⟩
  | .hbm, ⟨107, _⟩ => ⟨S50000x64, .f32⟩
  | .hbm, ⟨108, _⟩ => ⟨S802816x1, .i32⟩
  | .hbm, ⟨109, _⟩ => ⟨S50000x64, .f32⟩
  | .hbm, ⟨110, _⟩ => ⟨S1x64, .f32⟩
  | .hbm, ⟨111, _⟩ => ⟨S1x1, .f32⟩
  | .hbm, ⟨112, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S4096, .f32⟩
  | .local _ .vmem, ⟨15, _⟩ => ⟨S4096, .f32⟩
  | .local _ .vmem, ⟨16, _⟩ => ⟨S4096, .f32⟩
  | .local _ .vmem, ⟨17, _⟩ => ⟨S4096, .f32⟩
  | .local _ .vmem, ⟨18, _⟩ => ⟨S4096, .f32⟩
  | .local _ .vmem, ⟨19, _⟩ => ⟨S4096, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S128x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S4096x128, .f32⟩
  | .local _ .vmem, ⟨29, _⟩ => ⟨S4096x128, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S128x64, .f32⟩
  | .local _ .vmem, ⟨37, _⟩ => ⟨S1x64, .f32⟩
  | .local _ .vmem, ⟨38, _⟩ => ⟨S64x1, .f32⟩
  | .local _ .vmem, ⟨39, _⟩ => ⟨S1x1, .f32⟩
  | .local _ .vmem, ⟨40, _⟩ => ⟨S5000x64, .f32⟩
  | .local _ .vmem, ⟨41, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_c : Ref sig .tc := ⟨.hbm, 34, rfl⟩
abbrev main_call0_v0 : Ref sig .tc := ⟨.hbm, 35, rfl⟩
abbrev main_v13 : Ref sig .tc := ⟨.hbm, 36, rfl⟩
abbrev main_c_3 : Ref sig .tc := ⟨.hbm, 37, rfl⟩
abbrev main_call1_v0 : Ref sig .tc := ⟨.hbm, 38, rfl⟩
abbrev main_v14 : Ref sig .tc := ⟨.hbm, 39, rfl⟩
abbrev main_c_4 : Ref sig .tc := ⟨.hbm, 40, rfl⟩
abbrev main_call2_v0 : Ref sig .tc := ⟨.hbm, 41, rfl⟩
abbrev main_v15 : Ref sig .tc := ⟨.hbm, 42, rfl⟩
abbrev main_c_5 : Ref sig .tc := ⟨.hbm, 43, rfl⟩
abbrev main_v16 : Ref sig .tc := ⟨.hbm, 44, rfl⟩
abbrev main_v17 : Ref sig .tc := ⟨.hbm, 45, rfl⟩
abbrev main_c_6 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_7 : Ref sig .tc := ⟨.hbm, 52, rfl⟩
abbrev main_v23 : Ref sig .tc := ⟨.hbm, 53, rfl⟩
abbrev main_v24 : Ref sig .tc := ⟨.hbm, 54, rfl⟩
abbrev main_c_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_9 : Ref sig .tc := ⟨.hbm, 61, rfl⟩
abbrev main_v30 : Ref sig .tc := ⟨.hbm, 62, rfl⟩
abbrev main_v31 : Ref sig .tc := ⟨.hbm, 63, rfl⟩
abbrev main_c_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_11 : Ref sig .tc := ⟨.hbm, 70, rfl⟩
abbrev main_v37 : Ref sig .tc := ⟨.hbm, 71, rfl⟩
abbrev main_v38 : Ref sig .tc := ⟨.hbm, 72, rfl⟩
abbrev main_c_12 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_13 : Ref sig .tc := ⟨.hbm, 79, rfl⟩
abbrev main_v44 : Ref sig .tc := ⟨.hbm, 80, rfl⟩
abbrev main_v45 : Ref sig .tc := ⟨.hbm, 81, rfl⟩
abbrev main_c_14 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_15 : Ref sig .tc := ⟨.hbm, 88, rfl⟩
abbrev main_v51 : Ref sig .tc := ⟨.hbm, 89, rfl⟩
abbrev main_v52 : Ref sig .tc := ⟨.hbm, 90, rfl⟩
abbrev main_c_16 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_18 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  pads_S800000_S802816_028160 : S800000.Pads (![0] : Fin 1 → Nat) ![2816] ![0] S802816
  h_S_ : 0 < S_.numel
  bcast_S_S802816 : S_.BroadcastsInDim S802816 (![] : Fin 0 → Fin S802816.rank)
  bcast_S802816_S802816x1_0 : S802816.BroadcastsInDim S802816x1 (![0] : Fin 1 → Fin S802816x1.rank)
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096_S4096_0 : ∀ a, (![0] : Fin 1 → Nat) a + S4096.size a ≤ S4096.size a
  h_S4096 : 0 < S4096.numel
  shapeCasts_S4096_S4096 : S4096.ShapeCasts S4096
  concatenates_S4096x64_S4096x64_S4096x128_d1 : Shape.Concatenates [S4096x64, S4096x64] S4096x128 1
  inb_S128x64_S128x64_0_0 : ∀ a, (![0, 0] : Fin 2 → Nat) a + S128x64.size a ≤ S128x64.size a
  h_S128x64 : 0 < S128x64.numel
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S4096 : S4096x1.ShapeCasts S4096
  natLt_1_32 : 1 < 32
  shapeCasts_S4096_S4096x1 : S4096.ShapeCasts S4096x1
  broadcasts_S4096x1_S4096x64 : S4096x1.Broadcasts S4096x64
  inb_S4096x128_S4096x128_0_0 : ∀ a, (![0, 0] : Fin 2 → Nat) a + S4096x128.size a ≤ S4096x128.size a
  h_S4096x128 : 0 < S4096x128.numel
  slices_S802816x128_S802816x64_0_0 : S802816x128.Slices ![0, 0] S802816x64
  slices_S802816x128_S802816x64_0_64 : S802816x128.Slices ![0, 64] S802816x64
  bcast_S_S50000x64 : S_.BroadcastsInDim S50000x64 (![] : Fin 0 → Fin S50000x64.rank)
  shapeCasts_S5000x64_S5000x64 : S5000x64.ShapeCasts S5000x64
  concatenates_S5000x64_S5000x64_S5000x128_d1 : Shape.Concatenates [S5000x64, S5000x64] S5000x128 1
  broadcasts_S1x1_S5000x1 : S1x1.Broadcasts S5000x1
  broadcasts_S5000x1_S5000x64 : S5000x1.Broadcasts S5000x64
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S802816x1_S802816x64_1_0_n_n_0_1_164_wf : GatherDims.WF S50000x64 S802816x1 S802816x64 [1] [0] [] [0] [] 1 ![1, 64]
  gather_S50000_S802816x1_S802816_n_0_n_n_0_1_1_wf : GatherDims.WF S50000 S802816x1 S802816 [] [0] [] [0] [] 1 ![1]
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  scatter_S50000x64_S802816x1_S802816x64_1_0_0_1_wf : ScatterDims.WF S50000x64 S802816x1 S802816x64 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S802816x64.size a
  hwx1_0 : ∀ i : grid1.Coords, EltTy.bits .f32 = 32 ∨ (Rect.block (s := S802816x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S802816x64.size a
  hwx1_1 : ∀ i : grid1.Coords, EltTy.bits .f32 = 32 ∨ (Rect.block (s := S802816x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S802816.size a
  hwx1_2 : ∀ i : grid1.Coords, EltTy.bits .f32 = 32 ∨ (Rect.block (s := S802816) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S802816.size a
  hwx1_3 : ∀ i : grid1.Coords, EltTy.bits .f32 = 32 ∨ (Rect.block (s := S802816) S4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096.size a ≤ S802816.size a
  hwx1_4 : ∀ i : grid1.Coords, EltTy.bits .f32 = 32 ∨ (Rect.block (s := S802816) S4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S802816x64.size a
  hwx1_5 : ∀ i : grid1.Coords, EltTy.bits .f32 = 32 ∨ (Rect.block (s := S802816x64) S4096x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S802816x64.size a
  hwx1_6 : ∀ i : grid1.Coords, EltTy.bits .f32 = 32 ∨ (Rect.block (s := S802816x64) S4096x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x1.size a ≤ S64x1.size a
  hwx1_9 : ∀ i : grid1.Coords, EltTy.bits .f32 = 32 ∨ (Rect.block (s := S64x1) S64x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x128.size a ≤ S802816x128.size a
  hwx1_11 : ∀ i : grid1.Coords, EltTy.bits .f32 = 32 ∨ (Rect.block (s := S802816x128) S4096x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S802816x1_S802816x64_1_0_n_n_0_1_164 : GatherDims S50000x64 S802816x1 S802816x64 where
  offsetDims := [1]
  collapsedSliceDims := [0]
  operandBatchingDims := []
  startIndicesBatchingDims := []
  startIndexMap := [0]
  indexVectorDim := 1
  sliceSizes := ![1, 64]
  wf := gather_S50000x64_S802816x1_S802816x64_1_0_n_n_0_1_164_wf
def gather_S50000_S802816x1_S802816_n_0_n_n_0_1_1 : GatherDims S50000 S802816x1 S802816 where
  offsetDims := []
  collapsedSliceDims := [0]
  operandBatchingDims := []
  startIndicesBatchingDims := []
  startIndexMap := [0]
  indexVectorDim := 1
  sliceSizes := ![1]
  wf := gather_S50000_S802816x1_S802816_n_0_n_n_0_1_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def scatter_S50000x64_S802816x1_S802816x64_1_0_0_1 : ScatterDims S50000x64 S802816x1 S802816x64 where
  updateWindowDims := [1]
  insertedWindowDims := [0]
  scatterDimsToOperandDims := [0]
  indexVectorDim := 1
  wf := scatter_S50000x64_S802816x1_S802816x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S4096x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v57) S4096x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg8) S64x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v60) S4096x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S64x1 : Shape := ⟨2, ![64, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S1x1 : Shape := ⟨2, ![1, 1]⟩
abbrev S50000x128 : Shape := ⟨2, ![50000, 128]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x64, .f32⟩
  | 1 => ⟨S800000, .f32⟩
  | 2 => ⟨S64x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S64x1, .f32⟩
  | 9 => ⟨S1, .f32⟩
  | 10 => ⟨S128x64, .f32⟩
  | 11 => ⟨S64, .f32⟩
  | 12 => ⟨S64x1, .f32⟩
  | 13 => ⟨S1, .f32⟩
  | 14 => ⟨S800000, .i32⟩
  | 15 => ⟨S800000, .i32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x128, .f32⟩
  | 49 => ⟨S800000x64, .f32⟩
  | 50 => ⟨S1x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S800000x1, .f32⟩
  | 57 => ⟨S1x1, .f32⟩
  | 58 => ⟨S800000x1, .f32⟩
  | 59 => ⟨S800000x1, .f32⟩
  | 60 => ⟨S800000x1, .f32⟩
  | 61 => ⟨S800000x1, .f32⟩
  | 62 => ⟨S_, .f32⟩
  | 63 => ⟨S800000x1, .f32⟩
  | 64 => ⟨S800000x1, .f32⟩
  | 65 => ⟨S_, .f32⟩
  | 66 => ⟨S800000x1, .f32⟩
  | 67 => ⟨S800000x1, .f32⟩
  | 68 => ⟨S800000, .f32⟩
  | 69 => ⟨S_, .f32⟩
  | 70 => ⟨S800000, .f32⟩
  | 71 => ⟨S800000, .i1⟩
  | 72 => ⟨S800000, .f32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S800000, .f32⟩
  | 94 => ⟨S800000, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S800000x1, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x64, .f32⟩

abbrev hbmTy0_1 (i : Nat) : BufTy := match i % 128 with
  | 0 => ⟨S800000x64, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S50000x128, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S50000x1, .f32⟩
  | 16 => ⟨S1x1, .f32⟩
  | 17 => ⟨S50000x1, .f32⟩
  | 18 => ⟨S50000x1, .f32⟩
  | 19 => ⟨S50000x1, .f32⟩
  | 20 => ⟨S50000x1, .f32⟩
  | 21 => ⟨S_, .f32⟩
  | 22 => ⟨S50000x1, .f32⟩
  | 23 => ⟨S50000x1, .f32⟩
  | 24 => ⟨S_, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S50000x64, .f32⟩
  | 31 => ⟨S50000x64, .f32⟩
  | 32 => ⟨S_, .f32⟩
  | 33 => ⟨S50000x1, .f32⟩
  | 34 => ⟨S50000x1, .f32⟩
  | 35 => ⟨S_, .f32⟩
  | 36 => ⟨S50000x1, .f32⟩
  | 37 => ⟨S50000x1, .f32⟩
  | 38 => ⟨S50000x64, .f32⟩
  | 39 => ⟨S50000x64, .f32⟩
  | 40 => ⟨S50000x64, .f32⟩
  | 41 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call1_cst : Ref sig .tc := ⟨.hbm, 140, rfl⟩
abbrev main_call1_v0 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_19 : Ref sig .tc := ⟨.hbm, 149, rfl⟩
abbrev main_v108 : Ref sig .tc := ⟨.hbm, 150, rfl⟩
abbrev main_v109 : Ref sig .tc := ⟨.hbm, 151, rfl⟩
abbrev main_cst_20 : Ref sig .tc := ⟨.hbm, 152, rfl⟩
abbrev main_v110 : Ref sig .tc := ⟨.hbm, 153, rfl⟩
abbrev main_v111 : Ref sig .tc := ⟨.hbm, 154, rfl⟩
abbrev main_cst_21 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_cst_23 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x1_S800000x1_1_0_0_1_n_n_wf : DotDims.WF S800000x64 S64x1 S800000x1 [1] [0] [0] [1] [] []
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The three dense stages of the layer, each as one function of whole arrays, element by element, over the
  extended reals.

  * `lin`: a row of the node features times a weight matrix, plus a bias row.
  * `msg`: per edge row, the edge weight `count · keep · (outdeg · indeg)^(-1/2)` — `keep` the 0/1 answer of a
    two-layer perceptron on the two endpoint rows laid side by side — times the source-side row in columns
    0 … 63 and times the destination-side row in columns 64 … 127.
  * `blend`: per node, a gate in (0, 1) from a two-layer perceptron on the two aggregated rows laid side by side,
    then `½ · gate · in + ½ · (1 − gate) · out + x`.

  Float literals stay as their words; none is evaluated here.
-/
import Idealize.ShloMosaic.PureOps.Ideal
import Idealize.ShloMosaic.Lib.ValueIdx

noncomputable section

namespace Cert.Gcn

open Idealize.ShloMosaic Idealize.ShloMosaic.ValueIdx

/-- A two-axis array of extended reals. -/
abbrev Arr2 (n m : Nat) : Type := (⟨2, ![n, m]⟩ : Shape).Idx → EReal
/-- A one-axis array of extended reals. -/
abbrev Arr1 (n : Nat) : Type := (⟨1, ![n]⟩ : Shape).Idx → EReal

/-- The word of `0.0`. -/
abbrev zeroW : EReal := Ideal.ofBits .f32 0x00000000#32
/-- The word of `0.5`. -/
abbrev halfW : EReal := Ideal.ofBits .f32 0x3F000000#32
/-- The word of `1.0`. -/
abbrev oneW : EReal := Ideal.ofBits .f32 0x3F800000#32

/-! ## The linear layer -/

/-- Entry `(n, d)` of `x · W + b`: the sum over the 64 input features. -/
def linAt (x : Arr2 50000 64) (W : Arr2 64 64) (b : Arr2 1 64) (n : Fin 50000) (d : Fin 64) : EReal :=
  (∑ k : Fin 64, x (ix2 n k) * W (ix2 k d)) + b (ix2 0 d)

/-- `x · W + b` as an array. -/
def lin (x : Arr2 50000 64) (W : Arr2 64 64) (b : Arr2 1 64) : Arr2 50000 64 :=
  fun i => linAt x W b (i 0) (i 1)

/-! ## Two rows side by side -/

/-- Column `l` of two 64-wide rows laid side by side: the first for `l < 64`, the second after. -/
def sideBySide {R : Nat} (a b : Arr2 R 64) (r : Fin R) (l : Fin 128) : EReal :=
  if h : l.val < 64 then a (ix2 r ⟨l.val, h⟩) else b (ix2 r ⟨l.val - 64, by omega⟩)

/-- The hidden layer of a two-layer perceptron on a 128-wide row: unit `k`, clamped below at the word of zero. -/
def hidden {R : Nat} (a b : Arr2 R 64) (W1 : Arr2 128 64) (b1 : Arr2 1 64) (r : Fin R) (k : Fin 64) : EReal :=
  max ((∑ l : Fin 128, sideBySide a b r l * W1 (ix2 l k)) + b1 (ix2 0 k)) zeroW

/-- The perceptron's one output for row `r`, before any squashing. -/
def logit {R : Nat} (a b : Arr2 R 64) (W1 : Arr2 128 64) (b1 : Arr2 1 64) (W2 : Arr2 64 1) (b2 : Arr2 1 1)
    (r : Fin R) : EReal :=
  (∑ k : Fin 64, hidden a b W1 b1 r k * W2 (ix2 k 0)) + b2 (ix2 0 0)

/-! ## The edge message -/

/-- `1` where the logit is at least the word of zero, else `0`: the comparison's bit widened and read as a number. -/
def keepOfSign (z : EReal) : EReal :=
  FloatOps.sitofp (F := Ideal) .f32 ((FloatOps.cmpf (F := Ideal) (φ := .f32) .oge z zeroW).setWidth 32)

/-- The weight of edge row `e`: its count, times `keep`, times the inverse square root of the two degrees' product. -/
def edgeWeight {R : Nat} (xs xd : Arr2 R 64) (od idg cnt : Arr1 R) (W1 : Arr2 128 64) (b1 : Arr2 1 64) (W2 : Arr2 64 1)
    (b2 : Arr2 1 1) (e : Fin R) : EReal :=
  cnt (ix1 e) * keepOfSign (logit xs xd W1 b1 W2 b2 e) * Ideal.rsqrt (od (ix1 e) * idg (ix1 e))

/-- Entry `(e, q)` of the message tile: the weight times the source-side row for `q < 64`, times the
    destination-side row after. -/
def msgAt {R : Nat} (xs xd : Arr2 R 64) (od idg cnt : Arr1 R) (hs hd : Arr2 R 64) (W1 : Arr2 128 64) (b1 : Arr2 1 64)
    (W2 : Arr2 64 1) (b2 : Arr2 1 1) (e : Fin R) (q : Fin 128) : EReal :=
  if h : q.val < 64 then edgeWeight xs xd od idg cnt W1 b1 W2 b2 e * hs (ix2 e ⟨q.val, h⟩)
  else edgeWeight xs xd od idg cnt W1 b1 W2 b2 e * hd (ix2 e ⟨q.val - 64, by omega⟩)

/-- The message tile as an array. -/
def msg {R : Nat} (xs xd : Arr2 R 64) (od idg cnt : Arr1 R) (hs hd : Arr2 R 64) (W1 : Arr2 128 64) (b1 : Arr2 1 64)
    (W2 : Arr2 64 1) (b2 : Arr2 1 1) : Arr2 R 128 :=
  fun i => msgAt xs xd od idg cnt hs hd W1 b1 W2 b2 (i 0) (i 1)

/-! ## The gated blend -/

/-- The gate of node `n`: the logistic function of the perceptron's output on the two aggregated rows. -/
def gate (A B : Arr2 50000 64) (W1 : Arr2 128 64) (b1 : Arr2 1 64) (W2 : Arr2 64 1) (b2 : Arr2 1 1) (n : Fin 50000) : EReal :=
  Ideal.logistic (logit A B W1 b1 W2 b2 n)

/-- `½ · gate · A + ½ · (1 − gate) · B + x`, element by element. -/
def blend (A B x : Arr2 50000 64) (W1 : Arr2 128 64) (b1 : Arr2 1 64) (W2 : Arr2 64 1) (b2 : Arr2 1 1) : Arr2 50000 64 :=
  fun i =>
    ((halfW * gate A B W1 b1 W2 b2 (i 0)) * A i + (halfW * (oneW - gate A B W1 b1 W2 b2 (i 0))) * B i) + x i

end Cert.Gcn

end
-- ==== Proof.KTerm.lean ====
/-
  The kernel program's result as one term of its sixteen arguments: the degree sums, the first region's two
  linear layers, the edge lists padded to a whole number of tiles and the six row look-ups through them, the second
  region's message tile, its two column halves summed into their nodes, and the third region's gated blend.
-/
import proofs.«401522_j37752762532077_4_alg».proof.Proof.Gen.KernelIdeal
import proofs.«401522_j37752762532077_4_alg».proof.Proof.Spec

noncomputable section

namespace Cert.KernelIdeal.Gcn

open Cert.KernelIdeal Idealize.ShloMosaic Idealize.ShloMosaic.TcCoe
open Facts₀ Facts

/-- A node's degree: the counts of the edges whose index lands on it, summed, and at least one. -/
def degOf (idx : IVec S800000 32) (cnt : FVec Ideal S800000 .f32) : FVec Ideal S50000 .f32 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 idx) cnt)
    (broadcastInDim S50000 ![] bcast_S_S50000 (constant S_ .f32 0x3F800000#32))

/-- An edge index list with 2816 trailing zeros. -/
def padIdx (idx : IVec S800000 32) : IVec S802816 32 :=
  pad S802816 ![0] ![2816] ![0] idx (id (constantI S_ 32 0#32)) pads_S800000_S802816_028160 h_S_

/-- The edge counts with 2816 trailing zeros. -/
def padCnt (cnt : FVec Ideal S800000 .f32) : FVec Ideal S802816 .f32 :=
  pad S802816 ![0] ![2816] ![0] cnt (sitofp (F := Ideal) .f32 (constantI S_ 32 0#32)) pads_S800000_S802816_028160 h_S_

/-- A padded index list as a column of start indices, a negative index first moved up by the node count. -/
def startCol (p : IVec S802816 32) : IVec S802816x1 32 :=
  broadcastInDim S802816x1 ![0] bcast_S802816_S802816x1_0
    (select (cmpi .slt p (broadcastInDim S802816 ![] bcast_S_S802816 (constantI S_ 32 0#32)))
      (addi p (broadcastInDim S802816 ![] bcast_S_S802816 (constantI S_ 32 50000#32))) p)

/-- The rows of a node table the padded index list names. -/
def rowsOf (t : FVec Ideal S50000x64 .f32) (p : IVec S802816 32) : FVec Ideal S802816x64 .f32 :=
  Host.gather gather_S50000x64_S802816x1_S802816x64_1_0_n_n_0_1_164 t (startCol p)

/-- The entries of a node vector the padded index list names. -/
def entriesOf (t : FVec Ideal S50000 .f32) (p : IVec S802816 32) : FVec Ideal S802816 .f32 :=
  Host.gather gather_S50000_S802816x1_S802816_n_0_n_n_0_1_1 t (startCol p)

/-- A bias vector as a one-row matrix. -/
def row64 (b : FVec Ideal S64 .f32) : FVec Ideal S1x64 .f32 := shapeCast S1x64 b shapeCasts_S64_S1x64
/-- A one-entry bias as a one-by-one matrix. -/
def row1 (b : FVec Ideal S1 .f32) : FVec Ideal S1x1 .f32 := shapeCast S1x1 b shapeCasts_S1_S1x1

/-- Message rows summed into the nodes the (unmoved) padded index list names, from zero. -/
def sumInto (p : IVec S802816 32) (u : FVec Ideal S802816x64 .f32) : FVec Ideal S50000x64 .f32 :=
  Host.scatterAdd scatter_S50000x64_S802816x1_S802816x64_1_0_0_1
    (broadcastInDim S50000x64 ![] bcast_S_S50000x64 (constant S_ .f32 0x00000000#32))
    (broadcastInDim S802816x1 ![0] bcast_S802816_S802816x1_0 p) u

section
variable (x0 : FVec Ideal S50000x64 .f32) (x1 : FVec Ideal S800000 .f32) (x2 : FVec Ideal S64x64 .f32) (x3 : FVec Ideal S64 .f32)
  (x4 : FVec Ideal S64x64 .f32) (x5 : FVec Ideal S64 .f32) (x6 : FVec Ideal S128x64 .f32) (x7 : FVec Ideal S64 .f32)
  (x8 : FVec Ideal S64x1 .f32) (x9 : FVec Ideal S1 .f32) (x10 : FVec Ideal S128x64 .f32) (x11 : FVec Ideal S64 .f32)
  (x12 : FVec Ideal S64x1 .f32) (x13 : FVec Ideal S1 .f32) (x14 x15 : IVec S800000 32)

/-- The message tile of the padded edge list: 802816 rows of 128. -/
def msgTile : FVec Ideal S802816x128 .f32 :=
  Cert.Gcn.msg (rowsOf x0 (padIdx x14)) (rowsOf x0 (padIdx x15)) (entriesOf (degOf x14 x1) (padIdx x14))
    (entriesOf (degOf x15 x1) (padIdx x15)) (padCnt x1) (rowsOf (Cert.Gcn.lin x0 x2 (row64 x3)) (padIdx x14))
    (rowsOf (Cert.Gcn.lin x0 x4 (row64 x5)) (padIdx x15)) x6 (row64 x7) x8 (row1 x9)

/-- The inbound aggregate: the tile's first 64 columns summed into the destination nodes. -/
def aggIn : FVec Ideal S50000x64 .f32 :=
  sumInto (padIdx x15) (extractStridedSlice S802816x64 ![0, 0] (msgTile x0 x1 x2 x3 x4 x5 x6 x7 x8 x9 x14 x15) slices_S802816x128_S802816x64_0_0)

/-- The outbound aggregate: the tile's last 64 columns summed into the source nodes. -/
def aggOut : FVec Ideal S50000x64 .f32 :=
  sumInto (padIdx x14) (extractStridedSlice S802816x64 ![0, 64] (msgTile x0 x1 x2 x3 x4 x5 x6 x7 x8 x9 x14 x15) slices_S802816x128_S802816x64_0_64)

/-- The kernel program's result. -/
def kernelOut : FVec Ideal S50000x64 .f32 :=
  Cert.Gcn.blend (aggIn x0 x1 x2 x3 x4 x5 x6 x7 x8 x9 x14 x15) (aggOut x0 x1 x2 x3 x4 x5 x6 x7 x8 x9 x14 x15) x0 x10 (row64 x11) x12 (row1 x13)

end

end Cert.KernelIdeal.Gcn

end
-- ==== Proof.KReg0.lean ====
/-
  The first region: ten blocks of 5000 node rows, each written back as its rows of x · W + b for the two weight matrices, tile the two result arrays.
-/
import proofs.«401522_j37752762532077_4_alg».proof.Proof.Gen.KernelIdeal.Frame
import proofs.«401522_j37752762532077_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block's arithmetic at one entry -/

/-- A block's origin: offset zero on both axes. -/
theorem lin_origin_zero : (![0, 0] : Fin 2 → Nat) = fun _ => 0 := funext fun a => by fin_cases a <;> rfl

-- The product contracts the row block's axis 1 with the weight matrix's axis 0: the left operand is read at
-- (output row, contraction position), the right operand at (contraction position, output column).
theorem lin_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lin_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem lin_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem lin_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at row `p` and column `q`: the sum over the 64 features of
    the block's row `p` against the weight matrix's column `q`. -/
theorem lin_block_product_apply (x : FVec Ideal S5000x64 .f32) (w : FVec Ideal S64x64 .f32) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  show FloatOps.matmul dot_S5000x64_S64x64_S5000x64_1_0_0_1_n_n none x w (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lin_lhs_0 _ _
    | ⟨1, _⟩ => exact (lin_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (lin_rhs_0 _ _).trans hk
    | ⟨1, _⟩ => exact lin_rhs_1 _ _)
  rw [el, er]

/-- What the body stores, at row `p` and column `q` of the block: the product's entry plus the bias row's entry
    in column `q` (the bias row is cast to its own shape, then repeated down the 5000 rows). -/
theorem lin_payload_apply (x : Vec Ideal S5000x64 .f32) (w : Vec Ideal S64x64 .f32) (b : Vec Ideal S1x64 .f32)
    (p : Fin 5000) (q : Fin 64) :
    k0_pay1 (F := Ideal) x w b (ix2 p q) = (∑ k : Fin 64, x (ix2 p k) * w (ix2 k q)) + b (ix2 (0 : Fin 1) q) := by
  unfold k0_pay1
  refine (addf_apply _ _ _).trans ?_
  refine congrArg₂ (· + ·) (lin_block_product_apply x w p q) ?_
  exact (broadcastTo_1b_ab_apply _ _ p q).trans (congrFun (shapeCast_self b _) _)

/-- The second store's arithmetic is the first's, on the other weight matrix and bias row. -/
theorem lin_second_payload_eq (x : Vec Ideal S5000x64 .f32) (w : Vec Ideal S64x64 .f32) (b : Vec Ideal S1x64 .f32) :
    k0_pay2 (F := Ideal) x w b = k0_pay1 (F := Ideal) x w b := rfl

/-! ## From the ten blocks to the two arrays -/

/-- The index maps, decided over the ten points: the row-blocked windows (the node rows, the two results) sit at
    block `t` of axis 0 and block 0 of axis 1; the weight and bias windows sit at block 0 on both axes. -/
theorem lin_block_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- One stored entry is the specification's entry: when the row block's row `p` is the array's row `i 0`, the
    weight block's column `q` the matrix's column `i 1`, and the bias block's entry `q` the bias row's entry `i 1`. -/
theorem lin_stored_entry_eq (X : Cert.Gcn.Arr2 50000 64) (W : Cert.Gcn.Arr2 64 64) (B : Cert.Gcn.Arr2 1 64)
    (x : Vec Ideal S5000x64 .f32) (w : Vec Ideal S64x64 .f32) (b : Vec Ideal S1x64 .f32)
    (i : S50000x64.Idx) (p : Fin 5000) (q : Fin 64)
    (hx : ∀ k : Fin 64, x (ix2 p k) = X (ix2 (i 0) k))
    (hw : ∀ k : Fin 64, w (ix2 k q) = W (ix2 k (i 1)))
    (hb : b (ix2 (0 : Fin 1) q) = B (ix2 (0 : Fin 1) (i 1))) :
    k0_pay1 (F := Ideal) x w b (ix2 p q) = Cert.Gcn.lin X W B i := by
  rw [lin_payload_apply]
  show _ = (∑ k : Fin 64, X (ix2 (i 0) k) * W (ix2 k (i 1))) + B (ix2 (0 : Fin 1) (i 1))
  rw [hb]
  exact congrArg (· + _) (Finset.sum_congr rfl fun k _ => by rw [hx k, hw k])

-- the TensorCore's buffer contents when a region is entered
variable (V : (c : Dev nD) → (b : Ref sig .tc) → Buf (Elt Ideal) ((c : Thread nD τ).loc b))

/-- Row `p` of the node-row block at point `t` is row `5000 · t + p` of the node features. -/
theorem lin_node_rows_read (c : Dev nD) (t : Fin cfg0.N) (p : Fin 5000) (k : Fin 64) (r : Fin 50000)
    (hr : r.val = t.val * 5000 + p.val) :
    iblk0 V c 0 t (ix2 p k) = V c main_arg0 (ix2 r k) := by
  obtain ⟨e00, e01, -⟩ := lin_block_index_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- What point `t` writes back to the first result is block `t` of `x · W_s2d + b_s2d`: rows `5000 · t … 5000 · t + 4999`,
    each from the same rows of the node features, the whole weight matrix and the bias row. -/
theorem lin_first_flushed (c : Dev nD) (t : Fin cfg0.N) :
    (dat0 (F := Ideal) V c).flushed 5 t
      = ((cfg0.win 5).blk t).view.read (Elt Ideal) (Cert.Gcn.lin (V c main_arg0) (V c main_arg2) (V c main_v10)) := by
  show (cfg0.win 5).cut (grid0.coords t) ((dat0 V c).after 5 t) = _
  rw [after0_5]
  unfold out0_5
  rw [View.canon_unit_zero lin_origin_zero]
  simp only [View.ld_unit_zero (S := S5000x64) lin_origin_zero, View.ld_unit_zero (S := S64x64) lin_origin_zero, View.ld_unit_zero (S := S1x64) lin_origin_zero]
  obtain ⟨e00, e01, e10, e11, e20, e21, e30, e31, e40, e41, e50, e51, e60, e61⟩ := lin_block_index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = Cert.Gcn.lin (V c main_arg0) (V c main_arg2) (V c main_v10) (((cfg0.win 5).blk t).view.emb (ix2 p q))
  refine lin_stored_entry_eq (V c main_arg0) (V c main_arg2) (V c main_v10) (iblk0 V c 0 t) (iblk0 V c 1 t) (iblk0 V c 2 t)
    (((cfg0.win 5).blk t).view.emb (ix2 p q)) p q (fun k => ?_) (fun k => ?_) ?_
  · refine lin_node_rows_read V c t p k ((((cfg0.win 5).blk t).view.emb (ix2 p q)) 0) ?_
    show win0_5.index t (0 : Fin 2) * 5000 + 1 * p.val = t.val * 5000 + p.val
    omega
  · show V c main_arg2 (((cfg0.win 1).blk t).view.emb (ix2 k q)) = V c main_arg2 (ix2 k ((((cfg0.win 5).blk t).view.emb (ix2 p q)) 1))
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_5.index t (1 : Fin 2) * 64 + 1 * q.val; omega
  · show V c main_v10 (((cfg0.win 2).blk t).view.emb (ix2 (0 : Fin 1) q)) = V c main_v10 (ix2 (0 : Fin 1) ((((cfg0.win 5).blk t).view.emb (ix2 p q)) 1))
    refine congrArg (V c main_v10) (funext fun a => Fin.ext ?_)
    match a with
    | ⟨0, _⟩ => show win0_2.index t (0 : Fin 2) * 1 + 1 * 0 = 0; omega
    | ⟨1, _⟩ => show win0_2.index t (1 : Fin 2) * 64 + 1 * q.val = win0_5.index t (1 : Fin 2) * 64 + 1 * q.val; omega

/-- And to the second result, block `t` of `x · W_d2s + b_d2s`: the same rows against the other matrix and bias row. -/
theorem lin_second_flushed (c : Dev nD) (t : Fin cfg0.N) :
    (dat0 (F := Ideal) V c).flushed 6 t
      = ((cfg0.win 6).blk t).view.read (Elt Ideal) (Cert.Gcn.lin (V c main_arg0) (V c main_arg4) (V c main_v11)) := by
  show (cfg0.win 6).cut (grid0.coords t) ((dat0 V c).after 6 t) = _
  rw [after0_6]
  unfold out0_6
  rw [View.canon_unit_zero lin_origin_zero]
  simp only [View.ld_unit_zero (S := S5000x64) lin_origin_zero, View.ld_unit_zero (S := S64x64) lin_origin_zero, View.ld_unit_zero (S := S1x64) lin_origin_zero]
  rw [lin_second_payload_eq]
  obtain ⟨e00, e01, e10, e11, e20, e21, e30, e31, e40, e41, e50, e51, e60, e61⟩ := lin_block_index_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 3 t) (iblk0 V c 4 t) (ix2 p q)
    = Cert.Gcn.lin (V c main_arg0) (V c main_arg4) (V c main_v11) (((cfg0.win 6).blk t).view.emb (ix2 p q))
  refine lin_stored_entry_eq (V c main_arg0) (V c main_arg4) (V c main_v11) (iblk0 V c 0 t) (iblk0 V c 3 t) (iblk0 V c 4 t)
    (((cfg0.win 6).blk t).view.emb (ix2 p q)) p q (fun k => ?_) (fun k => ?_) ?_
  · refine lin_node_rows_read V c t p k ((((cfg0.win 6).blk t).view.emb (ix2 p q)) 0) ?_
    show win0_6.index t (0 : Fin 2) * 5000 + 1 * p.val = t.val * 5000 + p.val
    omega
  · show V c main_arg4 (((cfg0.win 3).blk t).view.emb (ix2 k q)) = V c main_arg4 (ix2 k ((((cfg0.win 6).blk t).view.emb (ix2 p q)) 1))
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 64 + 1 * q.val = win0_6.index t (1 : Fin 2) * 64 + 1 * q.val; omega
  · show V c main_v11 (((cfg0.win 4).blk t).view.emb (ix2 (0 : Fin 1) q)) = V c main_v11 (ix2 (0 : Fin 1) ((((cfg0.win 6).blk t).view.emb (ix2 p q)) 1))
    refine congrArg (V c main_v11) (funext fun a => Fin.ext ?_)
    match a with
    | ⟨0, _⟩ => show win0_4.index t (0 : Fin 2) * 1 + 1 * 0 = 0; omega
    | ⟨1, _⟩ => show win0_4.index t (1 : Fin 2) * 64 + 1 * q.val = win0_6.index t (1 : Fin 2) * 64 + 1 * q.val; omega

/-- An entry of the first result is in point `t`'s block iff each coordinate is in the block's range on its axis. -/
theorem lin_mem_first_block (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v12_0).slice (win0_5.rect t)).set ↔ _
  rw [View.set_slice_whole, Rect.mem_set_unit]
  exact Iff.rfl

/-- The same for the second result. -/
theorem lin_mem_second_block (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v12_1).slice (win0_6.rect t)).set ↔ _
  rw [View.set_slice_whole, Rect.mem_set_unit]
  exact Iff.rfl

/-- The ten blocks tile the first result: row `r` lies in the block of point `r / 5000`, and a block spans all 64 columns. -/
theorem lin_first_covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e00, e01, e10, e11, e20, e21, e30, e31, e40, e41, e50, e51, e60, e61⟩ := lin_block_index_facts t
  refine ⟨t, flush0_5 t, ?_⟩
  rw [lin_mem_first_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- And the second, the same way. -/
theorem lin_second_covered (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e00, e01, e10, e11, e20, e21, e30, e31, e40, e41, e50, e51, e60, e61⟩ := lin_block_index_facts t
  refine ⟨t, flush0_6 t, ?_⟩
  rw [lin_mem_second_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the first region the first result array holds `x · W_s2d + b_s2d`, whatever the region found in its buffers. -/
theorem h1_arr (c : Dev nD) :
    (dat0 (F := Ideal) V c).arrAt 5 cfg0.N = Cert.Gcn.lin (V c main_arg0) (V c main_arg2) (V c main_v10) :=
  (dat0 (F := Ideal) V c).arrAt_eq_of_cover 5 (Cert.Gcn.lin (V c main_arg0) (V c main_arg2) (V c main_v10))
    (fun t _ => lin_first_flushed V c t) lin_first_covered

/-- And the second holds `x · W_d2s + b_d2s`. -/
theorem h2_arr (c : Dev nD) :
    (dat0 (F := Ideal) V c).arrAt 6 cfg0.N = Cert.Gcn.lin (V c main_arg0) (V c main_arg4) (V c main_v11) :=
  (dat0 (F := Ideal) V c).arrAt_eq_of_cover 6 (Cert.Gcn.lin (V c main_arg0) (V c main_arg4) (V c main_v11))
    (fun t _ => lin_second_flushed V c t) lin_second_covered

end Cert.KernelIdeal.Gcn

end
-- ==== Proof.KReg1.lean ====
/-
  The second region: 196 blocks of 4096 edge rows, each written back as its rows of the message tile, tile the 802816 × 128 message array.

  First one block by itself, over any eleven input blocks: the body's value at entry (p, q) is the specification's
  message entry of those blocks — the two products of the perceptron are the sums over their shared axis, the
  joined block is the two rows side by side, the casts and broadcasts move an entry without changing it. Then the
  blocks in their arrays: block t of each of the seven edge arrays is rows (or entries) 4096·t … 4096·t + 4095, the
  four weight arrays are their own one block, and a message entry reads the edge arrays at its own row only; so grid
  point t writes back rows 4096·t … 4096·t + 4095 of the whole arrays' message tile. Row r lies in the block of point
  r / 4096, so the 196 blocks cover the array.
-/
import proofs.«401522_j37752762532077_4_alg».proof.Proof.Gen.KernelIdeal.Frame
import proofs.«401522_j37752762532077_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when a region is entered
variable (V : (c : Dev nD) → (b : Ref sig .tc) → Buf (Elt Ideal) ((c : Thread nD τ).loc b))

namespace EdgeMessage

/-! ## One block of 4096 edge rows

### The casts and broadcasts of the body, read at an index -/

/-- A 4096-vector cast to a one-column array reads, at (p, z), the vector at p. -/
theorem column_of_vector_apply (v : FVec Ideal S4096 .f32) (p : Fin 4096) (z : Fin 1) :
    shapeCast S4096x1 v shapeCasts_S4096_S4096x1 (ix2 p z) = v (ix1 p) :=
  shapeCast_apply v shapeCasts_S4096_S4096x1 _ _ (by
    have hz : z.val = 0 := by omega
    rw [Shape.rowMajor_val_two, Shape.rowMajor_val_one]
    show p.val = p.val * 1 + z.val
    rw [hz, Nat.mul_one, Nat.add_zero])

/-- A one-column array cast to a 4096-vector reads, at p, the column at (p, 0). -/
theorem vector_of_column_apply (v : FVec Ideal S4096x1 .f32) (p : Fin 4096) :
    shapeCast S4096 v shapeCasts_S4096x1_S4096 (ix1 p) = v (ix2 p (0 : Fin 1)) :=
  shapeCast_apply v shapeCasts_S4096x1_S4096 _ _ (by
    rw [Shape.rowMajor_val_two, Shape.rowMajor_val_one]
    show p.val * 1 + 0 = p.val
    rw [Nat.mul_one, Nat.add_zero])

/-- A one-column array broadcast over 64 columns reads, at (p, q), the column at (p, 0). -/
theorem column_broadcast_apply (v : FVec Ideal S4096x1 .f32) (p : Fin 4096) (q : Fin 64) :
    broadcastTo S4096x64 v broadcasts_S4096x1_S4096x64 (ix2 p q) = v (ix2 p (0 : Fin 1)) := by
  refine broadcastTo_apply v broadcasts_S4096x1_S4096x64 (ix2 p q) (ix2 p (0 : Fin 1)) fun ax => ?_
  match ax with
  | ⟨0, _⟩ => rfl
  | ⟨1, _⟩ => rfl

/-- The 1 × 1 bias broadcast down a column reads, at (p, z), its one entry. -/
theorem scalar_broadcast_apply (v : FVec Ideal S1x1 .f32) (p : Fin 4096) (z : Fin 1) :
    broadcastTo S4096x1 v broadcasts_S1x1_S4096x1 (ix2 p z) = v (ix2 (0 : Fin 1) (0 : Fin 1)) := by
  refine broadcastTo_apply v broadcasts_S1x1_S4096x1 (ix2 p z) (ix2 (0 : Fin 1) (0 : Fin 1)) fun ax => ?_
  match ax with
  | ⟨0, _⟩ => rfl
  | ⟨1, _⟩ => rfl

/-- The 1 × 64 bias row broadcast over the 4096 rows reads, at (p, k), the row at k. -/
theorem row_broadcast_apply (v : FVec Ideal S1x64 .f32) (p : Fin 4096) (k : Fin 64) :
    broadcastTo S4096x64 v broadcasts_S1x64_S4096x64 (ix2 p k) = v (ix2 (0 : Fin 1) k) :=
  broadcastTo_1b_ab_apply v broadcasts_S1x64_S4096x64 p k

/-! ### The two products of the perceptron, read at an index -/

/-! For output entry i and shared index q the first product reads its left operand at (row of i, q) and its right
    operand at (q, column of i): one statement per operand and axis. -/

theorem lhs_first_product_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs_first_product_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs_first_product_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs_first_product_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- Entry (p, k) of the 4096 × 128 by 128 × 64 product into a zero accumulator: the sum over the 128 shared columns. -/
theorem first_product_apply (l : FVec Ideal S4096x128 .f32) (r : FVec Ideal S128x64 .f32) (p : Fin 4096) (k : Fin 64) :
    FloatOps.matmul dot_S4096x128_S128x64_S4096x64_1_0_0_1_n_n (some .fp32) l r (constant S4096x64 .f32 0x00000000#32) (ix2 p k)
      = ∑ u : Fin 128, l (ix2 p u) * r (ix2 u k) := by
  rw [Ideal.matmul_constant_zero_apply, ← Equiv.sum_comp (contrEquiv1 dot_S4096x128_S128x64_S4096x64_1_0_0_1_n_n 128 rfl rfl).symm]
  refine Finset.sum_congr rfl fun u _ => ?_
  have hu := contrEquiv1_symm_val dot_S4096x128_S128x64_S4096x64_1_0_0_1_n_n 128 rfl rfl u
  have el : dot_S4096x128_S128x64_S4096x64_1_0_0_1_n_n.lhsIdx (ix2 p k) ((contrEquiv1 dot_S4096x128_S128x64_S4096x64_1_0_0_1_n_n 128 rfl rfl).symm u) = ix2 p u := funext fun a => Fin.ext (by
    match a with
    | ⟨0, _⟩ => exact lhs_first_product_0 _ _
    | ⟨1, _⟩ => exact (lhs_first_product_1 _ _).trans hu)
  have er : dot_S4096x128_S128x64_S4096x64_1_0_0_1_n_n.rhsIdx (ix2 p k) ((contrEquiv1 dot_S4096x128_S128x64_S4096x64_1_0_0_1_n_n 128 rfl rfl).symm u) = ix2 u k := funext fun a => Fin.ext (by
    match a with
    | ⟨0, _⟩ => exact (rhs_first_product_0 _ _).trans hu
    | ⟨1, _⟩ => exact rhs_first_product_1 _ _)
  rw [el, er]

/-! The same four statements for the second product. -/

theorem lhs_second_product_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhs_second_product_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
theorem rhs_second_product_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
theorem rhs_second_product_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- Entry (p, z) of the 4096 × 64 by 64 × 1 product into a zero accumulator: the sum over the 64 hidden units. -/
theorem second_product_apply (l : FVec Ideal S4096x64 .f32) (r : FVec Ideal S64x1 .f32) (p : Fin 4096) (z : Fin 1) :
    FloatOps.matmul dot_S4096x64_S64x1_S4096x1_1_0_0_1_n_n (some .fp32) l r (constant S4096x1 .f32 0x00000000#32) (ix2 p z)
      = ∑ k : Fin 64, l (ix2 p k) * r (ix2 k z) := by
  rw [Ideal.matmul_constant_zero_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 p z) ((contrEquiv1 dot_S4096x64_S64x1_S4096x1_1_0_0_1_n_n 64 rfl rfl).symm k) = ix2 p k := funext fun a => Fin.ext (by
    match a with
    | ⟨0, _⟩ => exact lhs_second_product_0 _ _
    | ⟨1, _⟩ => exact (lhs_second_product_1 _ _).trans hk)
  have er : dot_S4096x64_S64x1_S4096x1_1_0_0_1_n_n.rhsIdx (ix2 p z) ((contrEquiv1 dot_S4096x64_S64x1_S4096x1_1_0_0_1_n_n 64 rfl rfl).symm k) = ix2 k z := funext fun a => Fin.ext (by
    match a with
    | ⟨0, _⟩ => exact (rhs_second_product_0 _ _).trans hk
    | ⟨1, _⟩ => exact rhs_second_product_1 _ _)
  rw [el, er]

/-! ### Two 64-column blocks laid side by side -/

/-- The joined block reads, at a column below 64, the first block there. -/
theorem joined_left_apply (a b : FVec Ideal S4096x64 .f32) (p : Fin 4096) (u : Fin 128) (h : u.val < 64) :
    concatenate S4096x128 1 [⟨S4096x64, a⟩, ⟨S4096x64, b⟩] concatenates_S4096x64_S4096x64_S4096x128_d1 (ix2 p u) = a (ix2 p ⟨u.val, h⟩) :=
  concatenate_pair_apply_left 1 a b concatenates_S4096x64_S4096x64_S4096x128_d1 (ix2 p u) rfl (ix2 p ⟨u.val, h⟩)
    (fun ax => by match ax with | ⟨0, _⟩ => rfl | ⟨1, _⟩ => rfl)

/-- The joined block reads, at a column from 64 on, the second block 64 columns back. -/
theorem joined_right_apply (a b : FVec Ideal S4096x64 .f32) (p : Fin 4096) (u : Fin 128) (h : ¬ u.val < 64) :
    concatenate S4096x128 1 [⟨S4096x64, a⟩, ⟨S4096x64, b⟩] concatenates_S4096x64_S4096x64_S4096x128_d1 (ix2 p u) = b (ix2 p ⟨u.val - 64, by omega⟩) :=
  concatenate_pair_apply_right 1 a b concatenates_S4096x64_S4096x64_S4096x128_d1 (ix2 p u) rfl rfl (ix2 p ⟨u.val - 64, by omega⟩)
    (fun ax hax => by match ax with | ⟨0, _⟩ => rfl | ⟨1, _⟩ => exact absurd rfl hax)
    (by show (u.val - 64) + 64 = u.val; omega)

/-- So the joined block is the specification's two rows side by side. -/
theorem joined_apply (a b : FVec Ideal S4096x64 .f32) (p : Fin 4096) (u : Fin 128) :
    concatenate S4096x128 1 [⟨S4096x64, a⟩, ⟨S4096x64, b⟩] concatenates_S4096x64_S4096x64_S4096x128_d1 (ix2 p u) = Cert.Gcn.sideBySide a b p u := by
  unfold Cert.Gcn.sideBySide
  split
  · next h => exact joined_left_apply a b p u h
  · next h => exact joined_right_apply a b p u h

/-! ### The perceptron, the weight and the message of the block -/

/-- Hidden unit k of row p: the first product plus the bias row, clamped below at the word of zero. -/
theorem hidden_block_apply (xs xd : FVec Ideal S4096x64 .f32) (W1 : FVec Ideal S128x64 .f32) (b1 : FVec Ideal S1x64 .f32)
    (p : Fin 4096) (k : Fin 64) :
    (maximumf (F := Ideal) (addf (FloatOps.matmul dot_S4096x128_S128x64_S4096x64_1_0_0_1_n_n (some .fp32) (concatenate S4096x128 1 [⟨S4096x64, xs⟩, ⟨S4096x64, xd⟩] concatenates_S4096x64_S4096x64_S4096x128_d1) W1 (constant S4096x64 .f32 0x00000000#32))
        (broadcastTo S4096x64 b1 broadcasts_S1x64_S4096x64)) (broadcast S4096x64 (Scalar.ofBits .f32 0x00000000#32))) (ix2 p k)
      = Cert.Gcn.hidden xs xd W1 b1 p k := by
  rw [maximumf_apply, addf_apply, first_product_apply, row_broadcast_apply, broadcast_apply]
  unfold Cert.Gcn.hidden
  simp only [joined_apply]
  rfl

/-- The perceptron's output for row p from any hidden block: the second product plus the 1 × 1 bias, the column read as a vector. -/
theorem logit_block_apply (H : FVec Ideal S4096x64 .f32) (W2 : FVec Ideal S64x1 .f32) (b2 : FVec Ideal S1x1 .f32) (p : Fin 4096) :
    shapeCast S4096 (addf (F := Ideal) (FloatOps.matmul dot_S4096x64_S64x1_S4096x1_1_0_0_1_n_n (some .fp32) H W2 (constant S4096x1 .f32 0x00000000#32))
        (broadcastTo S4096x1 b2 broadcasts_S1x1_S4096x1)) shapeCasts_S4096x1_S4096 (ix1 p)
      = (∑ k : Fin 64, H (ix2 p k) * W2 (ix2 k (0 : Fin 1))) + b2 (ix2 (0 : Fin 1) (0 : Fin 1)) := by
  rw [vector_of_column_apply, addf_apply, second_product_apply, scalar_broadcast_apply]

/-- The weight of row p of a block: its count, times the 0/1 answer of the perceptron, times the inverse square root of the
    two degrees' product. -/
theorem weight_block_apply (xs xd : FVec Ideal S4096x64 .f32) (od idg : FVec Ideal S4096 .f32) (W1 : FVec Ideal S128x64 .f32)
    (b1 : FVec Ideal S1x64 .f32) (W2 : FVec Ideal S64x1 .f32) (b2 : FVec Ideal S1x1 .f32) (cnt : FVec Ideal S4096 .f32) (p : Fin 4096) :
    k1_pay2 (F := Ideal) xs xd od idg W1 b1 W2 b2 cnt (ix1 p) = Cert.Gcn.edgeWeight xs xd od idg cnt W1 b1 W2 b2 p := by
  unfold k1_pay2
  simp only [shapeCast_self, mulf_apply, sitofp_apply, extui_apply, cmpf_apply, broadcast_apply, logit_block_apply, hidden_block_apply]
  rfl

/-- Entry (p, q) of a block's message tile: the weight times the source-side row in columns 0 … 63, times the
    destination-side row after. -/
theorem message_block_apply (xs xd : FVec Ideal S4096x64 .f32) (od idg : FVec Ideal S4096 .f32) (W1 : FVec Ideal S128x64 .f32)
    (b1 : FVec Ideal S1x64 .f32) (W2 : FVec Ideal S64x1 .f32) (b2 : FVec Ideal S1x1 .f32) (cnt : FVec Ideal S4096 .f32) (hs hd : FVec Ideal S4096x64 .f32) (p : Fin 4096) (q : Fin 128) :
    k1_pay1 (F := Ideal) (k1_pay2 xs xd od idg W1 b1 W2 b2 cnt) (k1_pay3 hs) (k1_pay4 xs xd od idg W1 b1 W2 b2 cnt) hd (ix2 p q)
      = Cert.Gcn.msgAt xs xd od idg cnt hs hd W1 b1 W2 b2 p q := by
  unfold k1_pay1 k1_pay3 k1_pay4 Cert.Gcn.msgAt
  simp only [shapeCast_self]
  split
  · next h => rw [joined_left_apply _ _ p q h, mulf_apply, column_broadcast_apply, column_of_vector_apply, weight_block_apply]
  · next h => rw [joined_right_apply _ _ p q h, mulf_apply, column_broadcast_apply, column_of_vector_apply, weight_block_apply]

/-! ## From the 196 blocks to the array -/

/-- The offsets of a whole two-axis access: zero on both axes. -/
theorem no_offset_two_axes : (![0, 0] : Fin 2 → Nat) = fun _ => 0 := funext fun a => by fin_cases a <;> rfl
/-- The offset of a whole one-axis access: zero. -/
theorem no_offset_one_axis : (![0] : Fin 1 → Nat) = fun _ => 0 := funext fun a => by fin_cases a <;> rfl

/-- The region's index maps, decided over the 196 grid points: the seven edge-row windows and the output sit at block t
    along the rows (and at block 0 along the columns), the perceptron's four weight windows at block 0. -/
theorem block_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ win1_2.index t (0 : Fin 1) = t.val
    ∧ win1_3.index t (0 : Fin 1) = t.val
    ∧ win1_4.index t (0 : Fin 1) = t.val
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- A grid point's number is below 196. -/
theorem point_lt (t : Fin cfg1.N) : t.val < 196 := Nat.lt_of_lt_of_eq t.isLt N_1

/-! ### Each input block, read where it lies in its array: an entry of block t sits at block index × block size plus its
    own coordinate -/

/-- Block t of the source endpoints' feature rows is rows 4096·t … 4096·t + 4095 of the array. -/
theorem source_rows_block_apply (c : Dev nD) (t : Fin cfg1.N) (p : Fin 4096) (k : Fin 64) (e : Fin 802816)
    (he : e.val = 4096 * t.val + p.val) :
    (iblk1 V c 0 t : FVec Ideal S4096x64 .f32) (ix2 p k) = (V c main_v22 : S802816x64.Idx → EReal) (ix2 e k) := by
  obtain ⟨⟨e0, e1⟩, -⟩ := block_index_facts t
  unfold iblk1
  rw [View.read_apply]
  show V c main_v22 _ = V c main_v22 _
  congr 1
  funext a
  apply Fin.ext
  match a with
  | ⟨0, _⟩ => show win1_0.index t (0 : Fin 2) * 4096 + 1 * p.val = e.val; rw [e0, he]; omega
  | ⟨1, _⟩ => show win1_0.index t (1 : Fin 2) * 64 + 1 * k.val = k.val; rw [e1]; omega

/-- Block t of the destination endpoints' feature rows is rows 4096·t … 4096·t + 4095 of the array. -/
theorem destination_rows_block_apply (c : Dev nD) (t : Fin cfg1.N) (p : Fin 4096) (k : Fin 64) (e : Fin 802816)
    (he : e.val = 4096 * t.val + p.val) :
    (iblk1 V c 1 t : FVec Ideal S4096x64 .f32) (ix2 p k) = (V c main_v29 : S802816x64.Idx → EReal) (ix2 e k) := by
  obtain ⟨-, ⟨e0, e1⟩, -⟩ := block_index_facts t
  unfold iblk1
  rw [View.read_apply]
  show V c main_v29 _ = V c main_v29 _
  congr 1
  funext a
  apply Fin.ext
  match a with
  | ⟨0, _⟩ => show win1_1.index t (0 : Fin 2) * 4096 + 1 * p.val = e.val; rw [e0, he]; omega
  | ⟨1, _⟩ => show win1_1.index t (1 : Fin 2) * 64 + 1 * k.val = k.val; rw [e1]; omega

/-- Block t of the out-degrees is entries 4096·t … 4096·t + 4095 of the array. -/
theorem out_degree_block_apply (c : Dev nD) (t : Fin cfg1.N) (p : Fin 4096) (e : Fin 802816)
    (he : e.val = 4096 * t.val + p.val) :
    (iblk1 V c 2 t : FVec Ideal S4096 .f32) (ix1 p) = (V c main_v36 : S802816.Idx → EReal) (ix1 e) := by
  obtain ⟨-, -, e0, -⟩ := block_index_facts t
  unfold iblk1
  rw [View.read_apply]
  show V c main_v36 _ = V c main_v36 _
  congr 1
  funext a
  apply Fin.ext
  match a with
  | ⟨0, _⟩ => show win1_2.index t (0 : Fin 1) * 4096 + 1 * p.val = e.val; rw [e0, he]; omega

/-- Block t of the in-degrees is entries 4096·t … 4096·t + 4095 of the array. -/
theorem in_degree_block_apply (c : Dev nD) (t : Fin cfg1.N) (p : Fin 4096) (e : Fin 802816)
    (he : e.val = 4096 * t.val + p.val) :
    (iblk1 V c 3 t : FVec Ideal S4096 .f32) (ix1 p) = (V c main_v43 : S802816.Idx → EReal) (ix1 e) := by
  obtain ⟨-, -, -, e0, -⟩ := block_index_facts t
  unfold iblk1
  rw [View.read_apply]
  show V c main_v43 _ = V c main_v43 _
  congr 1
  funext a
  apply Fin.ext
  match a with
  | ⟨0, _⟩ => show win1_3.index t (0 : Fin 1) * 4096 + 1 * p.val = e.val; rw [e0, he]; omega

/-- Block t of the edge counts is entries 4096·t … 4096·t + 4095 of the array. -/
theorem count_block_apply (c : Dev nD) (t : Fin cfg1.N) (p : Fin 4096) (e : Fin 802816)
    (he : e.val = 4096 * t.val + p.val) :
    (iblk1 V c 4 t : FVec Ideal S4096 .f32) (ix1 p) = (V c main_v15 : S802816.Idx → EReal) (ix1 e) := by
  obtain ⟨-, -, -, -, e0, -⟩ := block_index_facts t
  unfold iblk1
  rw [View.read_apply]
  show V c main_v15 _ = V c main_v15 _
  congr 1
  funext a
  apply Fin.ext
  match a with
  | ⟨0, _⟩ => show win1_4.index t (0 : Fin 1) * 4096 + 1 * p.val = e.val; rw [e0, he]; omega

/-- Block t of the source-side rows is rows 4096·t … 4096·t + 4095 of the array. -/
theorem source_side_block_apply (c : Dev nD) (t : Fin cfg1.N) (p : Fin 4096) (k : Fin 64) (e : Fin 802816)
    (he : e.val = 4096 * t.val + p.val) :
    (iblk1 V c 5 t : FVec Ideal S4096x64 .f32) (ix2 p k) = (V c main_v50 : S802816x64.Idx → EReal) (ix2 e k) := by
  obtain ⟨-, -, -, -, -, ⟨e0, e1⟩, -⟩ := block_index_facts t
  unfold iblk1
  rw [View.read_apply]
  show V c main_v50 _ = V c main_v50 _
  congr 1
  funext a
  apply Fin.ext
  match a with
  | ⟨0, _⟩ => show win1_5.index t (0 : Fin 2) * 4096 + 1 * p.val = e.val; rw [e0, he]; omega
  | ⟨1, _⟩ => show win1_5.index t (1 : Fin 2) * 64 + 1 * k.val = k.val; rw [e1]; omega

/-- Block t of the destination-side rows is rows 4096·t … 4096·t + 4095 of the array. -/
theorem destination_side_block_apply (c : Dev nD) (t : Fin cfg1.N) (p : Fin 4096) (k : Fin 64) (e : Fin 802816)
    (he : e.val = 4096 * t.val + p.val) :
    (iblk1 V c 6 t : FVec Ideal S4096x64 .f32) (ix2 p k) = (V c main_v57 : S802816x64.Idx → EReal) (ix2 e k) := by
  obtain ⟨-, -, -, -, -, -, ⟨e0, e1⟩, -⟩ := block_index_facts t
  unfold iblk1
  rw [View.read_apply]
  show V c main_v57 _ = V c main_v57 _
  congr 1
  funext a
  apply Fin.ext
  match a with
  | ⟨0, _⟩ => show win1_6.index t (0 : Fin 2) * 4096 + 1 * p.val = e.val; rw [e0, he]; omega
  | ⟨1, _⟩ => show win1_6.index t (1 : Fin 2) * 64 + 1 * k.val = k.val; rw [e1]; omega

/-- The first layer's weights have one block, the whole matrix, at every point. -/
theorem first_weights_block (c : Dev nD) (t : Fin cfg1.N) :
    (iblk1 V c 7 t : FVec Ideal S128x64 .f32) = (V c main_arg6 : S128x64.Idx → EReal) := by
  obtain ⟨-, -, -, -, -, -, -, ⟨e0, e1⟩, -⟩ := block_index_facts t
  unfold iblk1
  funext y
  rw [View.read_apply]
  show V c main_arg6 _ = V c main_arg6 _
  congr 1
  funext a
  apply Fin.ext
  match a with
  | ⟨0, _⟩ => show win1_7.index t (0 : Fin 2) * 128 + 1 * (y 0).val = (y 0).val; rw [e0]; omega
  | ⟨1, _⟩ => show win1_7.index t (1 : Fin 2) * 64 + 1 * (y 1).val = (y 1).val; rw [e1]; omega

/-- The first layer's bias row has one block, the whole row, at every point. -/
theorem first_bias_block (c : Dev nD) (t : Fin cfg1.N) :
    (iblk1 V c 8 t : FVec Ideal S1x64 .f32) = (V c main_v58 : S1x64.Idx → EReal) := by
  obtain ⟨-, -, -, -, -, -, -, -, ⟨e0, e1⟩, -⟩ := block_index_facts t
  unfold iblk1
  funext y
  rw [View.read_apply]
  show V c main_v58 _ = V c main_v58 _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 64 + 1 * (y 1).val = (y 1).val; rw [e1]; omega

/-- The second layer's weights have one block, the whole column, at every point. -/
theorem second_weights_block (c : Dev nD) (t : Fin cfg1.N) :
    (iblk1 V c 9 t : FVec Ideal S64x1 .f32) = (V c main_arg8 : S64x1.Idx → EReal) := by
  obtain ⟨-, -, -, -, -, -, -, -, -, ⟨e0, e1⟩, -⟩ := block_index_facts t
  unfold iblk1
  funext y
  rw [View.read_apply]
  show V c main_arg8 _ = V c main_arg8 _
  congr 1
  funext a
  apply Fin.ext
  match a with
  | ⟨0, _⟩ => show win1_9.index t (0 : Fin 2) * 64 + 1 * (y 0).val = (y 0).val; rw [e0]; omega
  | ⟨1, _⟩ => show win1_9.index t (1 : Fin 2) * 1 + 1 * (y 1).val = (y 1).val; rw [e1]; omega

/-- The second layer's bias has one block, its one entry, at every point. -/
theorem second_bias_block (c : Dev nD) (t : Fin cfg1.N) :
    (iblk1 V c 10 t : FVec Ideal S1x1 .f32) = (V c main_v59 : S1x1.Idx → EReal) := by
  obtain ⟨-, -, -, -, -, -, -, -, -, -, ⟨e0, e1⟩, -⟩ := block_index_facts t
  unfold iblk1
  funext y
  rw [View.read_apply]
  show V c main_v59 _ = V c main_v59 _
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 1 + 1 * (y 1).val = (y 1).val; rw [e1]; omega

/-! ### A message entry depends only on its own edge row -/

/-- Two families of edge arrays, possibly of different heights, that agree on row e of the one and row e' of the other give
    the same message entries there: every piece of the specification reads the edge arrays at its own row only. -/
theorem msgAt_rows {R R' : Nat} (xs xd : Cert.Gcn.Arr2 R 64) (od idg cnt : Cert.Gcn.Arr1 R) (hs hd : Cert.Gcn.Arr2 R 64)
    (xs' xd' : Cert.Gcn.Arr2 R' 64) (od' idg' cnt' : Cert.Gcn.Arr1 R') (hs' hd' : Cert.Gcn.Arr2 R' 64)
    (W1 : Cert.Gcn.Arr2 128 64) (b1 : Cert.Gcn.Arr2 1 64) (W2 : Cert.Gcn.Arr2 64 1) (b2 : Cert.Gcn.Arr2 1 1)
    (e : Fin R) (e' : Fin R')
    (hxs : ∀ k, xs (ix2 e k) = xs' (ix2 e' k)) (hxd : ∀ k, xd (ix2 e k) = xd' (ix2 e' k))
    (hod : od (ix1 e) = od' (ix1 e')) (hidg : idg (ix1 e) = idg' (ix1 e')) (hcnt : cnt (ix1 e) = cnt' (ix1 e'))
    (hhs : ∀ k, hs (ix2 e k) = hs' (ix2 e' k)) (hhd : ∀ k, hd (ix2 e k) = hd' (ix2 e' k)) (q : Fin 128) :
    Cert.Gcn.msgAt xs xd od idg cnt hs hd W1 b1 W2 b2 e q = Cert.Gcn.msgAt xs' xd' od' idg' cnt' hs' hd' W1 b1 W2 b2 e' q := by
  unfold Cert.Gcn.msgAt Cert.Gcn.edgeWeight Cert.Gcn.logit Cert.Gcn.hidden Cert.Gcn.sideBySide
  simp only [hxs, hxd, hod, hidg, hcnt, hhs, hhd]

/-- The same against the message tile of the second family read at (e', q). -/
theorem msg_rows {R R' : Nat} (xs xd : Cert.Gcn.Arr2 R 64) (od idg cnt : Cert.Gcn.Arr1 R) (hs hd : Cert.Gcn.Arr2 R 64)
    (xs' xd' : Cert.Gcn.Arr2 R' 64) (od' idg' cnt' : Cert.Gcn.Arr1 R') (hs' hd' : Cert.Gcn.Arr2 R' 64)
    (W1 : Cert.Gcn.Arr2 128 64) (b1 : Cert.Gcn.Arr2 1 64) (W2 : Cert.Gcn.Arr2 64 1) (b2 : Cert.Gcn.Arr2 1 1)
    (e : Fin R) (e' : Fin R')
    (hxs : ∀ k, xs (ix2 e k) = xs' (ix2 e' k)) (hxd : ∀ k, xd (ix2 e k) = xd' (ix2 e' k))
    (hod : od (ix1 e) = od' (ix1 e')) (hidg : idg (ix1 e) = idg' (ix1 e')) (hcnt : cnt (ix1 e) = cnt' (ix1 e'))
    (hhs : ∀ k, hs (ix2 e k) = hs' (ix2 e' k)) (hhd : ∀ k, hd (ix2 e k) = hd' (ix2 e' k)) (q : Fin 128) :
    Cert.Gcn.msgAt xs xd od idg cnt hs hd W1 b1 W2 b2 e q = Cert.Gcn.msg xs' xd' od' idg' cnt' hs' hd' W1 b1 W2 b2 (ix2 e' q) :=
  msgAt_rows xs xd od idg cnt hs hd xs' xd' od' idg' cnt' hs' hd' W1 b1 W2 b2 e e' hxs hxd hod hidg hcnt hhs hhd q

/-! ### What a point writes back, the cover, the array -/

/-- Row p of block t's message tile is row 4096·t + p of the whole arrays' message tile. -/
theorem message_point_apply (c : Dev nD) (t : Fin cfg1.N) (p : Fin 4096) (q : Fin 128) (hrow : 4096 * t.val + p.val < 802816) :
    Cert.Gcn.msgAt (R := 4096) (iblk1 V c 0 t) (iblk1 V c 1 t) (iblk1 V c 2 t) (iblk1 V c 3 t) (iblk1 V c 4 t) (iblk1 V c 5 t) (iblk1 V c 6 t)
        (iblk1 V c 7 t) (iblk1 V c 8 t) (iblk1 V c 9 t) (iblk1 V c 10 t) p q
      = Cert.Gcn.msg (R := 802816) (V c main_v22) (V c main_v29) (V c main_v36) (V c main_v43) (V c main_v15) (V c main_v50) (V c main_v57)
          (V c main_arg6) (V c main_v58) (V c main_arg8) (V c main_v59) (ix2 (⟨4096 * t.val + p.val, hrow⟩ : Fin 802816) q) := by
  rw [first_weights_block V c t, first_bias_block V c t, second_weights_block V c t, second_bias_block V c t]
  exact msg_rows (R := 4096) (R' := 802816) (iblk1 V c 0 t) (iblk1 V c 1 t) (iblk1 V c 2 t) (iblk1 V c 3 t) (iblk1 V c 4 t) (iblk1 V c 5 t) (iblk1 V c 6 t)
    (V c main_v22) (V c main_v29) (V c main_v36) (V c main_v43) (V c main_v15) (V c main_v50) (V c main_v57)
    (V c main_arg6) (V c main_v58) (V c main_arg8) (V c main_v59) p ⟨4096 * t.val + p.val, hrow⟩
    (fun k => source_rows_block_apply V c t p k _ rfl) (fun k => destination_rows_block_apply V c t p k _ rfl)
    (out_degree_block_apply V c t p _ rfl) (in_degree_block_apply V c t p _ rfl) (count_block_apply V c t p _ rfl)
    (fun k => source_side_block_apply V c t p k _ rfl) (fun k => destination_side_block_apply V c t p k _ rfl) q

/-- Grid point t writes back rows 4096·t … 4096·t + 4095 of the message tile of the whole arrays. -/
theorem message_flushed (c : Dev nD) (t : Fin cfg1.N) :
    (dat1 (F := Ideal) V c).flushed 11 t
      = ((cfg1.win 11).blk t).view.read (Elt Ideal) (Cert.Gcn.msg (V c main_v22) (V c main_v29) (V c main_v36) (V c main_v43) (V c main_v15) (V c main_v50) (V c main_v57)
          (V c main_arg6) (V c main_v58) (V c main_arg8) (V c main_v59)) := by
  show (cfg1.win 11).cut (grid1.coords t) ((dat1 V c).after 11 t) = _
  rw [after1_11]
  unfold out1_11
  rw [View.canon_unit_zero no_offset_two_axes]
  simp only [View.ld_unit_zero (S := S4096x64) no_offset_two_axes, View.ld_unit_zero (S := S4096) no_offset_one_axis,
    View.ld_unit_zero (S := S128x64) no_offset_two_axes, View.ld_unit_zero (S := S1x64) no_offset_two_axes,
    View.ld_unit_zero (S := S64x1) no_offset_two_axes, View.ld_unit_zero (S := S1x1) no_offset_two_axes]
  funext j
  obtain ⟨p, q, rfl⟩ : ∃ (p : Fin 4096) (q : Fin 128), j = ix2 p q := ⟨j 0, j 1, eq_ix2 j⟩
  have ht := point_lt t
  have hrow : 4096 * t.val + p.val < 802816 := by have := p.isLt; omega
  refine (message_block_apply (iblk1 V c 0 t) (iblk1 V c 1 t) (iblk1 V c 2 t) (iblk1 V c 3 t) (iblk1 V c 7 t) (iblk1 V c 8 t)
    (iblk1 V c 9 t) (iblk1 V c 10 t) (iblk1 V c 4 t) (iblk1 V c 5 t) (iblk1 V c 6 t) p q).trans ?_
  have hemb : ((cfg1.win 11).blk t).view.emb (ix2 p q) = (ix2 (⟨4096 * t.val + p.val, hrow⟩ : Fin 802816) q : S802816x128.Idx) := by
    obtain ⟨-, -, -, -, -, -, -, -, -, -, -, ⟨e0, e1⟩⟩ := block_index_facts t
    funext a
    apply Fin.ext
    match a with
    | ⟨0, _⟩ => show win1_11.index t (0 : Fin 2) * 4096 + 1 * p.val = 4096 * t.val + p.val; rw [e0]; omega
    | ⟨1, _⟩ => show win1_11.index t (1 : Fin 2) * 128 + 1 * q.val = q.val; rw [e1]; omega
  show _ = Cert.Gcn.msg (R := 802816) (V c main_v22) (V c main_v29) (V c main_v36) (V c main_v43) (V c main_v15) (V c main_v50) (V c main_v57)
    (V c main_arg6) (V c main_v58) (V c main_arg8) (V c main_v59) (((cfg1.win 11).blk t).view.emb (ix2 p q))
  rw [hemb]
  exact message_point_apply V c t p q hrow

/-- An index of the message array is in point t's block iff each coordinate is in the block's range on its axis. -/
theorem mem_message_block (t : Fin cfg1.N) (i : S802816x128.Idx) :
    i ∈ ((cfg1.win 11).blk t).view.set ↔ ∀ a : Fin 2, win1_11.index t a * S4096x128.size a ≤ (i a).val ∧ (i a).val < win1_11.index t a * S4096x128.size a + S4096x128.size a := by
  show i ∈ ((View.whole main_v60).slice (win1_11.rect t)).set ↔ _
  rw [View.set_slice_whole, Rect.mem_set_unit]
  exact Iff.rfl

/-- Every index of the message array is in the block of the point that its row falls in, row / 4096; every column is in it. -/
theorem message_blocks_cover (i : S802816x128.Idx) :
    ∃ t : Fin cfg1.N, (cfg1.win 11).flush t = true ∧ i ∈ ((cfg1.win 11).blk t).view.set := by
  have hi0 : (i 0).val < 802816 := (i 0).isLt
  have hi1 : (i 1).val < 128 := (i 1).isLt
  obtain ⟨t, ht⟩ : ∃ t : Fin cfg1.N, t.val = (i 0).val / 4096 :=
    ⟨⟨(i 0).val / 4096, Nat.lt_of_lt_of_eq (by omega) N_1.symm⟩, rfl⟩
  obtain ⟨-, -, -, -, -, -, -, -, -, -, -, ⟨e0, e1⟩⟩ := block_index_facts t
  refine ⟨t, flush1_11 t, ?_⟩
  rw [mem_message_block]
  intro a
  match a with
  | ⟨0, _⟩ => show win1_11.index t (0 : Fin 2) * 4096 ≤ (i 0).val ∧ (i 0).val < win1_11.index t (0 : Fin 2) * 4096 + 4096; rw [e0, ht]; omega
  | ⟨1, _⟩ => show win1_11.index t (1 : Fin 2) * 128 ≤ (i 1).val ∧ (i 1).val < win1_11.index t (1 : Fin 2) * 128 + 128; rw [e1]; omega

end EdgeMessage

/-- After the second region the message array holds the message tile of the seven gathered arrays and the
    perceptron's weights, whatever the region found in its buffers. -/
theorem msg_arr (c : Dev nD) :
    (dat1 (F := Ideal) V c).arrAt 11 cfg1.N
      = Cert.Gcn.msg (V c main_v22) (V c main_v29) (V c main_v36) (V c main_v43) (V c main_v15) (V c main_v50) (V c main_v57)
          (V c main_arg6) (V c main_v58) (V c main_arg8) (V c main_v59) :=
  (dat1 (F := Ideal) V c).arrAt_eq_of_cover 11 _ (fun t _ => EdgeMessage.message_flushed V c t) EdgeMessage.message_blocks_cover

end Cert.KernelIdeal.Gcn

end
-- ==== Proof.KReg2.lean ====
/-
  The third region: ten blocks of 5000 node rows, each written back as its rows of the gated blend, tile the result array.
-/
import proofs.«401522_j37752762532077_4_alg».proof.Proof.Gen.KernelIdeal.Frame
import proofs.«401522_j37752762532077_4_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen Idealize.ShloMosaic Idealize.ShloMosaic.TcCoe Idealize.ShloMosaic.ValueIdx
open Idealize.SL.Sem
open Idealize.ShloMosaic.Pipeline (Dat Cfg Window)

-- the TensorCore's buffer contents when a region is entered
variable (V : (c : Dev nD) → (b : Ref sig .tc) → Buf (Elt Ideal) ((c : Thread nD τ).loc b))

/-! ## The body's operations, one entry at a time -/

/-- The two aggregated blocks joined along the columns read, at column `l`, the first block for `l < 64` and the
    second after: the specification's two rows side by side. -/
theorem blend_cat_apply (a b : FVec Ideal S5000x64 .f32) (p : Fin 5000) (l : Fin 128) :
    concatenate S5000x128 1 [⟨S5000x64, a⟩, ⟨S5000x64, b⟩] concatenates_S5000x64_S5000x64_S5000x128_d1 (ix2 p l)
      = Cert.Gcn.sideBySide a b p l := by
  unfold Cert.Gcn.sideBySide
  split
  · next h =>
    exact concatenate_pair_apply_left 1 a b concatenates_S5000x64_S5000x64_S5000x128_d1 (ix2 p l) rfl (ix2 p ⟨l.val, h⟩)
      (fun d => match d with | ⟨0, _⟩ => rfl | ⟨1, _⟩ => rfl)
  · next h =>
    exact concatenate_pair_apply_right 1 a b concatenates_S5000x64_S5000x64_S5000x128_d1 (ix2 p l) rfl rfl
      (ix2 p ⟨l.val - 64, by omega⟩)
      (fun d hd => match d, hd with | ⟨0, _⟩, _ => rfl | ⟨1, _⟩, hd => absurd rfl hd)
      (by show l.val - 64 + 64 = l.val; omega)

/-- One column spread over many reads, at `(p, q)`, the column's entry of row `p`. -/
theorem blend_spread_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The two products

Each product contracts the left operand's columns with the right operand's rows: at output entry `(i₀, i₁)` and summation
index `s` the left operand is read at `(i₀, s)` and the right at `(s, i₁)`. The four coordinate facts of each product come first. -/

theorem blend_hidden_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blend_hidden_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem blend_hidden_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem blend_hidden_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first product into a zero accumulator: entry `(p, k)` is the sum over the 128 joined columns of row `p`
    times column `k` of the weights. -/
theorem blend_hidden_matmul_apply (x : FVec Ideal S5000x128 .f32) (W : FVec Ideal S128x64 .f32) (p : Fin 5000) (k : Fin 64) :
    matmul dot_S5000x128_S128x64_S5000x64_1_0_0_1_n_n none x W (constant (F := Ideal) S5000x64 .f32 0x00000000#32) (ix2 p k)
      = ∑ l : Fin 128, x (ix2 p l) * W (ix2 l k) := by
  show FloatOps.matmul dot_S5000x128_S128x64_S5000x64_1_0_0_1_n_n none x W (constant (F := Ideal) S5000x64 .f32 0x00000000#32) (ix2 p k) = _
  rw [Ideal.matmul_constant_zero_apply, ← Equiv.sum_comp (contrEquiv1 dot_S5000x128_S128x64_S5000x64_1_0_0_1_n_n 128 rfl rfl).symm]
  refine Finset.sum_congr rfl fun l _ => ?_
  have hl := contrEquiv1_symm_val dot_S5000x128_S128x64_S5000x64_1_0_0_1_n_n 128 rfl rfl l
  have el : dot_S5000x128_S128x64_S5000x64_1_0_0_1_n_n.lhsIdx (ix2 p k) ((contrEquiv1 dot_S5000x128_S128x64_S5000x64_1_0_0_1_n_n 128 rfl rfl).symm l) = ix2 p l := funext fun a => Fin.ext (by
    match a with
    | ⟨0, _⟩ => exact blend_hidden_lhs_0 _ _
    | ⟨1, _⟩ => exact (blend_hidden_lhs_1 _ _).trans hl)
  have er : dot_S5000x128_S128x64_S5000x64_1_0_0_1_n_n.rhsIdx (ix2 p k) ((contrEquiv1 dot_S5000x128_S128x64_S5000x64_1_0_0_1_n_n 128 rfl rfl).symm l) = ix2 l k := funext fun a => Fin.ext (by
    match a with
    | ⟨0, _⟩ => exact (blend_hidden_rhs_0 _ _).trans hl
    | ⟨1, _⟩ => exact blend_hidden_rhs_1 _ _)
  rw [el, er]

theorem blend_logit_lhs_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem blend_logit_lhs_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem blend_logit_rhs_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem blend_logit_rhs_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The second product into a zero accumulator: entry `(p, 0)` is the sum over the 64 hidden units of row `p`
    times the one column of the weights. -/
theorem blend_logit_matmul_apply (h : FVec Ideal S5000x64 .f32) (W : FVec Ideal S64x1 .f32) (p : Fin 5000) (u : Fin 1) :
    matmul dot_S5000x64_S64x1_S5000x1_1_0_0_1_n_n none h W (constant (F := Ideal) S5000x1 .f32 0x00000000#32) (ix2 p u)
      = ∑ k : Fin 64, h (ix2 p k) * W (ix2 k u) := by
  show FloatOps.matmul dot_S5000x64_S64x1_S5000x1_1_0_0_1_n_n none h W (constant (F := Ideal) S5000x1 .f32 0x00000000#32) (ix2 p u) = _
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p u) ((contrEquiv1 dot_S5000x64_S64x1_S5000x1_1_0_0_1_n_n 64 rfl rfl).symm k) = ix2 p k := funext fun a => Fin.ext (by
    match a with
    | ⟨0, _⟩ => exact blend_logit_lhs_0 _ _
    | ⟨1, _⟩ => exact (blend_logit_lhs_1 _ _).trans hk)
  have er : dot_S5000x64_S64x1_S5000x1_1_0_0_1_n_n.rhsIdx (ix2 p u) ((contrEquiv1 dot_S5000x64_S64x1_S5000x1_1_0_0_1_n_n 64 rfl rfl).symm k) = ix2 k u := funext fun a => Fin.ext (by
    match a with
    | ⟨0, _⟩ => exact (blend_logit_rhs_0 _ _).trans hk
    | ⟨1, _⟩ => exact blend_logit_rhs_1 _ _)
  rw [el, er]

/-! ### The whole payload -/

/-- The logistic function is applied entry by entry. -/
theorem blend_logistic_apply {s : Shape} (z : FVec Ideal s .f32) (i : s.Idx) : logistic z i = Ideal.logistic (z i) := rfl

/-- THE BODY'S PAYLOAD at entry `(p, q)` of the block: the perceptron of row `p` of the two aggregated blocks laid
    side by side, squashed to a gate, blends the two blocks' entries, and the feature block's entry is added. -/
theorem blend_pay_apply (mi mo : Vec Ideal S5000x64 .f32) (W1 : Vec Ideal S128x64 .f32) (b1 : Vec Ideal S1x64 .f32)
    (W2 : Vec Ideal S64x1 .f32) (b2 : Vec Ideal S1x1 .f32) (x : Vec Ideal S5000x64 .f32) (p : Fin 5000) (q : Fin 64) :
    k2_pay1 (F := Ideal) mi mo W1 b1 W2 b2 x (ix2 p q)
      = ((Cert.Gcn.halfW * Ideal.logistic (Cert.Gcn.logit mi mo W1 b1 W2 b2 p)) * mi (ix2 p q)
          + (Cert.Gcn.halfW * (Cert.Gcn.oneW - Ideal.logistic (Cert.Gcn.logit mi mo W1 b1 W2 b2 p))) * mo (ix2 p q))
        + x (ix2 p q) := by
  unfold k2_pay1
  simp only [addf_apply, mulf_apply, subf_apply, maximumf_apply, broadcast_apply, shapeCast_self, blend_spread_apply,
    blend_logistic_apply, blend_logit_matmul_apply, blend_hidden_matmul_apply, blend_cat_apply, broadcastTo_1b_ab_apply]
  rfl

/-! ## From blocks to the array -/

/-- The perceptron's output for a row depends only on that row of the two arrays: two pairs of arrays that agree on
    a row each give the same output there. -/
theorem blend_logit_row_congr {R R' : Nat} (a b : Cert.Gcn.Arr2 R 64) (a' b' : Cert.Gcn.Arr2 R' 64)
    (W1 : Cert.Gcn.Arr2 128 64) (b1 : Cert.Gcn.Arr2 1 64) (W2 : Cert.Gcn.Arr2 64 1) (b2 : Cert.Gcn.Arr2 1 1)
    (r : Fin R) (r' : Fin R') (ha : ∀ k : Fin 64, a (ix2 r k) = a' (ix2 r' k)) (hb : ∀ k : Fin 64, b (ix2 r k) = b' (ix2 r' k)) :
    Cert.Gcn.logit a b W1 b1 W2 b2 r = Cert.Gcn.logit a' b' W1 b1 W2 b2 r' := by
  have hs : ∀ l : Fin 128, Cert.Gcn.sideBySide a b r l = Cert.Gcn.sideBySide a' b' r' l := fun l => by
    unfold Cert.Gcn.sideBySide
    split
    · exact ha _
    · exact hb _
  unfold Cert.Gcn.logit Cert.Gcn.hidden
  simp only [hs]

/-- The zero offsets of a whole-buffer access, as a constant function. -/
theorem blend_zero_off : (![0, 0] : Fin 2 → Nat) = fun _ => 0 := funext fun a => by fin_cases a <;> rfl

/-- The index maps over the ten grid points: the three row-blocked inputs sit at the output's row block and column block
    0; the weights and biases sit at block (0, 0); the output's row block is the point's number. -/
theorem blend_index_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The first aggregated array's block at point `t`: entry `(p, k)` is the array's entry 5000·t rows further down. -/
theorem blend_in_blk (c : Dev nD) (t : Fin cfg2.N) (p : Fin 5000) (k : Fin 64) (r : Fin 50000) (hr : r.val = 5000 * t.val + p.val) :
    iblk2 (F := Ideal) V c 0 t (ix2 p k) = V c main_v65 (ix2 r k) := by
  obtain ⟨e00, e01, e10, e11, e20, e21, e30, e31, e40, e41, e50, e51, e60, e61, e70, e71⟩ := blend_index_facts t
  show V c main_v65 (((cfg2.win 0).blk t).view.emb (ix2 p k)) = V c main_v65 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The second aggregated array's block, likewise. -/
theorem blend_out_blk (c : Dev nD) (t : Fin cfg2.N) (p : Fin 5000) (k : Fin 64) (r : Fin 50000) (hr : r.val = 5000 * t.val + p.val) :
    iblk2 (F := Ideal) V c 1 t (ix2 p k) = V c main_v68 (ix2 r k) := by
  obtain ⟨e00, e01, e10, e11, e20, e21, e30, e31, e40, e41, e50, e51, e60, e61, e70, e71⟩ := blend_index_facts t
  show V c main_v68 (((cfg2.win 1).blk t).view.emb (ix2 p k)) = V c main_v68 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The node features' block, likewise. -/
theorem blend_x_blk (c : Dev nD) (t : Fin cfg2.N) (p : Fin 5000) (k : Fin 64) (r : Fin 50000) (hr : r.val = 5000 * t.val + p.val) :
    iblk2 (F := Ideal) V c 2 t (ix2 p k) = V c main_arg0 (ix2 r k) := by
  obtain ⟨e00, e01, e10, e11, e20, e21, e30, e31, e40, e41, e50, e51, e60, e61, e70, e71⟩ := blend_index_facts t
  show V c main_arg0 (((cfg2.win 2).blk t).view.emb (ix2 p k)) = V c main_arg0 (ix2 r k)
  refine congrArg _ (funext fun a => Fin.ext ?_)
  match a with
  | ⟨0, _⟩ => show win2_2.index t (0 : Fin 2) * 5000 + 1 * p.val = r.val; omega
  | ⟨1, _⟩ => show win2_2.index t (1 : Fin 2) * 64 + 1 * k.val = k.val; omega

/-- The first layer's weights are one block: every point reads the whole array. -/
theorem blend_W1_blk (c : Dev nD) (t : Fin cfg2.N) : (iblk2 (F := Ideal) V c 3 t : Vec Ideal S128x64 .f32) = V c main_arg10 := by
  obtain ⟨e00, e01, e10, e11, e20, e21, e30, e31, e40, e41, e50, e51, e60, e61, e70, e71⟩ := blend_index_facts t
  funext y
  show V c main_arg10 (((cfg2.win 3).blk t).view.emb y) = V c main_arg10 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- So is the first layer's bias row. -/
theorem blend_b1_blk (c : Dev nD) (t : Fin cfg2.N) : (iblk2 (F := Ideal) V c 4 t : Vec Ideal S1x64 .f32) = V c main_v69 := by
  obtain ⟨e00, e01, e10, e11, e20, e21, e30, e31, e40, e41, e50, e51, e60, e61, e70, e71⟩ := blend_index_facts t
  funext y
  show V c main_v69 (((cfg2.win 4).blk t).view.emb y) = V c main_v69 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- So is the second layer's weight column. -/
theorem blend_W2_blk (c : Dev nD) (t : Fin cfg2.N) : (iblk2 (F := Ideal) V c 5 t : Vec Ideal S64x1 .f32) = V c main_arg12 := by
  obtain ⟨e00, e01, e10, e11, e20, e21, e30, e31, e40, e41, e50, e51, e60, e61, e70, e71⟩ := blend_index_facts t
  funext y
  show V c main_arg12 (((cfg2.win 5).blk t).view.emb y) = V c main_arg12 y
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 1 + 1 * (y 1).val = (y 1).val; omega

/-- So is the second layer's one bias. -/
theorem blend_b2_blk (c : Dev nD) (t : Fin cfg2.N) : (iblk2 (F := Ideal) V c 6 t : Vec Ideal S1x1 .f32) = V c main_v70 := by
  obtain ⟨e00, e01, e10, e11, e20, e21, e30, e31, e40, e41, e50, e51, e60, e61, e70, e71⟩ := blend_index_facts t
  funext y
  show V c main_v70 (((cfg2.win 6).blk t).view.emb y) = V c main_v70 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- WHAT POINT `t` WRITES BACK is rows 5000·t … 5000·t + 4999 of the gated blend of the arrays as the region finds them. -/
theorem blend_flushed_eq (c : Dev nD) (t : Fin cfg2.N) :
    (dat2 (F := Ideal) V c).flushed 7 t = ((cfg2.win 7).blk t).view.read (Elt Ideal) (Cert.Gcn.blend (V c main_v65) (V c main_v68) (V c main_arg0) (V c main_arg10) (V c main_v69) (V c main_arg12) (V c main_v70)) := by
  show (cfg2.win 7).cut (grid2.coords t) ((dat2 V c).after 7 t) = _
  rw [after2_7]
  unfold out2_7
  rw [View.canon_unit_zero blend_zero_off]
  simp only [View.ld_unit_zero (S := S5000x64) blend_zero_off, View.ld_unit_zero (S := S128x64) blend_zero_off,
    View.ld_unit_zero (S := S1x64) blend_zero_off, View.ld_unit_zero (S := S64x1) blend_zero_off,
    View.ld_unit_zero (S := S1x1) blend_zero_off]
  obtain ⟨e00, e01, e10, e11, e20, e21, e30, e31, e40, e41, e50, e51, e60, e61, e70, e71⟩ := blend_index_facts t
  have ht : t.val < 10 := by have h : t.val < grid2.N := t.isLt; rw [N_2] at h; exact h
  funext j
  obtain ⟨p, q, rfl⟩ : ∃ (p : Fin 5000) (q : Fin 64), j = ix2 p q := ⟨j 0, j 1, eq_ix2 j⟩
  have hr : 5000 * t.val + p.val < 50000 := by have := p.isLt; omega
  have e7 : ((cfg2.win 7).blk t).view.emb (ix2 p q) = ix2 (⟨5000 * t.val + p.val, hr⟩ : Fin 50000) q := by
    funext a; apply Fin.ext
    match a with
    | ⟨0, _⟩ => show win2_7.index t (0 : Fin 2) * 5000 + 1 * p.val = 5000 * t.val + p.val; omega
    | ⟨1, _⟩ => show win2_7.index t (1 : Fin 2) * 64 + 1 * q.val = q.val; omega
  refine (blend_pay_apply (iblk2 V c 0 t) (iblk2 V c 1 t) (iblk2 V c 3 t) (iblk2 V c 4 t) (iblk2 V c 5 t) (iblk2 V c 6 t) (iblk2 V c 2 t) p q).trans ?_
  show _ = (Cert.Gcn.blend (V c main_v65) (V c main_v68) (V c main_arg0) (V c main_arg10) (V c main_v69) (V c main_arg12) (V c main_v70)) (((cfg2.win 7).blk t).view.emb (ix2 p q))
  rw [e7, blend_W1_blk V c t, blend_b1_blk V c t, blend_W2_blk V c t, blend_b2_blk V c t,
    blend_in_blk V c t p q ⟨5000 * t.val + p.val, hr⟩ rfl, blend_out_blk V c t p q ⟨5000 * t.val + p.val, hr⟩ rfl,
    blend_x_blk V c t p q ⟨5000 * t.val + p.val, hr⟩ rfl,
    blend_logit_row_congr (iblk2 V c 0 t) (iblk2 V c 1 t) (V c main_v65) (V c main_v68) (V c main_arg10) (V c main_v69) (V c main_arg12) (V c main_v70)
      p ⟨5000 * t.val + p.val, hr⟩ (fun k => blend_in_blk V c t p k _ rfl) (fun k => blend_out_blk V c t p k _ rfl)]
  rfl

/-- An index of the result array is in point `t`'s block iff each coordinate is in the block's range on its axis. -/
theorem blend_mem_blk (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v71).slice (win2_7.rect t)).set ↔ _
  rw [View.set_slice_whole, Rect.mem_set_unit]
  exact Iff.rfl

/-- Every entry of the result array is written back: row `r` by point `r / 5000`, every column by every point. -/
theorem blend_cover (i : S50000x64.Idx) :
    ∃ t : Fin cfg2.N, (cfg2.win 7).flush t = true ∧ i ∈ ((cfg2.win 7).blk t).view.set := by
  have hi0 : (i 0).val < 50000 := (i 0).isLt
  have hi1 : (i 1).val < 64 := (i 1).isLt
  have hN : (i 0).val / 5000 < grid2.N := by rw [N_2]; omega
  obtain ⟨e00, e01, e10, e11, e20, e21, e30, e31, e40, e41, e50, e51, e60, e61, e70, e71⟩ := blend_index_facts ⟨(i 0).val / 5000, hN⟩
  have e70' : win2_7.index ⟨(i 0).val / 5000, hN⟩ (0 : Fin 2) = (i 0).val / 5000 := e70
  refine ⟨⟨(i 0).val / 5000, hN⟩, flush2_7 _, ?_⟩
  rw [blend_mem_blk]
  intro a
  match a with
  | ⟨0, _⟩ => show win2_7.index ⟨(i 0).val / 5000, hN⟩ (0 : Fin 2) * 5000 ≤ (i 0).val ∧ (i 0).val < win2_7.index ⟨(i 0).val / 5000, hN⟩ (0 : Fin 2) * 5000 + 5000; omega
  | ⟨1, _⟩ => show win2_7.index ⟨(i 0).val / 5000, hN⟩ (1 : Fin 2) * 64 ≤ (i 1).val ∧ (i 1).val < win2_7.index ⟨(i 0).val / 5000, hN⟩ (1 : Fin 2) * 64 + 64; omega

/-- After the third region the result array holds the gated blend of the two aggregated arrays and the node
    features, whatever the region found in its buffers. -/
theorem out_arr (c : Dev nD) :
    (dat2 (F := Ideal) V c).arrAt 7 cfg2.N
      = Cert.Gcn.blend (V c main_v65) (V c main_v68) (V c main_arg0) (V c main_arg10) (V c main_v69) (V c main_arg12) (V c main_v70) :=
  (dat2 (F := Ideal) V c).arrAt_eq_of_cover 7 (Cert.Gcn.blend (V c main_v65) (V c main_v68) (V c main_arg0) (V c main_arg10) (V c main_v69) (V c main_arg12) (V c main_v70))
    (fun t _ => blend_flushed_eq V c t) blend_cover

end Cert.KernelIdeal.Gcn

end
-- ==== Proof.KHost.lean ====
/-
  The kernel program's run read back: the contents of the result buffer after the last region, walked back through
  the host stretches and the three regions to the launch memory, is the composed term `kernelOut` of the sixteen
  arguments.
-/
import proofs.«401522_j37752762532077_4_alg».proof.Proof.Gen.KernelIdeal.Frame
import proofs.«401522_j37752762532077_4_alg».proof.Proof.KTerm
import proofs.«401522_j37752762532077_4_alg».proof.Proof.KReg0
import proofs.«401522_j37752762532077_4_alg».proof.Proof.KReg1
import proofs.«401522_j37752762532077_4_alg».proof.Proof.KReg2
import Idealize.ShloMosaic.Lib.StableHlo.Run

set_option maxRecDepth 16384

noncomputable section

namespace Cert.KernelIdeal.Gcn

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ) (ρ : Dev nD → PrngReg)

/-! ## The buffers each host stretch writes -/

/-- The buffers the first host stretch writes: the two degree sums' values and the two reshaped biases. -/
abbrev wr0 : List (Ref sig .tc) :=
  [main_cst, main_v0, main_v1, main_v2, main_cst_0, main_v3, main_v4, main_cst_1, main_v5, main_v6, main_v7,
    main_cst_2, main_v8, main_v9, main_v10, main_v11]
/-- The buffers the three pads' stretches write. -/
abbrev wrPad : List (Ref sig .tc) :=
  [main_c, main_call0_v0, main_v13, main_c_3, main_call1_v0, main_v14, main_c_4, main_call2_v0, main_v15]
/-- The buffers the look-ups' stretch writes. -/
abbrev wrLook : List (Ref sig .tc) :=
  [main_c_5, main_v16, main_v17, main_c_6, main_v18, main_v19, main_v20, main_v21, main_v22, main_c_7, main_v23,
    main_v24, main_c_8, main_v25, main_v26, main_v27, main_v28, main_v29, main_c_9, main_v30, main_v31, main_c_10,
    main_v32, main_v33, main_v34, main_v35, main_v36, main_c_11, main_v37, main_v38, main_c_12, main_v39, main_v40,
    main_v41, main_v42, main_v43, main_c_13, main_v44, main_v45, main_c_14, main_v46, main_v47, main_v48, main_v49,
    main_v50, main_c_15, main_v51, main_v52, main_c_16, main_v53, main_v54, main_v55, main_v56, main_v57, main_v58,
    main_v59]
/-- The buffers the last host stretch writes: the two column halves, the two row sums, the two reshaped biases. -/
abbrev wrSum : List (Ref sig .tc) :=
  [main_v61, main_v62, main_cst_17, main_v63, main_v64, main_v65, main_cst_18, main_v66, main_v67, main_v68, main_v69, main_v70]

/-! ## Each host stretch from any contents `V`: what it leaves in the buffers read later, and that it leaves every
    buffer it does not write alone -/

section Lines

variable (V : Valuation τ sig (Elt Ideal))

/-- The three pads' stretches, in order, from contents `V`. -/
abbrev afterPads : Valuation τ sig (Elt Ideal) :=
  after hostOps1_5 (after hostOps1_4 (after hostOps1_3 (after hostOps1_2 (after hostOps1_1 (after hostOps1 V)))))

/-- A buffer the first stretch does not write keeps its contents through it. -/
theorem keep_first (b : Ref sig .tc) (hb : b ∉ wr0) :
    after (hostOps0 (F := Ideal)) V (Proc.devRef .tc b) = V (Proc.devRef .tc b) := by
  refine after_of_forall_not_mem (b := Proc.devRef .tc b) _ _ (List.forall_iff_forall_mem.mp ?_)
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (by rintro rfl; exact hb (by decide))

/-- A buffer none of the three pads' stretches writes keeps its contents through all of them. -/
theorem keep_pads (b : Ref sig .tc) (hb : b ∉ wrPad) : afterPads V (Proc.devRef .tc b) = V (Proc.devRef .tc b) := by
  have k : ∀ (ops : List (HloOp τ sig (Elt Ideal))) (U : Valuation τ sig (Elt Ideal)),
      ops.Forall (fun op => Proc.devRef .tc b ∉ op.writes) → after ops U (Proc.devRef .tc b) = U (Proc.devRef .tc b) :=
    fun ops U h => after_of_forall_not_mem ops U (List.forall_iff_forall_mem.mp h)
  show after hostOps1_5 (after hostOps1_4 (after hostOps1_3 (after hostOps1_2 (after hostOps1_1 (after hostOps1 V))))) _ = _
  rw [k hostOps1_5, k hostOps1_4, k hostOps1_3, k hostOps1_2, k hostOps1_1, k hostOps1]
  all_goals
    simp only [hostOps1, hostOps1_1, hostOps1_2, hostOps1_3, hostOps1_4, hostOps1_5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by rintro rfl; exact hb (by decide))

/-- A buffer the look-ups' stretch does not write keeps its contents through it. -/
theorem keep_look (b : Ref sig .tc) (hb : b ∉ wrLook) :
    after (hostOps1_6 (F := Ideal)) V (Proc.devRef .tc b) = V (Proc.devRef .tc b) := by
  refine after_of_forall_not_mem (b := Proc.devRef .tc b) _ _ (List.forall_iff_forall_mem.mp ?_)
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (by rintro rfl; exact hb (by decide))

/-- A buffer the last stretch does not write keeps its contents through it. -/
theorem keep_sum (b : Ref sig .tc) (hb : b ∉ wrSum) :
    after (hostOps2 (F := Ideal)) V (Proc.devRef .tc b) = V (Proc.devRef .tc b) := by
  refine after_of_forall_not_mem (b := Proc.devRef .tc b) _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (by rintro rfl; exact hb (by decide))

/-- The inbound degrees: the counts summed at the destination indices, and at least one. -/
theorem first_v4 : after (hostOps0 (F := Ideal)) V (Proc.devRef .tc main_v4) = degOf (V (Proc.devRef .tc main_arg15)) (V (Proc.devRef .tc main_arg1)) := by
  after_results <;> rfl
/-- The outbound degrees: the same at the source indices. -/
theorem first_v9 : after (hostOps0 (F := Ideal)) V (Proc.devRef .tc main_v9) = degOf (V (Proc.devRef .tc main_arg14)) (V (Proc.devRef .tc main_arg1)) := by
  after_results <;> rfl
theorem first_v10 : after (hostOps0 (F := Ideal)) V (Proc.devRef .tc main_v10) = row64 (V (Proc.devRef .tc main_arg3)) := by
  after_results <;> rfl
theorem first_v11 : after (hostOps0 (F := Ideal)) V (Proc.devRef .tc main_v11) = row64 (V (Proc.devRef .tc main_arg5)) := by
  after_results <;> rfl

/-- The padded source list. -/
theorem pads_v13 : afterPads V (Proc.devRef .tc main_v13) = padIdx (V (Proc.devRef .tc main_arg14)) := by
  show after hostOps1_5 (after hostOps1_4 (after hostOps1_3 (after hostOps1_2 (after hostOps1_1 (after hostOps1 V))))) _ = _
  after_results <;> rfl
/-- The padded destination list. -/
theorem pads_v14 : afterPads V (Proc.devRef .tc main_v14) = padIdx (V (Proc.devRef .tc main_arg15)) := by
  show after hostOps1_5 (after hostOps1_4 (after hostOps1_3 (after hostOps1_2 (after hostOps1_1 (after hostOps1 V))))) _ = _
  after_results <;> rfl
/-- The padded counts. -/
theorem pads_v15 : afterPads V (Proc.devRef .tc main_v15) = padCnt (V (Proc.devRef .tc main_arg1)) := by
  show after hostOps1_5 (after hostOps1_4 (after hostOps1_3 (after hostOps1_2 (after hostOps1_1 (after hostOps1 V))))) _ = _
  after_results <;> rfl

/-- The six look-ups through the two padded lists, and the two reshaped biases. -/
theorem look_v22 : after (hostOps1_6 (F := Ideal)) V (Proc.devRef .tc main_v22) = rowsOf (V (Proc.devRef .tc main_arg0)) (V (Proc.devRef .tc main_v13)) := by
  after_results_simp <;> rfl
theorem look_v29 : after (hostOps1_6 (F := Ideal)) V (Proc.devRef .tc main_v29) = rowsOf (V (Proc.devRef .tc main_arg0)) (V (Proc.devRef .tc main_v14)) := by
  after_results_simp <;> rfl
theorem look_v36 : after (hostOps1_6 (F := Ideal)) V (Proc.devRef .tc main_v36) = entriesOf (V (Proc.devRef .tc main_v9)) (V (Proc.devRef .tc main_v13)) := by
  after_results_simp <;> rfl
theorem look_v43 : after (hostOps1_6 (F := Ideal)) V (Proc.devRef .tc main_v43) = entriesOf (V (Proc.devRef .tc main_v4)) (V (Proc.devRef .tc main_v14)) := by
  after_results_simp <;> rfl
theorem look_v50 : after (hostOps1_6 (F := Ideal)) V (Proc.devRef .tc main_v50) = rowsOf (V (Proc.devRef .tc main_v12_0)) (V (Proc.devRef .tc main_v13)) := by
  after_results_simp <;> rfl
theorem look_v57 : after (hostOps1_6 (F := Ideal)) V (Proc.devRef .tc main_v57) = rowsOf (V (Proc.devRef .tc main_v12_1)) (V (Proc.devRef .tc main_v14)) := by
  after_results_simp <;> rfl
theorem look_v58 : after (hostOps1_6 (F := Ideal)) V (Proc.devRef .tc main_v58) = row64 (V (Proc.devRef .tc main_arg7)) := by
  after_results_simp <;> rfl
theorem look_v59 : after (hostOps1_6 (F := Ideal)) V (Proc.devRef .tc main_v59) = row1 (V (Proc.devRef .tc main_arg9)) := by
  after_results_simp <;> rfl

/-- The tile's first 64 columns summed into the destination nodes. -/
theorem sum_v65 : after (hostOps2 (F := Ideal)) V (Proc.devRef .tc main_v65)
    = sumInto (V (Proc.devRef .tc main_v14)) (extractStridedSlice S802816x64 ![0, 0] (V (Proc.devRef .tc main_v60)) slices_S802816x128_S802816x64_0_0) := by
  after_results <;> rfl
/-- The tile's last 64 columns summed into the source nodes. -/
theorem sum_v68 : after (hostOps2 (F := Ideal)) V (Proc.devRef .tc main_v68)
    = sumInto (V (Proc.devRef .tc main_v13)) (extractStridedSlice S802816x64 ![0, 64] (V (Proc.devRef .tc main_v60)) slices_S802816x128_S802816x64_0_64) := by
  after_results <;> rfl
theorem sum_v69 : after (hostOps2 (F := Ideal)) V (Proc.devRef .tc main_v69) = row64 (V (Proc.devRef .tc main_arg11)) := by
  after_results <;> rfl
theorem sum_v70 : after (hostOps2 (F := Ideal)) V (Proc.devRef .tc main_v70) = row1 (V (Proc.devRef .tc main_arg13)) := by
  after_results <;> rfl

end Lines

/-! ## The walk: each boundary's contents at the buffers read after it, back to the launch memory -/

section Walk

variable (c : Dev nD)

/-! ### The first region's entry -/

/-- A buffer the first stretch does not write holds its launch contents. -/
theorem W1_arg (b : Ref sig .tc) (hb : b ∉ wr0) : W1 (F := Ideal) m ρ c (Proc.devRef .tc b) = m ((c : Thread nD τ).loc b) :=
  keep_first (W0 m ρ c) b hb
theorem W1_v4 : W1 (F := Ideal) m ρ c (Proc.devRef .tc main_v4) = degOf (m ((c : Thread nD τ).loc main_arg15)) (m ((c : Thread nD τ).loc main_arg1)) :=
  first_v4 (W0 m ρ c)
theorem W1_v9 : W1 (F := Ideal) m ρ c (Proc.devRef .tc main_v9) = degOf (m ((c : Thread nD τ).loc main_arg14)) (m ((c : Thread nD τ).loc main_arg1)) :=
  first_v9 (W0 m ρ c)
theorem W1_v10 : W1 (F := Ideal) m ρ c (Proc.devRef .tc main_v10) = row64 (m ((c : Thread nD τ).loc main_arg3)) :=
  first_v10 (W0 m ρ c)
theorem W1_v11 : W1 (F := Ideal) m ρ c (Proc.devRef .tc main_v11) = row64 (m ((c : Thread nD τ).loc main_arg5)) :=
  first_v11 (W0 m ρ c)

/-! ### The first region's exit -/

/-- A buffer that is no window of the first region and that the first stretch does not write. -/
theorem W2_arg (b : Ref sig .tc) (hw : ∀ w, Pipeline.arrRef spec0 w ≠ b) (hb : b ∉ wr0) :
    W2 (F := Ideal) m ρ c (Proc.devRef .tc b) = m ((c : Thread nD τ).loc b) :=
  (W2_of_ne m ρ c b hw).trans (W1_arg m ρ c b hb)
/-- The node features are an input window of the first region: left as entered. -/
theorem W2_arg0 : W2 (F := Ideal) m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_arg m ρ c main_arg0 (by decide))
theorem W2_v4 : W2 (F := Ideal) m ρ c (Proc.devRef .tc main_v4) = degOf (m ((c : Thread nD τ).loc main_arg15)) (m ((c : Thread nD τ).loc main_arg1)) :=
  (W2_of_ne m ρ c main_v4 (by decide)).trans (W1_v4 m ρ c)
theorem W2_v9 : W2 (F := Ideal) m ρ c (Proc.devRef .tc main_v9) = degOf (m ((c : Thread nD τ).loc main_arg14)) (m ((c : Thread nD τ).loc main_arg1)) :=
  (W2_of_ne m ρ c main_v9 (by decide)).trans (W1_v9 m ρ c)
/-- The source-side linear layer. -/
theorem W2_v12_0 : W2 (F := Ideal) m ρ c (Proc.devRef .tc main_v12_0)
    = Cert.Gcn.lin (m ((c : Thread nD τ).loc main_arg0)) (m ((c : Thread nD τ).loc main_arg2)) (row64 (m ((c : Thread nD τ).loc main_arg3))) := by
  refine ((W2_arr m ρ c 5).trans (h1_arr (V1 m ρ) c)).trans ?_
  show Cert.Gcn.lin (W1 m ρ c (Proc.devRef .tc main_arg0)) (W1 m ρ c (Proc.devRef .tc main_arg2)) (W1 m ρ c (Proc.devRef .tc main_v10)) = _
  rw [W1_arg m ρ c main_arg0 (by decide), W1_arg m ρ c main_arg2 (by decide), W1_v10 m ρ c]
/-- The destination-side linear layer. -/
theorem W2_v12_1 : W2 (F := Ideal) m ρ c (Proc.devRef .tc main_v12_1)
    = Cert.Gcn.lin (m ((c : Thread nD τ).loc main_arg0)) (m ((c : Thread nD τ).loc main_arg4)) (row64 (m ((c : Thread nD τ).loc main_arg5))) := by
  refine ((W2_arr m ρ c 6).trans (h2_arr (V1 m ρ) c)).trans ?_
  show Cert.Gcn.lin (W1 m ρ c (Proc.devRef .tc main_arg0)) (W1 m ρ c (Proc.devRef .tc main_arg4)) (W1 m ρ c (Proc.devRef .tc main_v11)) = _
  rw [W1_arg m ρ c main_arg0 (by decide), W1_arg m ρ c main_arg4 (by decide), W1_v11 m ρ c]

/-! ### After the three pads -/

theorem W8_of_W2 (b : Ref sig .tc) (hb : b ∉ wrPad) : W8 (F := Ideal) m ρ c (Proc.devRef .tc b) = W2 m ρ c (Proc.devRef .tc b) :=
  keep_pads (W2 m ρ c) b hb
/-- A buffer no region window names so far and no stretch so far writes. -/
theorem W8_arg (b : Ref sig .tc) (hw : ∀ w, Pipeline.arrRef spec0 w ≠ b) (hb : b ∉ wr0) (hp : b ∉ wrPad) :
    W8 (F := Ideal) m ρ c (Proc.devRef .tc b) = m ((c : Thread nD τ).loc b) :=
  (W8_of_W2 m ρ c b hp).trans (W2_arg m ρ c b hw hb)
theorem W8_arg0 : W8 (F := Ideal) m ρ c (Proc.devRef .tc main_arg0) = m ((c : Thread nD τ).loc main_arg0) :=
  (W8_of_W2 m ρ c main_arg0 (by decide)).trans (W2_arg0 m ρ c)
theorem W8_v13 : W8 (F := Ideal) m ρ c (Proc.devRef .tc main_v13) = padIdx (m ((c : Thread nD τ).loc main_arg14)) :=
  (pads_v13 (W2 m ρ c)).trans (congrArg padIdx (W2_arg m ρ c main_arg14 (by decide) (by decide)))
theorem W8_v14 : W8 (F := Ideal) m ρ c (Proc.devRef .tc main_v14) = padIdx (m ((c : Thread nD τ).loc main_arg15)) :=
  (pads_v14 (W2 m ρ c)).trans (congrArg padIdx (W2_arg m ρ c main_arg15 (by decide) (by decide)))
theorem W8_v15 : W8 (F := Ideal) m ρ c (Proc.devRef .tc main_v15) = padCnt (m ((c : Thread nD τ).loc main_arg1)) :=
  (pads_v15 (W2 m ρ c)).trans (congrArg padCnt (W2_arg m ρ c main_arg1 (by decide) (by decide)))
theorem W8_v4 : W8 (F := Ideal) m ρ c (Proc.devRef .tc main_v4) = degOf (m ((c : Thread nD τ).loc main_arg15)) (m ((c : Thread nD τ).loc main_arg1)) :=
  (W8_of_W2 m ρ c main_v4 (by decide)).trans (W2_v4 m ρ c)
theorem W8_v9 : W8 (F := Ideal) m ρ c (Proc.devRef .tc main_v9) = degOf (m ((c : Thread nD τ).loc main_arg14)) (m ((c : Thread nD τ).loc main_arg1)) :=
  (W8_of_W2 m ρ c main_v9 (by decide)).trans (W2_v9 m ρ c)
theorem W8_v12_0 : W8 (F := Ideal) m ρ c (Proc.devRef .tc main_v12_0)
    = Cert.Gcn.lin (m ((c : Thread nD τ).loc main_arg0)) (m ((c : Thread nD τ).loc main_arg2)) (row64 (m ((c : Thread nD τ).loc main_arg3))) :=
  (W8_of_W2 m ρ c main_v12_0 (by decide)).trans (W2_v12_0 m ρ c)
theorem W8_v12_1 : W8 (F := Ideal) m ρ c (Proc.devRef .tc main_v12_1)
    = Cert.Gcn.lin (m ((c : Thread nD τ).loc main_arg0)) (m ((c : Thread nD τ).loc main_arg4)) (row64 (m ((c : Thread nD τ).loc main_arg5))) :=
  (W8_of_W2 m ρ c main_v12_1 (by decide)).trans (W2_v12_1 m ρ c)

/-! ### The second region's entry -/

theorem W9_of_W8 (b : Ref sig .tc) (hb : b ∉ wrLook) : W9 (F := Ideal) m ρ c (Proc.devRef .tc b) = W8 m ρ c (Proc.devRef .tc b) :=
  keep_look (W8 m ρ c) b hb
theorem W9_arg (b : Ref sig .tc) (hw : ∀ w, Pipeline.arrRef spec0 w ≠ b) (hb : b ∉ wr0) (hp : b ∉ wrPad) (hl : b ∉ wrLook) :
    W9 (F := Ideal) m ρ c (Proc.devRef .tc b) = m ((c : Thread nD τ).loc b) :=
  (W9_of_W8 m ρ c b hl).trans (W8_arg m ρ c b hw hb hp)
theorem W9_arg0 : W9 (F := Ideal) m ρ c (Proc.devRef .tc main_arg0) = m ((c : Thread nD τ).loc main_arg0) :=
  (W9_of_W8 m ρ c main_arg0 (by decide)).trans (W8_arg0 m ρ c)
theorem W9_v13 : W9 (F := Ideal) m ρ c (Proc.devRef .tc main_v13) = padIdx (m ((c : Thread nD τ).loc main_arg14)) :=
  (W9_of_W8 m ρ c main_v13 (by decide)).trans (W8_v13 m ρ c)
theorem W9_v14 : W9 (F := Ideal) m ρ c (Proc.devRef .tc main_v14) = padIdx (m ((c : Thread nD τ).loc main_arg15)) :=
  (W9_of_W8 m ρ c main_v14 (by decide)).trans (W8_v14 m ρ c)
theorem W9_v15 : W9 (F := Ideal) m ρ c (Proc.devRef .tc main_v15) = padCnt (m ((c : Thread nD τ).loc main_arg1)) :=
  (W9_of_W8 m ρ c main_v15 (by decide)).trans (W8_v15 m ρ c)
theorem W9_v22 : W9 (F := Ideal) m ρ c (Proc.devRef .tc main_v22) = rowsOf (m ((c : Thread nD τ).loc main_arg0)) (padIdx (m ((c : Thread nD τ).loc main_arg14))) :=
  (look_v22 (W8 m ρ c)).trans (congrArg₂ rowsOf (W8_arg0 m ρ c) (W8_v13 m ρ c))
theorem W9_v29 : W9 (F := Ideal) m ρ c (Proc.devRef .tc main_v29) = rowsOf (m ((c : Thread nD τ).loc main_arg0)) (padIdx (m ((c : Thread nD τ).loc main_arg15))) :=
  (look_v29 (W8 m ρ c)).trans (congrArg₂ rowsOf (W8_arg0 m ρ c) (W8_v14 m ρ c))
theorem W9_v36 : W9 (F := Ideal) m ρ c (Proc.devRef .tc main_v36)
    = entriesOf (degOf (m ((c : Thread nD τ).loc main_arg14)) (m ((c : Thread nD τ).loc main_arg1))) (padIdx (m ((c : Thread nD τ).loc main_arg14))) :=
  (look_v36 (W8 m ρ c)).trans (congrArg₂ entriesOf (W8_v9 m ρ c) (W8_v13 m ρ c))
theorem W9_v43 : W9 (F := Ideal) m ρ c (Proc.devRef .tc main_v43)
    = entriesOf (degOf (m ((c : Thread nD τ).loc main_arg15)) (m ((c : Thread nD τ).loc main_arg1))) (padIdx (m ((c : Thread nD τ).loc main_arg15))) :=
  (look_v43 (W8 m ρ c)).trans (congrArg₂ entriesOf (W8_v4 m ρ c) (W8_v14 m ρ c))
theorem W9_v50 : W9 (F := Ideal) m ρ c (Proc.devRef .tc main_v50)
    = rowsOf (Cert.Gcn.lin (m ((c : Thread nD τ).loc main_arg0)) (m ((c : Thread nD τ).loc main_arg2)) (row64 (m ((c : Thread nD τ).loc main_arg3)))) (padIdx (m ((c : Thread nD τ).loc main_arg14))) :=
  (look_v50 (W8 m ρ c)).trans (congrArg₂ rowsOf (W8_v12_0 m ρ c) (W8_v13 m ρ c))
theorem W9_v57 : W9 (F := Ideal) m ρ c (Proc.devRef .tc main_v57)
    = rowsOf (Cert.Gcn.lin (m ((c : Thread nD τ).loc main_arg0)) (m ((c : Thread nD τ).loc main_arg4)) (row64 (m ((c : Thread nD τ).loc main_arg5)))) (padIdx (m ((c : Thread nD τ).loc main_arg15))) :=
  (look_v57 (W8 m ρ c)).trans (congrArg₂ rowsOf (W8_v12_1 m ρ c) (W8_v14 m ρ c))
theorem W9_v58 : W9 (F := Ideal) m ρ c (Proc.devRef .tc main_v58) = row64 (m ((c : Thread nD τ).loc main_arg7)) :=
  (look_v58 (W8 m ρ c)).trans (congrArg row64 (W8_arg m ρ c main_arg7 (by decide) (by decide) (by decide)))
theorem W9_v59 : W9 (F := Ideal) m ρ c (Proc.devRef .tc main_v59) = row1 (m ((c : Thread nD τ).loc main_arg9)) :=
  (look_v59 (W8 m ρ c)).trans (congrArg row1 (W8_arg m ρ c main_arg9 (by decide) (by decide) (by decide)))

/-! ### The second region's exit -/

/-- The message tile. -/
theorem W10_v60 : W10 (F := Ideal) m ρ c (Proc.devRef .tc main_v60)
    = msgTile (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg14))
        (m ((c : Thread nD τ).loc main_arg15)) := by
  refine ((W10_arr m ρ c 11).trans (msg_arr (V9 m ρ) c)).trans ?_
  show Cert.Gcn.msg (W9 m ρ c (Proc.devRef .tc main_v22)) (W9 m ρ c (Proc.devRef .tc main_v29)) (W9 m ρ c (Proc.devRef .tc main_v36))
      (W9 m ρ c (Proc.devRef .tc main_v43)) (W9 m ρ c (Proc.devRef .tc main_v15)) (W9 m ρ c (Proc.devRef .tc main_v50))
      (W9 m ρ c (Proc.devRef .tc main_v57)) (W9 m ρ c (Proc.devRef .tc main_arg6)) (W9 m ρ c (Proc.devRef .tc main_v58))
      (W9 m ρ c (Proc.devRef .tc main_arg8)) (W9 m ρ c (Proc.devRef .tc main_v59)) = _
  rw [W9_v22 m ρ c, W9_v29 m ρ c, W9_v36 m ρ c, W9_v43 m ρ c, W9_v15 m ρ c, W9_v50 m ρ c, W9_v57 m ρ c,
    W9_arg m ρ c main_arg6 (by decide) (by decide) (by decide) (by decide), W9_v58 m ρ c,
    W9_arg m ρ c main_arg8 (by decide) (by decide) (by decide) (by decide), W9_v59 m ρ c]
  rfl
/-- A buffer that is no window of the second region. -/
theorem W10_of_W9 (b : Ref sig .tc) (hw : ∀ w, Pipeline.arrRef spec1 w ≠ b) : W10 (F := Ideal) m ρ c (Proc.devRef .tc b) = W9 m ρ c (Proc.devRef .tc b) :=
  W10_of_ne m ρ c b hw
theorem W10_v13 : W10 (F := Ideal) m ρ c (Proc.devRef .tc main_v13) = padIdx (m ((c : Thread nD τ).loc main_arg14)) :=
  (W10_of_ne m ρ c main_v13 (by decide)).trans (W9_v13 m ρ c)
theorem W10_v14 : W10 (F := Ideal) m ρ c (Proc.devRef .tc main_v14) = padIdx (m ((c : Thread nD τ).loc main_arg15)) :=
  (W10_of_ne m ρ c main_v14 (by decide)).trans (W9_v14 m ρ c)
theorem W10_arg (b : Ref sig .tc) (hw : ∀ w, Pipeline.arrRef spec0 w ≠ b) (hb : b ∉ wr0) (hp : b ∉ wrPad) (hl : b ∉ wrLook)
    (hw' : ∀ w, Pipeline.arrRef spec1 w ≠ b) : W10 (F := Ideal) m ρ c (Proc.devRef .tc b) = m ((c : Thread nD τ).loc b) :=
  (W10_of_ne m ρ c b hw').trans (W9_arg m ρ c b hw hb hp hl)
theorem W10_arg0 : W10 (F := Ideal) m ρ c (Proc.devRef .tc main_arg0) = m ((c : Thread nD τ).loc main_arg0) :=
  (W10_of_ne m ρ c main_arg0 (by decide)).trans (W9_arg0 m ρ c)

/-! ### The third region's entry -/

theorem W11_of_W10 (b : Ref sig .tc) (hb : b ∉ wrSum) : W11 (F := Ideal) m ρ c (Proc.devRef .tc b) = W10 m ρ c (Proc.devRef .tc b) :=
  keep_sum (W10 m ρ c) b hb
theorem W11_arg (b : Ref sig .tc) (hw : ∀ w, Pipeline.arrRef spec0 w ≠ b) (hb : b ∉ wr0) (hp : b ∉ wrPad) (hl : b ∉ wrLook)
    (hw' : ∀ w, Pipeline.arrRef spec1 w ≠ b) (hs : b ∉ wrSum) : W11 (F := Ideal) m ρ c (Proc.devRef .tc b) = m ((c : Thread nD τ).loc b) :=
  (W11_of_W10 m ρ c b hs).trans (W10_arg m ρ c b hw hb hp hl hw')
theorem W11_arg0 : W11 (F := Ideal) m ρ c (Proc.devRef .tc main_arg0) = m ((c : Thread nD τ).loc main_arg0) :=
  (W11_of_W10 m ρ c main_arg0 (by decide)).trans (W10_arg0 m ρ c)
/-- The inbound aggregate. -/
theorem W11_v65 : W11 (F := Ideal) m ρ c (Proc.devRef .tc main_v65)
    = aggIn (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg14))
        (m ((c : Thread nD τ).loc main_arg15)) :=
  (sum_v65 (W10 m ρ c)).trans (congrArg₂ sumInto (W10_v14 m ρ c)
    (congrArg (fun u => extractStridedSlice S802816x64 ![0, 0] u slices_S802816x128_S802816x64_0_0) (W10_v60 m ρ c)))
/-- The outbound aggregate. -/
theorem W11_v68 : W11 (F := Ideal) m ρ c (Proc.devRef .tc main_v68)
    = aggOut (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg14))
        (m ((c : Thread nD τ).loc main_arg15)) :=
  (sum_v68 (W10 m ρ c)).trans (congrArg₂ sumInto (W10_v13 m ρ c)
    (congrArg (fun u => extractStridedSlice S802816x64 ![0, 64] u slices_S802816x128_S802816x64_0_64) (W10_v60 m ρ c)))
theorem W11_v69 : W11 (F := Ideal) m ρ c (Proc.devRef .tc main_v69) = row64 (m ((c : Thread nD τ).loc main_arg11)) :=
  (sum_v69 (W10 m ρ c)).trans (congrArg row64
    (W10_arg m ρ c main_arg11 (by decide) (by decide) (by decide) (by decide) (by decide)))
theorem W11_v70 : W11 (F := Ideal) m ρ c (Proc.devRef .tc main_v70) = row1 (m ((c : Thread nD τ).loc main_arg13)) :=
  (sum_v70 (W10 m ρ c)).trans (congrArg row1
    (W10_arg m ρ c main_arg13 (by decide) (by decide) (by decide) (by decide) (by decide)))

end Walk

/-- After the last region the result buffer holds `kernelOut` of the arguments as launched. -/
theorem result_eq (c : Dev nD) :
    W12 (F := Ideal) m ρ c (Proc.devRef .tc main_v71)
      = kernelOut
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15)) := by
  refine ((W12_arr m ρ c 7).trans (out_arr (V11 m ρ) c)).trans ?_
  show Cert.Gcn.blend (W11 m ρ c (Proc.devRef .tc main_v65)) (W11 m ρ c (Proc.devRef .tc main_v68))
      (W11 m ρ c (Proc.devRef .tc main_arg0)) (W11 m ρ c (Proc.devRef .tc main_arg10)) (W11 m ρ c (Proc.devRef .tc main_v69))
      (W11 m ρ c (Proc.devRef .tc main_arg12)) (W11 m ρ c (Proc.devRef .tc main_v70)) = _
  rw [W11_v65 m ρ c, W11_v68 m ρ c, W11_arg0 m ρ c,
    W11_arg m ρ c main_arg10 (by decide) (by decide) (by decide) (by decide) (by decide) (by decide), W11_v69 m ρ c,
    W11_arg m ρ c main_arg12 (by decide) (by decide) (by decide) (by decide) (by decide) (by decide), W11_v70 m ρ c]
  rfl

end Cert.KernelIdeal.Gcn

end
-- ==== Proof.SpecEdge.lean ====
/-
  Edge rows, read through an index list: which node row a signed 32-bit index names, the rows and entries a list
  of such indices picks out of a node table, and two facts about one row of the message tile — it depends only on
  that row of each of its inputs, and it is zero where the edge's count is zero.
-/
import proofs.«401522_j37752762532077_4_alg».proof.Proof.Spec

noncomputable section

namespace Cert.Gcn

open Idealize.ShloMosaic Idealize.ShloMosaic.ValueIdx

/-- A signed index with a negative one first moved up by the node count (numpy's wrap of a negative index). -/
def moved (i : BitVec 32) : BitVec 32 :=
  Scalar.select (IntOp.cmpi .slt i 0#32) (IntOp.addi i 50000#32) i

/-- The table row a start index reads: read signed, and clamped into the table's 50000 rows. -/
def rowOf (i : BitVec 32) : Fin 50000 := ⟨min i.toInt.toNat 49999, by omega⟩

/-- The node an edge endpoint names: moved up if negative, then clamped. -/
def nodeOf (i : BitVec 32) : Fin 50000 := rowOf (moved i)

/-- The rows of a node table that a list of endpoints names, one per edge. -/
def takeRows {n : Nat} (t : Arr2 50000 64) (idx : Fin n → BitVec 32) : Arr2 n 64 :=
  fun i => t (ix2 (nodeOf (idx (i 0))) (i 1))

/-- The entries of a node vector that a list of endpoints names, one per edge. -/
def takeEntries {n : Nat} (t : Arr1 50000) (idx : Fin n → BitVec 32) : Arr1 n :=
  fun i => t (ix1 (nodeOf (idx (i 0))))

/-- A 64-vector as a one-row matrix. -/
def asRow64 (b : Arr1 64) : Arr2 1 64 := fun i => b (ix1 (i 1))
/-- A one-entry vector as a one-by-one matrix. -/
def asRow1 (b : Arr1 1) : Arr2 1 1 := fun _ => b (ix1 0)

/-- One row of the message tile depends only on that row of each per-edge input: two families of inputs, over
    possibly different numbers of rows, that agree on a row give that row the same message. -/
theorem msgAt_congr {n n' : Nat} (xs xd : Arr2 n 64) (od idg cnt : Arr1 n) (hs hd : Arr2 n 64)
    (xs' xd' : Arr2 n' 64) (od' idg' cnt' : Arr1 n') (hs' hd' : Arr2 n' 64)
    (W1 : Arr2 128 64) (b1 : Arr2 1 64) (W2 : Arr2 64 1) (b2 : Arr2 1 1) (e : Fin n) (e' : Fin n') (q : Fin 128)
    (hxs : ∀ k, xs (ix2 e k) = xs' (ix2 e' k)) (hxd : ∀ k, xd (ix2 e k) = xd' (ix2 e' k))
    (hod : od (ix1 e) = od' (ix1 e')) (hid : idg (ix1 e) = idg' (ix1 e')) (hcnt : cnt (ix1 e) = cnt' (ix1 e'))
    (hhs : ∀ k, hs (ix2 e k) = hs' (ix2 e' k)) (hhd : ∀ k, hd (ix2 e k) = hd' (ix2 e' k)) :
    msgAt xs xd od idg cnt hs hd W1 b1 W2 b2 e q = msgAt xs' xd' od' idg' cnt' hs' hd' W1 b1 W2 b2 e' q := by
  -- the two endpoint rows side by side agree column by column
  have hside : ∀ l, sideBySide xs xd e l = sideBySide xs' xd' e' l := fun l => by
    unfold sideBySide
    split
    · exact hxs _
    · exact hxd _
  -- hence every hidden unit, the logit and the weight agree
  have hhid : ∀ k, hidden xs xd W1 b1 e k = hidden xs' xd' W1 b1 e' k := fun k => by
    unfold hidden
    simp only [hside]
  have hlog : logit xs xd W1 b1 W2 b2 e = logit xs' xd' W1 b1 W2 b2 e' := by
    unfold logit
    simp only [hhid]
  have hw : edgeWeight xs xd od idg cnt W1 b1 W2 b2 e = edgeWeight xs' xd' od' idg' cnt' W1 b1 W2 b2 e' := by
    unfold edgeWeight
    rw [hlog, hod, hid, hcnt]
  unfold msgAt
  split
  · rw [hw, hhs]
  · rw [hw, hhd]

/-- Where the edge's count is zero the whole message row is zero: zero times anything is zero on the extended reals. -/
theorem msgAt_of_cnt_zero {n : Nat} (xs xd : Arr2 n 64) (od idg cnt : Arr1 n) (hs hd : Arr2 n 64)
    (W1 : Arr2 128 64) (b1 : Arr2 1 64) (W2 : Arr2 64 1) (b2 : Arr2 1 1) (e : Fin n) (q : Fin 128)
    (h0 : cnt (ix1 e) = 0) : msgAt xs xd od idg cnt hs hd W1 b1 W2 b2 e q = 0 := by
  have hw : edgeWeight xs xd od idg cnt W1 b1 W2 b2 e = 0 := by
    unfold edgeWeight
    rw [h0, zero_mul, zero_mul]
  unfold msgAt
  split <;> rw [hw, zero_mul]

end Cert.Gcn

end
-- ==== Proof.LibRows.lean ====
/-
  Host operations on rows, read at an index: the row look-up `table[idx]` out of a two-axis table, the
  accumulating scatter of rows `zeros.at[idx].add(rows)` at the exact-real instance, and a sum over a padded
  index range whose tail vanishes.
-/
import Idealize.ShloMosaic.PureOps.Ideal
import Idealize.ShloMosaic.PureOps.Ideal.Laws
import Idealize.ShloMosaic.Lib.ValueIdx
import Idealize.ShloMosaic.Lib.StableHlo.Predicate

noncomputable section

namespace Idealize.ShloMosaic.HostRows

open Idealize.ShloMosaic Idealize.ShloMosaic.ValueIdx Idealize.ShloMosaic.StableHlo.Predicate

/-- Position `k` of a one-entry list is its entry. -/
private theorem getElem_of_eq_singleton {α : Type} {l : List α} {a : α} (hl : l = [a]) (k : Nat) (hk : k < l.length) :
    l[k] = a := by
  subst hl
  have : k = 0 := by simpa using hk
  subst this; rfl

/-- THE ROW TAKE. jnp's `table[idx]` over a two-axis table prints as a `stablehlo.gather` whose start indices are the
    [n × 1] column of positions, whose row axis is collapsed and start-indexed, whose column axis is the one offset axis
    with the whole row as the slice. Result entry `(p, q)` reads the table at column `q` of the row that position
    `p`'s start index names, read SIGNED and CLAMPED into the table. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  unfold Host.gather
  congr 1
  funext a
  apply Fin.ext
  -- the operand's kept axes are the column axis alone; the result's batch axes the row axis alone
  have hsk : d.sKept = [1] := by
    show Shape.kept _ (d.collapsedSliceDims ++ d.operandBatchingDims) = _
    rw [hcoll, hob]; rfl
  have hbd : d.batchDims = [0] := by
    show Shape.kept _ d.offsetDims = _
    rw [hoff]; rfl
  -- the row coordinate: the start index that result row `p` names, read signed and clamped to `[0, N − 1]`
  -- (slice size 1 on the collapsed axis), with no batching or offset part
  have h0 : (d.operandIdx (ix2 p q) idx (0 : Fin 2)).val = min (idx (ixP p)).toInt.toNat (N - 1) := by
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      -- the start indices' row axis reads the result's batch axis, the row `p`
      unfold GatherDims.siIdx
      rw [dif_neg (by rw [hivd]; simp)]
      unfold GatherDims.siCoord
      apply Fin.ext
      simp only [Fin.val_cast]
      rw [getElem_of_eq_singleton hbd]
      rfl
    | ⟨1, _⟩ =>
      -- the index vector's axis holds component 0, the row axis's place in the start index map
      unfold GatherDims.siIdx
      rw [dif_pos (by rw [hivd])]
      apply Fin.ext
      show List.idxOf (0 : Fin 2) d.startIndexMap = 0
      rw [hsim]; simp
  -- the column coordinate: start 0 (the axis is not start-indexed), no batching part, offset the result's column `q`
  have h1 : (d.operandIdx (ix2 p q) idx (1 : Fin 2)).val = q.val := by
    have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ hb,
      Nat.add_zero, GatherDims.start, dif_neg hm, Nat.zero_add, GatherDims.offCoord, dif_pos hk]
    rw [getElem_of_eq_singleton hoff]
    rfl
  match a with
  | ⟨0, _⟩ => exact h0
  | ⟨1, _⟩ => exact h1

/-! ## The scatter's result index, axis by axis

For the row scatter's dimension numbers the start of update `j`'s window is its row's index (read signed) on the row
axis and `0` on the column axis; the window coordinate is `0` on the row axis (inserted) and `j`'s column on the column
axis. So update `j` lands at `(r, q)` exactly when its row's index is `r` and its column is `q`. -/

section Scatter
variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hivd : d.indexVectorDim = 1)
include huw hiw hsd hivd

/-- On the row axis the window starts at the index of the update's row, read signed. -/
private theorem start_row (idx : IVec ⟨2, ![n, 1]⟩ w) (j : (⟨2, ![n, C]⟩ : Shape).Idx) :
    d.start j idx (0 : Fin 2) = (idx (ixP (j 0))).toInt := by
  have hm : (0 : Fin 2) ∈ d.scatterDimsToOperandDims := by rw [hsd]; exact List.mem_singleton.mpr rfl
  have huS : d.uScatter = [0] := by
    show Shape.kept _ d.updateWindowDims = _
    rw [huw]; rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [getElem_of_eq_singleton huS]
  | ⟨1, _⟩ =>
    unfold ScatterDims.siIdx
    rw [dif_pos (by rw [hivd])]
    apply Fin.ext
    show List.idxOf (0 : Fin 2) d.scatterDimsToOperandDims = 0
    rw [hsd]; simp

/-- On the column axis, which the index map does not name, the window starts at `0`. -/
private theorem start_col (idx : IVec ⟨2, ![n, 1]⟩ w) (j : (⟨2, ![n, C]⟩ : Shape).Idx) :
    d.start j idx (1 : Fin 2) = 0 := by
  unfold ScatterDims.start
  rw [dif_neg (by rw [hsd]; simp)]

/-- The row axis is inserted: its window coordinate is `0`. -/
private theorem window_row (j : (⟨2, ![n, C]⟩ : Shape).Idx) : d.window j (0 : Fin 2) = 0 := by
  unfold ScatterDims.window
  rw [dif_neg]
  show (0 : Fin 2) ∉ Shape.kept _ d.insertedWindowDims
  rw [hiw]; simp [Shape.kept]

/-- The column axis is the one window axis: its window coordinate is the update's column. -/
private theorem window_col (j : (⟨2, ![n, C]⟩ : Shape).Idx) : d.window j (1 : Fin 2) = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton huw]

omit huw hiw hsd hivd in
/-- Two rank-2 indices agree exactly when their coordinates do. -/
private theorem some_ix2_inj {a b : Nat} (f : (⟨2, ![a, b]⟩ : Shape).Idx) (r : Fin a) (q : Fin b) :
    some f = some (ix2 r q) ↔ (f 0).val = r.val ∧ (f 1).val = q.val := by
  rw [Option.some_inj]
  constructor
  · intro h; subst h; exact ⟨rfl, rfl⟩
  · intro h
    funext c
    match c with
    | ⟨0, _⟩ => exact Fin.ext h.1
    | ⟨1, _⟩ => exact Fin.ext h.2

/-- Update `j` lands at `(r, q)` exactly when its row's index, read signed, is `r` and its column is `q`; an index outside
    `[0, N)` lands nowhere. -/
private theorem resultIdx?_rows (idx : IVec ⟨2, ![n, 1]⟩ w) (j : (⟨2, ![n, C]⟩ : Shape).Idx) (r : Fin N) (q : Fin C) :
    d.resultIdx? j idx = some (ix2 r q) ↔ (idx (ixP (j 0))).toInt = (r.val : Int) ∧ j 1 = q := by
  have hr : r.val < N := r.isLt
  have hq : q.val < C := q.isLt
  have hj : (j 1).val < C := (j 1).isLt
  unfold ScatterDims.resultIdx?
  simp only [Fin.forall_fin_two, start_row d huw hiw hsd hivd, start_col d huw hiw hsd hivd,
    window_row d huw hiw hsd hivd, window_col d huw hiw hsd hivd, Matrix.cons_val_zero, Matrix.cons_val_one,
    Nat.cast_zero, add_zero, zero_add]
  split
  · next h =>
    rw [some_ix2_inj]
    show (d.start j idx 0 + ↑(d.window j 0)).toNat = r.val ∧ (d.start j idx 1 + ↑(d.window j 1)).toNat = q.val ↔ _
    rw [start_row d huw hiw hsd hivd, start_col d huw hiw hsd hivd, window_row d huw hiw hsd hivd,
      window_col d huw hiw hsd hivd]
    have e : j 1 = q ↔ (j 1).val = q.val := ⟨fun h => congrArg Fin.val h, fun h => Fin.ext h⟩
    rw [e]
    omega
  · next h =>
    constructor
    · intro hh; exact absurd hh (by simp)
    · rintro ⟨h1, h2⟩
      exfalso; apply h
      have h2' : (j 1).val = q.val := congrArg Fin.val h2
      refine ⟨⟨?_, ?_⟩, ?_, ?_⟩ <;> omega

end Scatter

/-- THE ROW SUM. jax's `zeros.at[idx].add(rows)` (a `segment_sum`) prints as a float-add `stablehlo.scatter` whose
    scatter indices are the [n × 1] column of positions, whose row axis is inserted and scattered to, whose column axis
    is the one update window axis. On the extended reals entry `(r, q)` of the result is the operand's entry plus the
    sum of column `q` of every update row whose index, read SIGNED, is exactly `r` (an index outside the table lands
    nowhere). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![n, 1]⟩ w) (u : FVec Ideal ⟨2, ![n, C]⟩ .f32) (r : Fin N) (q : Fin C) :
    Host.scatterAdd d x idx u (ix2 r q)
      = x (ix2 r q) + ∑ e : Fin n, if (idx (ixP e)).toInt = (r.val : Int) then u (ix2 e q) else 0 := by
  show Ideal.hostScatterAdd d x idx u (ix2 r q) = _
  unfold Ideal.hostScatterAdd
  congr 1
  -- the sum over the updates landing at `(r, q)`, as a double sum over update rows and columns
  rw [Finset.sum_filter, sum_idx2]
  refine Finset.sum_congr rfl fun e _ => ?_
  have key : ∀ b : Fin C, (if d.resultIdx? (ix2 e b) idx = some (ix2 r q) then u (ix2 e b) else 0)
      = if (idx (ixP e)).toInt = (r.val : Int) ∧ b = q then u (ix2 e b) else 0 := fun b =>
    if_congr (resultIdx?_rows d huw hiw hsd hivd idx (ix2 e b) r q) rfl rfl
  -- in row `e` only column `q` can land at `(r, q)`, and it does exactly when row `e`'s index is `r`
  rw [Finset.sum_congr rfl (fun b _ => key b)]
  by_cases hz : (idx (ixP e)).toInt = (r.val : Int)
  · simp only [hz, true_and, if_true, Finset.sum_ite_eq', Finset.mem_univ]
  · simp only [hz, false_and, if_false, Finset.sum_const_zero]

/-- A sum over `m` positions whose entries from position `n` on are zero is the sum over the first `n`. -/
theorem sum_fin_of_tail_zero {n m : Nat} (hnm : n ≤ m) (f : Fin m → EReal) (h : ∀ e : Fin m, n ≤ e.val → f e = 0) :
    ∑ e : Fin m, f e = ∑ e : Fin n, f ⟨e.val, by omega⟩ := by
  -- the first `n` positions are the image of `Fin n` under the order embedding into `Fin m`; off that image `f` vanishes
  have hcast : ∀ e : Fin n, (⟨e.val, by omega⟩ : Fin m) = Fin.castLE hnm e := fun e => rfl
  simp only [hcast]
  show _ = ∑ x : Fin n, f (Fin.castLEEmb hnm x)
  rw [← Finset.sum_map Finset.univ (Fin.castLEEmb hnm) f]
  symm
  apply Finset.sum_subset (Finset.subset_univ _)
  intro e _ he
  apply h
  by_contra hlt
  apply he
  rw [Finset.mem_map]
  exact ⟨⟨e.val, by omega⟩, Finset.mem_univ _, Fin.ext rfl⟩

end Idealize.ShloMosaic.HostRows

end
-- ==== Proof.BrLin.lean ====
/-
  The two linear layers: the first region's rows of x · W + b are the reference's dot-general plus its broadcast bias.
-/
import proofs.«401522_j37752762532077_4_alg».proof.Proof.KTerm
import proofs.«401522_j37752762532077_4_alg».proof.Proof.Gen.ReferenceIdeal.Read
import Idealize.ShloMosaic.Lib.ValueLayout
import Idealize.ShloMosaic.Lib.Pipeline.Value

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

/-- A bias vector cast to a one-row matrix reads, at column `k`, the vector at `k`. -/
theorem row64_apply (b : FVec Ideal Cert.KernelIdeal.S64 .f32) (i : Cert.KernelIdeal.S1x64.Idx) :
    row64 b i = b (ix1 (i 1)) := by
  -- the cast keeps the row-major position, and in a one-row matrix that position is the column
  obtain ⟨u, k, rfl⟩ : ∃ (u : Fin 1) (k : Fin 64), i = ix2 u k := ⟨i 0, i 1, eq_ix2 i⟩
  exact shapeCast_a_1a_apply b _ u k

/-- A one-entry bias cast to a one-by-one matrix reads that entry. -/
theorem row1_apply (b : FVec Ideal Cert.KernelIdeal.S1 .f32) (i : Cert.KernelIdeal.S1x1.Idx) :
    row1 b i = b (ix1 0) := by
  obtain ⟨u, k, rfl⟩ : ∃ (u : Fin 1) (k : Fin 1), i = ix2 u k := ⟨i 0, i 1, eq_ix2 i⟩
  -- the only column of a one-column row is column 0
  have hk : k = 0 := Subsingleton.elim _ _
  subst hk
  exact shapeCast_a_1a_apply b _ u 0

/-- Entry `(n, d)` of `x · W + b`, with the bias given as a vector: the 64-term sum plus the bias at `d`. -/
theorem lin_row64_apply (x : FVec Ideal Cert.KernelIdeal.S50000x64 .f32) (W : FVec Ideal Cert.KernelIdeal.S64x64 .f32)
    (b : FVec Ideal Cert.KernelIdeal.S64 .f32) (n : Fin 50000) (d : Fin 64) :
    Cert.Gcn.lin x W (row64 b) (ix2 n d) = (∑ k : Fin 64, x (ix2 n k) * W (ix2 k d)) + b (ix1 d) := by
  show (∑ k : Fin 64, x (ix2 n k) * W (ix2 k d)) + row64 b (ix2 0 d) = _
  rw [row64_apply]

open Cert.ReferenceIdeal.Read in
/-- The kernel's source-side linear layer is the reference's. -/
theorem lin_s2d : Cert.Gcn.lin x0 x2 (row64 x3) = val_main_v65 (F := Ideal) x0 x2 x3 := by
  funext i
  obtain ⟨n, d, rfl⟩ : ∃ (n : Fin 50000) (d : Fin 64), i = ix2 n d := ⟨i 0, i 1, eq_ix2 i⟩
  -- the dot-general contracts x's column against W's row; the bias is broadcast along the rows
  have el : ∀ k : Fin 64, lidx_main_v62 (ix2 n d) k = ix2 n k := fun k =>
    funext fun a => by match a with | ⟨0, _⟩ => rfl | ⟨1, _⟩ => rfl
  have er : ∀ k : Fin 64, ridx_main_v62 (ix2 n d) k = ix2 k d := fun k =>
    funext fun a => by match a with | ⟨0, _⟩ => rfl | ⟨1, _⟩ => rfl
  have eb : idx_main_v63 (idx_main_v64 (ix2 n d)) = ix1 d :=
    funext fun a => by match a with | ⟨0, _⟩ => rfl
  rw [lin_row64_apply, val_main_v65_apply, val_main_v62_apply, val_main_v64_apply, val_main_v63_apply]
  simp only [el, er, eb, Ideal.addf_def]

open Cert.ReferenceIdeal.Read in
/-- The kernel's destination-side linear layer is the reference's. -/
theorem lin_d2s : Cert.Gcn.lin x0 x4 (row64 x5) = val_main_v69 (F := Ideal) x0 x4 x5 := by
  funext i
  obtain ⟨n, d, rfl⟩ : ∃ (n : Fin 50000) (d : Fin 64), i = ix2 n d := ⟨i 0, i 1, eq_ix2 i⟩
  have el : ∀ k : Fin 64, lidx_main_v66 (ix2 n d) k = ix2 n k := fun k =>
    funext fun a => by match a with | ⟨0, _⟩ => rfl | ⟨1, _⟩ => rfl
  have er : ∀ k : Fin 64, ridx_main_v66 (ix2 n d) k = ix2 k d := fun k =>
    funext fun a => by match a with | ⟨0, _⟩ => rfl | ⟨1, _⟩ => rfl
  have eb : idx_main_v67 (idx_main_v68 (ix2 n d)) = ix1 d :=
    funext fun a => by match a with | ⟨0, _⟩ => rfl
  rw [lin_row64_apply, val_main_v69_apply, val_main_v66_apply, val_main_v68_apply, val_main_v67_apply]
  simp only [el, er, eb, Ideal.addf_def]

end Cert.Gcn.Bridge

end
-- ==== Proof.BrEdgeK.lean ====
/-
  The kernel's edge messages: the message tile of the rows its padded index lists name; the padding repeats the lists on the real edges and carries a zero count after them.
-/
import proofs.«401522_j37752762532077_4_alg».proof.Proof.KTerm
import proofs.«401522_j37752762532077_4_alg».proof.Proof.SpecEdge
import proofs.«401522_j37752762532077_4_alg».proof.Proof.LibRows
import proofs.«401522_j37752762532077_4_alg».proof.Proof.Gen.ReferenceIdeal.Read
import Idealize.ShloMosaic.Lib.KernelVsHost
import Idealize.ShloMosaic.Lib.StableHlo.Predicate
import Idealize.ShloMosaic.Lib.SortFacts
import Idealize.ShloMosaic.Lib.ValueLayout

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

open Cert.KernelIdeal.Facts₀ Cert.KernelIdeal.Facts
open Idealize.ShloMosaic.StableHlo.Predicate (ixP bcast_col1 gather_take)

/-- A padded list as a function of the (padded) edge. -/
abbrev listOf (p : IVec Cert.KernelIdeal.S802816 32) : Fin 802816 → BitVec 32 := fun e => p (ix1 e)

/-- The one-axis index at a coordinate, in its two spellings. -/
theorem ofFin_eq_ix1 {n : Nat} (k : Fin n) : (Shape.Idx.ofFin k : (⟨1, ![n]⟩ : Shape).Idx) = ix1 k := by
  funext a
  have : a = 0 := Subsingleton.elim _ _
  subst this
  exact Fin.ext rfl

/-- Row `e` of the start-index column is the list's entry there, a negative one moved up by the node count. -/
theorem startCol_at (p : IVec Cert.KernelIdeal.S802816 32) (e : Fin 802816) :
    startCol p (ixP e) = Cert.Gcn.moved (p (ix1 e)) := by
  unfold startCol
  rw [bcast_col1, ofFin_eq_ix1]
  rfl

/-- The look-up of rows through a padded list reads, at edge `e`, the row of the node the list names there. -/
theorem rowsOf_eq (t : FVec Ideal Cert.KernelIdeal.S50000x64 .f32) (p : IVec Cert.KernelIdeal.S802816 32) :
    rowsOf t p = Cert.Gcn.takeRows t (listOf p) := by
  funext i
  obtain ⟨e, q, rfl⟩ : ∃ (e : Fin 802816) (q : Fin 64), i = ix2 e q := ⟨i 0, i 1, eq_ix2 i⟩
  unfold rowsOf
  rw [Idealize.ShloMosaic.HostRows.gather_rows _ rfl rfl rfl rfl rfl rfl t (startCol p) e q (by decide)]
  refine congrArg (fun r : Fin 50000 => t (ix2 r q)) (Fin.ext ?_)
  show min (startCol p (ixP e)).toInt.toNat (50000 - 1) = min (Cert.Gcn.moved (p (ix1 e))).toInt.toNat 49999
  rw [startCol_at]

/-- The look-up of entries through a padded list reads, at edge `e`, the entry of the node the list names there. -/
theorem entriesOf_eq (t : FVec Ideal Cert.KernelIdeal.S50000 .f32) (p : IVec Cert.KernelIdeal.S802816 32) :
    entriesOf t p = Cert.Gcn.takeEntries t (listOf p) := by
  funext i
  obtain ⟨e, rfl⟩ : ∃ e : Fin 802816, i = ix1 e := ⟨i 0, eq_ix1 i⟩
  have h := gather_take Cert.KernelIdeal.gather_S50000_S802816x1_S802816_n_0_n_n_0_1_1 rfl rfl rfl rfl t (startCol p) e (by decide)
  rw [ofFin_eq_ix1, ofFin_eq_ix1] at h
  unfold entriesOf
  rw [h]
  refine congrArg (fun r : Fin 50000 => t (ix1 r)) (Fin.ext ?_)
  show min (startCol p (ixP e)).toInt.toNat (50000 - 1) = min (Cert.Gcn.moved (p (ix1 e))).toInt.toNat 49999
  rw [startCol_at]

/-- The kernel's message tile is the message tile of the looked-up rows. -/
theorem msgTile_eq :
    msgTile x0 x1 x2 x3 x4 x5 x6 x7 x8 x9 x14 x15
      = Cert.Gcn.msg (Cert.Gcn.takeRows x0 (listOf (padIdx x14))) (Cert.Gcn.takeRows x0 (listOf (padIdx x15)))
          (Cert.Gcn.takeEntries (degOf x14 x1) (listOf (padIdx x14))) (Cert.Gcn.takeEntries (degOf x15 x1) (listOf (padIdx x15)))
          (padCnt x1) (Cert.Gcn.takeRows (Cert.Gcn.lin x0 x2 (row64 x3)) (listOf (padIdx x14)))
          (Cert.Gcn.takeRows (Cert.Gcn.lin x0 x4 (row64 x5)) (listOf (padIdx x15))) x6 (row64 x7) x8 (row1 x9) := by
  unfold msgTile
  simp only [rowsOf_eq, entriesOf_eq]

/-- On a real edge the padded index list is the list. -/
theorem padIdx_head (x : IVec Cert.KernelIdeal.S800000 32) (e : Fin 800000) :
    padIdx x (ix1 (⟨e.val, by omega⟩ : Fin 802816)) = x (ix1 e) := by
  unfold padIdx
  refine Idealize.ShloMosaic.pad_apply_of_inside _ _ _ x _ pads_S800000_S802816_028160 h_S_ _ (ix1 e) (fun a => ?_)
  have : a = 0 := Subsingleton.elim _ _
  subst this
  show e.val = 0 + e.val * (0 + 1)
  omega

/-- On a real edge the padded counts are the counts. -/
theorem padCnt_head (e : Fin 800000) :
    padCnt x1 (ix1 (⟨e.val, by omega⟩ : Fin 802816)) = x1 (ix1 e) := by
  unfold padCnt
  refine Idealize.ShloMosaic.pad_apply_of_inside _ _ _ x1 _ pads_S800000_S802816_028160 h_S_ _ (ix1 e) (fun a => ?_)
  have : a = 0 := Subsingleton.elim _ _
  subst this
  show e.val = 0 + e.val * (0 + 1)
  omega

/-- After the real edges the padded count is zero: the padding value is the integer zero read as a number. -/
theorem padCnt_tail (e : Fin 802816) (h : 800000 ≤ e.val) : padCnt x1 (ix1 e) = 0 := by
  unfold padCnt
  rw [Idealize.ShloMosaic.pad_apply_of_not_inside _ _ _ x1 _ pads_S800000_S802816_028160 h_S_ (ix1 e) 0 (by
    rintro ⟨-, -, h3⟩
    have h3' : (e.val - 0) / (0 + 1) < 800000 := h3
    omega)]
  show (((0#32 : BitVec 32).toInt : ℝ) : EReal) = 0
  simp

end Cert.Gcn.Bridge

end
-- ==== Proof.Keep.lean ====
/-
  The hard threshold, two ways. The reference squashes the edge logit by the logistic function, spelt
  `1 / (1 + exp (−z))`, and keeps the edge when the result is at least one half; the kernel keeps it when the logit
  itself is at least zero. On the extended reals these are the same test: the logistic function is increasing, is one
  half exactly at zero, and sends −∞ to 0 and +∞ to 1.
-/
import proofs.«401522_j37752762532077_4_alg».proof.Proof.Spec
import Idealize.ShloMosaic.PureOps.Ideal.Laws
import Mathlib.Analysis.SpecialFunctions.Exp

noncomputable section

namespace Cert.Gcn

open Idealize.ShloMosaic

/-! ## The three float words -/

/-- A single-precision pattern with a clear sign bit and an exponent field `E` that is neither all zeros nor all
    ones is a positive normal number: with fraction field `T` it denotes `(2^23 + T) · 2^(E − 150)`, the exponent
    `E − 127` of the leading one moved down by the 23 fraction places. -/
theorem ofBits_f32_posNormal (b : BitVec 32) (hs : (b.extractLsb' 31 1 == 1#1) = false)
    (h0 : (b.extractLsb' 23 8).toNat ≠ 0) (h1 : (b.extractLsb' 23 8).toNat ≠ 255) :
    Ideal.ofBits .f32 b
      = ((((2 ^ 23 + (b.extractLsb' 0 23).toNat : Nat) : ℝ)
            * (2 : ℝ) ^ (((b.extractLsb' 23 8).toNat : Int) - 150) : ℝ) : EReal) := by
  show Ideal.ieee 8 23 b = _
  unfold Ideal.ieee
  simp only [hs]
  -- not the all-ones exponent, not the zero exponent, sign factor one
  rw [if_neg (show (b.extractLsb' 23 8).toNat ≠ 2 ^ 8 - 1 from h1), if_neg h0, if_neg Bool.false_ne_true, one_mul]
  -- the bias 2^7 − 1 = 127 and the 23 fraction places together are 150
  congr 3
  omega

/-- The word of `0.0` denotes zero. -/
theorem zeroW_eq : zeroW = 0 :=
  Ideal.ofBits_zero_f32

/-- The word of `1.0` denotes one: exponent field 127, fraction 0, so `2^23 · 2^(−23)`. -/
theorem oneW_eq : oneW = 1 := by
  have h := ofBits_f32_posNormal 0x3F800000#32 (by decide) (by decide) (by decide)
  have e : (BitVec.extractLsb' 23 8 0x3F800000#32).toNat = 127 := by decide
  have f : (BitVec.extractLsb' 0 23 0x3F800000#32).toNat = 0 := by decide
  rw [e, f] at h
  rw [show oneW = Ideal.ofBits .f32 0x3F800000#32 from rfl, h, ← EReal.coe_one]
  congr 1
  norm_num

/-- The word of `0.5` denotes one half: exponent field 126, fraction 0, so `2^23 · 2^(−24)`. -/
theorem halfW_eq : halfW = ((1 / 2 : ℝ) : EReal) := by
  have h := ofBits_f32_posNormal 0x3F000000#32 (by decide) (by decide) (by decide)
  have e : (BitVec.extractLsb' 23 8 0x3F000000#32).toNat = 126 := by decide
  have f : (BitVec.extractLsb' 0 23 0x3F000000#32).toNat = 0 := by decide
  rw [e, f] at h
  rw [show halfW = Ideal.ofBits .f32 0x3F000000#32 from rfl, h]
  congr 1
  norm_num

/-! ## The logistic function as the host spells it -/

/-- The logistic function as the host program spells it: a negation, an exponential, a sum with the word of one and a
    quotient of the word of one by it. -/
def sigmoidHost (z : EReal) : EReal :=
  FloatOps.hostDivf (F := Ideal) (φ := .f32) oneW
    (FloatOps.addf (F := Ideal) (φ := .f32) oneW
      (FloatOps.hostUnary (F := Ideal) (φ := .f32) .exp (FloatOps.hostNegf (F := Ideal) (φ := .f32) z)))

/-- That spelling is the logistic function. -/
theorem sigmoidHost_eq (z : EReal) : sigmoidHost z = Ideal.logistic z := by
  -- each host operation is its exact namesake, so the spelling is `1W / (1W + exp (−z))`; the word is one
  show Ideal.div oneW (oneW + Ideal.exp (-z)) = Ideal.div 1 (1 + Ideal.exp (-z))
  rw [oneW_eq]

/-! ## The number of a bit, read signed after widening or unsigned as it stands -/

/-- A single bit widened by zeros to 32 bits has, read as a signed integer, the value 0 or 1 it had: the sign bit of
    the wide word is clear. -/
theorem toInt_setWidth_bit (b : BitVec 1) : (b.setWidth 32).toInt = (b.toNat : Int) := by
  have hb : b.toNat < 2 := b.isLt
  rw [BitVec.toInt_eq_toNat_of_lt]
  · simp [BitVec.toNat_setWidth]; omega
  · simp [BitVec.toNat_setWidth]; omega

/-- So the signed number of the widened bit is the unsigned number of the bit. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit]
  norm_cast

/-! ## The two tests agree -/

/-- `z ≥ 0` exactly when `logistic z ≥ ½`, on all of `[−∞, +∞]`. At `−∞` the logistic value is `0` and both sides
    fail; at `+∞` it is `1` and both hold; at a real `r` it is `(1 + e^(−r))⁻¹`, and
    `½ ≤ (1 + e^(−r))⁻¹ ↔ 1 + e^(−r) ≤ 2 ↔ e^(−r) ≤ 1 ↔ −r ≤ 0`. -/
theorem nonneg_iff_half_le_logistic (z : EReal) : 0 ≤ z ↔ ((1 / 2 : ℝ) : EReal) ≤ Ideal.logistic z := by
  induction z using EReal.rec with
  | bot =>
    rw [Ideal.logistic_bot, ← EReal.coe_zero, EReal.coe_le_coe_iff]
    constructor
    · intro h; exact absurd h (not_le.mpr EReal.bot_lt_zero)
    · intro h; norm_num at h
  | coe r =>
    rw [Ideal.logistic_coe, EReal.coe_le_coe_iff, EReal.coe_nonneg]
    have hpos : (0 : ℝ) < 1 + Real.exp (-r) := by positivity
    rw [le_inv_comm₀ (by norm_num) hpos, show ((1 / 2 : ℝ))⁻¹ = 2 by norm_num]
    constructor
    · intro h
      have : Real.exp (-r) ≤ 1 := Real.exp_le_one_iff.mpr (by linarith)
      linarith
    · intro h
      have : -r ≤ 0 := Real.exp_le_one_iff.mp (by linarith)
      linarith
  | top =>
    rw [Ideal.logistic_top, ← EReal.coe_one, EReal.coe_le_coe_iff]
    exact ⟨fun _ => by norm_num, fun _ => le_top⟩

/-- The kernel's test of the logit's sign is the reference's test of the squashed logit against one half. -/
theorem keepOfSign_eq (z : EReal) :
    keepOfSign z
      = FloatOps.uitofp (F := Ideal) .f32 (FloatOps.cmpf (F := Ideal) (φ := .f32) .oge (sigmoidHost z) halfW) := by
  unfold keepOfSign
  -- both sides are now the unsigned number of a comparison bit; the words are 0 and ½, the spelling the logistic
  rw [sitofp_setWidth_bit, sigmoidHost_eq, halfW_eq, zeroW_eq]
  congr 1
  -- the two bits: `0 ≤ z` against `½ ≤ logistic z`
  show BitVec.ofBool (decide ((0 : EReal) ≤ z)) = BitVec.ofBool (decide (((1 / 2 : ℝ) : EReal) ≤ Ideal.logistic z))
  rw [decide_eq_decide.mpr (nonneg_iff_half_le_logistic z)]

end Cert.Gcn

end
-- ==== Proof.BrEdgeR.lean ====
/-
  The reference's edge messages, one row at a time: each is the message row of the endpoint rows its two index lists name.
-/
import proofs.«401522_j37752762532077_4_alg».proof.Proof.KTerm
import proofs.«401522_j37752762532077_4_alg».proof.Proof.SpecEdge
import proofs.«401522_j37752762532077_4_alg».proof.Proof.Keep
import proofs.«401522_j37752762532077_4_alg».proof.Proof.LibRows
import proofs.«401522_j37752762532077_4_alg».proof.Proof.Gen.ReferenceIdeal.Read
import Idealize.ShloMosaic.Lib.ValueLayout
import Idealize.ShloMosaic.Lib.Pipeline.Value
import Idealize.ShloMosaic.Lib.StableHlo.Predicate

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

/-- The source list as a function of the edge. -/
abbrev srcOf (x14 : IVec Cert.KernelIdeal.S800000 32) : Fin 800000 → BitVec 32 := fun e => x14 (ix1 e)
/-- The destination list as a function of the edge. -/
abbrev dstOf (x15 : IVec Cert.KernelIdeal.S800000 32) : Fin 800000 → BitVec 32 := fun e => x15 (ix1 e)

/-! ## The start column at a row

Each look-up's start column is the index list with a negative index first moved up by the node count, kept as an
[800000 × 1] column; at row `e` it is the moved index of edge `e`. The six columns below differ only in which list
they move. -/

section Rows

open Cert.ReferenceIdeal.Read
open Idealize.ShloMosaic.StableHlo.Predicate (ixP)

/-- The one coordinate of a column's row is the vector's coordinate. -/
theorem colIdx_eq (e : Fin 800000) :
    (fun a => match a with | ⟨0, _⟩ => ⟨((ixP e) 0).val, ((ixP e) 0).isLt⟩ : Cert.ReferenceIdeal.S800000.Idx) = ix1 e :=
  funext fun a => by match a with | ⟨0, _⟩ => rfl

/-- The source list's start column for the two endpoint-row look-ups. -/
theorem v15_at (e : Fin 800000) : val_main_v15 (F := Ideal) x14 (ixP e) = Cert.Gcn.moved (x14 (ix1 e)) := by
  have hi : idx_main_v15 (ixP e) = ix1 e := colIdx_eq e
  rw [val_main_v15_apply, hi, val_main_v14_apply, val_main_v11_apply, val_main_v13_apply, val_main_v10_apply,
    val_main_v12_apply, val_main_c_apply, val_main_c_3_apply]
  rfl

/-- The destination list's start column for the two endpoint-row look-ups. -/
theorem v22_at (e : Fin 800000) : val_main_v22 (F := Ideal) x15 (ixP e) = Cert.Gcn.moved (x15 (ix1 e)) := by
  have hi : idx_main_v22 (ixP e) = ix1 e := colIdx_eq e
  rw [val_main_v22_apply, hi, val_main_v21_apply, val_main_v18_apply, val_main_v20_apply, val_main_v17_apply,
    val_main_v19_apply, val_main_c_4_apply, val_main_c_5_apply]
  rfl

/-- The source list's start column for the out-degree look-up. -/
theorem v50_at (e : Fin 800000) : val_main_v50 (F := Ideal) x14 (ixP e) = Cert.Gcn.moved (x14 (ix1 e)) := by
  have hi : idx_main_v50 (ixP e) = ix1 e := colIdx_eq e
  rw [val_main_v50_apply, hi, val_main_v49_apply, val_main_v46_apply, val_main_v48_apply, val_main_v45_apply,
    val_main_v47_apply, val_main_c_9_apply, val_main_c_10_apply]
  rfl

/-- The destination list's start column for the in-degree look-up. -/
theorem v57_at (e : Fin 800000) : val_main_v57 (F := Ideal) x15 (ixP e) = Cert.Gcn.moved (x15 (ix1 e)) := by
  have hi : idx_main_v57 (ixP e) = ix1 e := colIdx_eq e
  rw [val_main_v57_apply, hi, val_main_v56_apply, val_main_v53_apply, val_main_v55_apply, val_main_v52_apply,
    val_main_v54_apply, val_main_c_11_apply, val_main_c_12_apply]
  rfl

/-- The source list's start column for the source-side layer's look-up. -/
theorem v76_at (e : Fin 800000) : val_main_v76 (F := Ideal) x14 (ixP e) = Cert.Gcn.moved (x14 (ix1 e)) := by
  have hi : idx_main_v76 (ixP e) = ix1 e := colIdx_eq e
  rw [val_main_v76_apply, hi, val_main_v75_apply, val_main_v72_apply, val_main_v74_apply, val_main_v71_apply,
    val_main_v73_apply, val_main_c_13_apply, val_main_c_14_apply]
  rfl

/-- The destination list's start column for the destination-side layer's look-up. -/
theorem v89_at (e : Fin 800000) : val_main_v89 (F := Ideal) x15 (ixP e) = Cert.Gcn.moved (x15 (ix1 e)) := by
  have hi : idx_main_v89 (ixP e) = ix1 e := colIdx_eq e
  rw [val_main_v89_apply, hi, val_main_v88_apply, val_main_v85_apply, val_main_v87_apply, val_main_v84_apply,
    val_main_v86_apply, val_main_c_16_apply, val_main_c_17_apply]
  rfl

/-! ## Each look-up at a row -/

/-- A row look-up through a start column whose row `e` is the moved index `i`: the table's row at the node `i` names. -/
theorem rows_at (t : FVec Ideal Cert.KernelIdeal.S50000x64 .f32) (col : IVec Cert.ReferenceIdeal.S800000x1 32)
    (i : BitVec 32) (e : Fin 800000) (k : Fin 64) (hcol : col (ixP e) = Cert.Gcn.moved i) :
    Host.gather Cert.ReferenceIdeal.gather_S50000x64_S800000x1_S800000x64_1_0_n_n_0_1_164 t col (ix2 e k)
      = t (ix2 (Cert.Gcn.nodeOf i) k) := by
  refine (HostRows.gather_rows Cert.ReferenceIdeal.gather_S50000x64_S800000x1_S800000x64_1_0_n_n_0_1_164
    rfl rfl rfl rfl rfl rfl t col e k (by omega)).trans ?_
  refine congrArg (fun r : Fin 50000 => t (ix2 r k)) (Fin.ext ?_)
  show min (col (ixP e)).toInt.toNat (50000 - 1) = min (Cert.Gcn.moved i).toInt.toNat 49999
  rw [hcol]

end Rows

section Edge

open Cert.ReferenceIdeal.Read
open Idealize.ShloMosaic.StableHlo.Predicate (ixP)

/-- The source endpoint's feature row. -/
theorem v16_at (e : Fin 800000) (k : Fin 64) :
    val_main_v16 (F := Ideal) x0 x14 (ix2 e k) = Cert.Gcn.takeRows x0 (srcOf x14) (ix2 e k) :=
  rows_at x0 (val_main_v15 (F := Ideal) x14) (x14 (ix1 e)) e k (v15_at x14 e)

/-- The destination endpoint's feature row. -/
theorem v23_at (e : Fin 800000) (k : Fin 64) :
    val_main_v23 (F := Ideal) x0 x15 (ix2 e k) = Cert.Gcn.takeRows x0 (dstOf x15) (ix2 e k) :=
  rows_at x0 (val_main_v22 (F := Ideal) x15) (x15 (ix1 e)) e k (v22_at x15 e)

/-- The source-side layer's row at the source endpoint. -/
theorem v77_at (e : Fin 800000) (k : Fin 64) :
    val_main_v77 (F := Ideal) x0 x2 x3 x14 (ix2 e k)
      = Cert.Gcn.takeRows (val_main_v65 (F := Ideal) x0 x2 x3) (srcOf x14) (ix2 e k) :=
  rows_at (val_main_v65 (F := Ideal) x0 x2 x3) (val_main_v76 (F := Ideal) x14) (x14 (ix1 e)) e k (v76_at x14 e)

/-- The destination-side layer's row at the destination endpoint. -/
theorem v90_at (e : Fin 800000) (k : Fin 64) :
    val_main_v90 (F := Ideal) x0 x4 x5 x15 (ix2 e k)
      = Cert.Gcn.takeRows (val_main_v69 (F := Ideal) x0 x4 x5) (dstOf x15) (ix2 e k) :=
  rows_at (val_main_v69 (F := Ideal) x0 x4 x5) (val_main_v89 (F := Ideal) x15) (x15 (ix1 e)) e k (v89_at x15 e)

/-- The rank-1 index at a coordinate, in either spelling. -/
theorem ofFin_eq_ix1 {n : Nat} (k : Fin n) : (Shape.Idx.ofFin k : (⟨1, ![n]⟩ : Shape).Idx) = ix1 k := by
  funext a
  have : a = 0 := Subsingleton.elim _ _
  subst this
  exact Fin.ext rfl

/-- An entry look-up through a start column whose row `e` is the moved index `i`: the vector's entry at the node `i` names. -/
theorem entries_at (t : FVec Ideal Cert.KernelIdeal.S50000 .f32) (col : IVec Cert.ReferenceIdeal.S800000x1 32)
    (i : BitVec 32) (e : Fin 800000) (hcol : col (ixP e) = Cert.Gcn.moved i) :
    Host.gather Cert.ReferenceIdeal.gather_S50000_S800000x1_S800000_n_0_n_n_0_1_1 t col (ix1 e)
      = t (ix1 (Cert.Gcn.nodeOf i)) := by
  have h := StableHlo.Predicate.gather_take Cert.ReferenceIdeal.gather_S50000_S800000x1_S800000_n_0_n_n_0_1_1
    rfl rfl rfl rfl t col e (by omega)
  rw [ofFin_eq_ix1, ofFin_eq_ix1] at h
  refine h.trans ?_
  refine congrArg (fun r : Fin 50000 => t (ix1 r)) (Fin.ext ?_)
  show min (col (ixP e)).toInt.toNat (50000 - 1) = min (Cert.Gcn.moved i).toInt.toNat 49999
  rw [hcol]

/-- The out-degree of the source endpoint. -/
theorem v51_at (e : Fin 800000) :
    val_main_v51 (F := Ideal) x1 x14 (ix1 e)
      = Cert.Gcn.takeEntries (val_main_v9 (F := Ideal) x1 x14) (srcOf x14) (ix1 e) :=
  entries_at (val_main_v9 (F := Ideal) x1 x14) (val_main_v50 (F := Ideal) x14) (x14 (ix1 e)) e (v50_at x14 e)

/-- The in-degree of the destination endpoint. -/
theorem v58_at (e : Fin 800000) :
    val_main_v58 (F := Ideal) x1 x15 (ix1 e)
      = Cert.Gcn.takeEntries (val_main_v4 (F := Ideal) x1 x15) (dstOf x15) (ix1 e) :=
  entries_at (val_main_v4 (F := Ideal) x1 x15) (val_main_v57 (F := Ideal) x15) (x15 (ix1 e)) e (v57_at x15 e)

end Edge

section Weight

open Cert.ReferenceIdeal.Read
open Idealize.ShloMosaic.StableHlo.Predicate (ixP)

/-! ## The concatenated row -/

/-- The two endpoint rows laid side by side. -/
theorem v24_at (e : Fin 800000) (l : Fin 128) :
    val_main_v24 (F := Ideal) x0 x14 x15 (ix2 e l)
      = Cert.Gcn.sideBySide (Cert.Gcn.takeRows x0 (srcOf x14)) (Cert.Gcn.takeRows x0 (dstOf x15)) e l := by
  unfold val_main_v24 Cert.Gcn.sideBySide
  by_cases h : l.val < 64
  · -- a column of the first piece
    rw [dif_pos h]
    refine (concatenate_pair_apply_left (t := Cert.ReferenceIdeal.S800000x128) (s₁ := Cert.ReferenceIdeal.S800000x64)
      (s₂ := Cert.ReferenceIdeal.S800000x64) 1 _ _ _ (ix2 e l) rfl (ix2 e ⟨l.val, h⟩) ?_).trans
      (v16_at x0 x14 e ⟨l.val, h⟩)
    intro b
    match b with
    | ⟨0, _⟩ => rfl
    | ⟨1, _⟩ => rfl
  · -- a column of the second piece, 64 columns on
    rw [dif_neg h]
    have hl : l.val < 128 := l.isLt
    refine (concatenate_pair_apply_right (t := Cert.ReferenceIdeal.S800000x128) (s₁ := Cert.ReferenceIdeal.S800000x64)
      (s₂ := Cert.ReferenceIdeal.S800000x64) 1 _ _ _ (ix2 e l) rfl rfl (ix2 e ⟨l.val - 64, by omega⟩) ?_ ?_).trans
      (v23_at x0 x15 e ⟨l.val - 64, by omega⟩)
    · intro b hb
      match b, hb with
      | ⟨0, _⟩, _ => rfl
      | ⟨1, _⟩, hb => exact absurd rfl hb
    · show (l.val - 64) + 64 = l.val
      omega

/-! ## The logit at an edge -/

/-- The perceptron's hidden layer on the side-by-side row. -/
theorem v29_at (e : Fin 800000) (k : Fin 64) :
    val_main_v29 (F := Ideal) x0 x6 x7 x14 x15 (ix2 e k)
      = Cert.Gcn.hidden (Cert.Gcn.takeRows x0 (srcOf x14)) (Cert.Gcn.takeRows x0 (dstOf x15)) x6 (Cert.Gcn.asRow64 x7) e k := by
  have hl : ∀ l : Fin 128, lidx_main_v25 (ix2 e k) l = ix2 e l :=
    fun l => funext fun a => by match a with | ⟨0, _⟩ => rfl | ⟨1, _⟩ => rfl
  have hr : ∀ l : Fin 128, ridx_main_v25 (ix2 e k) l = ix2 l k :=
    fun l => funext fun a => by match a with | ⟨0, _⟩ => rfl | ⟨1, _⟩ => rfl
  have hb : idx_main_v26 (idx_main_v27 (ix2 e k)) = ix1 k :=
    funext fun a => by match a with | ⟨0, _⟩ => rfl
  have hsum : (∑ l : Fin 128, val_main_v24 (F := Ideal) x0 x14 x15 (lidx_main_v25 (ix2 e k) l) * x6 (ridx_main_v25 (ix2 e k) l))
      = ∑ l : Fin 128, Cert.Gcn.sideBySide (Cert.Gcn.takeRows x0 (srcOf x14)) (Cert.Gcn.takeRows x0 (dstOf x15)) e l * x6 (ix2 l k) :=
    Finset.sum_congr rfl fun l _ => by rw [hl, hr, v24_at]
  rw [val_main_v29_apply, val_main_v28_apply, val_main_v25_apply, val_main_v27_apply, val_main_v26_apply,
    val_main_call0_v0_apply, val_main_call0_cst_apply, hb, hsum]
  rfl

/-- The perceptron's output before squashing. -/
theorem v33_at (e : Fin 800000) :
    val_main_v33 (F := Ideal) x0 x6 x7 x8 x9 x14 x15 (ixP e)
      = Cert.Gcn.logit (Cert.Gcn.takeRows x0 (srcOf x14)) (Cert.Gcn.takeRows x0 (dstOf x15)) x6 (Cert.Gcn.asRow64 x7) x8
          (Cert.Gcn.asRow1 x9) e := by
  have hl : ∀ k : Fin 64, lidx_main_v30 (ixP e) k = ix2 e k :=
    fun k => funext fun a => by match a with | ⟨0, _⟩ => rfl | ⟨1, _⟩ => rfl
  have hr : ∀ k : Fin 64, ridx_main_v30 (ixP e) k = ix2 k (0 : Fin 1) :=
    fun k => funext fun a => by match a with | ⟨0, _⟩ => rfl | ⟨1, _⟩ => rfl
  have hb : idx_main_v31 (idx_main_v32 (ixP e)) = ix1 (0 : Fin 1) :=
    funext fun a => by match a with | ⟨0, _⟩ => rfl
  have hsum : (∑ k : Fin 64, val_main_v29 (F := Ideal) x0 x6 x7 x14 x15 (lidx_main_v30 (ixP e) k) * x8 (ridx_main_v30 (ixP e) k))
      = ∑ k : Fin 64, Cert.Gcn.hidden (Cert.Gcn.takeRows x0 (srcOf x14)) (Cert.Gcn.takeRows x0 (dstOf x15)) x6
          (Cert.Gcn.asRow64 x7) e k * x8 (ix2 k (0 : Fin 1)) :=
    Finset.sum_congr rfl fun k _ => by rw [hl, hr, v29_at]
  rw [val_main_v33_apply, val_main_v30_apply, val_main_v32_apply, val_main_v31_apply, hb, hsum]
  rfl

/-! ## The keep bit -/

/-- The squashed logit compared with one half, as a number: the sign test of the logit itself. -/
theorem v43_at (e : Fin 800000) :
    val_main_v43 (F := Ideal) x0 x6 x7 x8 x9 x14 x15 (ix1 e)
      = Cert.Gcn.keepOfSign (Cert.Gcn.logit (Cert.Gcn.takeRows x0 (srcOf x14)) (Cert.Gcn.takeRows x0 (dstOf x15)) x6
          (Cert.Gcn.asRow64 x7) x8 (Cert.Gcn.asRow1 x9) e) := by
  have hi : idx_main_v40 (ix1 e) = ixP e :=
    funext fun a => Fin.ext (by
      match a with
      | ⟨0, _⟩ => show e.val / 1 = e.val; exact Nat.div_one _
      | ⟨1, _⟩ => rfl)
  rw [Cert.Gcn.keepOfSign_eq, ← v33_at x0 x6 x7 x8 x9 x14 x15 e]
  rw [val_main_v43_apply, val_main_v42_apply, val_main_v40_apply, val_main_v39_apply, val_main_v38_apply,
    val_main_v37_apply, val_main_v36_apply, val_main_v35_apply, val_main_v34_apply, val_main_v41_apply,
    val_main_cst_7_apply, val_main_cst_6_apply, val_main_cst_8_apply, hi]
  rfl

/-! ## The weight -/

/-- The edge's weight: its count times the keep bit, times the inverse square root of the two degrees' product. -/
theorem v61_at (e : Fin 800000) :
    val_main_v61 (F := Ideal) x0 x1 x6 x7 x8 x9 x14 x15 (ix1 e)
      = Cert.Gcn.edgeWeight (Cert.Gcn.takeRows x0 (srcOf x14)) (Cert.Gcn.takeRows x0 (dstOf x15))
          (Cert.Gcn.takeEntries (val_main_v9 (F := Ideal) x1 x14) (srcOf x14))
          (Cert.Gcn.takeEntries (val_main_v4 (F := Ideal) x1 x15) (dstOf x15)) x1 x6 (Cert.Gcn.asRow64 x7) x8
          (Cert.Gcn.asRow1 x9) e := by
  rw [val_main_v61_apply, val_main_v44_apply, val_main_v60_apply, val_main_v59_apply, v43_at, v51_at, v58_at]
  unfold Cert.Gcn.edgeWeight
  simp only [Ideal.mulf_def, Ideal.hostUnary_rsqrt_def]

end Weight

/-- Row `e` of the reference's inbound messages is the first half of the message row of edge `e`: the edge weight
    times the source-side row of the source node. (The destination-side table `HD` does not enter the first half.) -/
theorem v79_at (HD : Cert.Gcn.Arr2 800000 64) (e : Fin 800000) (q : Fin 64) :
    val_main_v79 (F := Ideal) x0 x1 x2 x3 x6 x7 x8 x9 x14 x15 (ix2 e q)
      = Cert.Gcn.msgAt (Cert.Gcn.takeRows x0 (srcOf x14)) (Cert.Gcn.takeRows x0 (dstOf x15))
          (Cert.Gcn.takeEntries (val_main_v9 (F := Ideal) x1 x14) (srcOf x14)) (Cert.Gcn.takeEntries (val_main_v4 (F := Ideal) x1 x15) (dstOf x15)) x1
          (Cert.Gcn.takeRows (val_main_v65 (F := Ideal) x0 x2 x3) (srcOf x14)) HD x6 (Cert.Gcn.asRow64 x7) x8 (Cert.Gcn.asRow1 x9)
          e ⟨q.val, by omega⟩ := by
  have hq : q.val < 64 := q.isLt
  -- the weight column, broadcast along the row, reads the weight of edge e
  have hi : Cert.ReferenceIdeal.Read.idx_main_v70 (Cert.ReferenceIdeal.Read.idx_main_v78 (ix2 e q)) = ix1 e :=
    funext fun a => by match a with | ⟨0, _⟩ => rfl
  rw [Cert.ReferenceIdeal.Read.val_main_v79_apply, Cert.ReferenceIdeal.Read.val_main_v78_apply,
    Cert.ReferenceIdeal.Read.val_main_v70_apply, hi, v61_at, v77_at]
  -- the first branch of the message row
  unfold Cert.Gcn.msgAt
  rw [dif_pos hq]
  rfl

/-- Row `e` of the reference's outbound messages is the second half of the same message row: the edge weight times
    the destination-side row of the destination node. (The source-side table `HS` does not enter the second half.) -/
theorem v92_at (HS : Cert.Gcn.Arr2 800000 64) (e : Fin 800000) (q : Fin 64) :
    val_main_v92 (F := Ideal) x0 x1 x4 x5 x6 x7 x8 x9 x14 x15 (ix2 e q)
      = Cert.Gcn.msgAt (Cert.Gcn.takeRows x0 (srcOf x14)) (Cert.Gcn.takeRows x0 (dstOf x15))
          (Cert.Gcn.takeEntries (val_main_v9 (F := Ideal) x1 x14) (srcOf x14)) (Cert.Gcn.takeEntries (val_main_v4 (F := Ideal) x1 x15) (dstOf x15)) x1
          HS (Cert.Gcn.takeRows (val_main_v69 (F := Ideal) x0 x4 x5) (dstOf x15)) x6 (Cert.Gcn.asRow64 x7) x8 (Cert.Gcn.asRow1 x9)
          e ⟨q.val + 64, by omega⟩ := by
  have hq : ¬ (q.val + 64 < 64) := by omega
  -- the second broadcast of the same weight column
  have hi : Cert.ReferenceIdeal.Read.idx_main_v83 (Cert.ReferenceIdeal.Read.idx_main_v91 (ix2 e q)) = ix1 e :=
    funext fun a => by match a with | ⟨0, _⟩ => rfl
  rw [Cert.ReferenceIdeal.Read.val_main_v92_apply, Cert.ReferenceIdeal.Read.val_main_v91_apply,
    Cert.ReferenceIdeal.Read.val_main_v83_apply, hi, v61_at, v90_at]
  -- the second branch of the message row, 64 columns on
  unfold Cert.Gcn.msgAt
  rw [dif_neg hq]
  -- the column q + 64, less 64, is q
  have hc : (⟨q.val + 64 - 64, by omega⟩ : Fin 64) = q := Fin.ext (Nat.add_sub_cancel q.val 64)
  rw [hc]
  rfl

end Cert.Gcn.Bridge

end
-- ==== Proof.BrAgg.lean ====
/-
  The two aggregates: the padded message rows summed into their nodes are the reference's message rows summed into theirs, the padding rows adding zero.
-/
import proofs.«401522_j37752762532077_4_alg».proof.Proof.KTerm
import proofs.«401522_j37752762532077_4_alg».proof.Proof.SpecEdge
import proofs.«401522_j37752762532077_4_alg».proof.Proof.LibRows
import proofs.«401522_j37752762532077_4_alg».proof.Proof.BrLin
import proofs.«401522_j37752762532077_4_alg».proof.Proof.BrEdgeK
import proofs.«401522_j37752762532077_4_alg».proof.Proof.BrEdgeR
import proofs.«401522_j37752762532077_4_alg».proof.Proof.Gen.ReferenceIdeal.Read
import Idealize.ShloMosaic.Lib.ValueLayout
import Idealize.ShloMosaic.Lib.StableHlo.Predicate

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

open Cert.KernelIdeal.Facts₀ Cert.KernelIdeal.Facts
open Idealize.ShloMosaic.StableHlo.Predicate (ixP bcast_col1)
open Idealize.ShloMosaic.HostRows (scatterAdd_rows sum_fin_of_tail_zero)

/-! ## Rows summed into their nodes, from zero -/

/-- Entry `(r, q)` of `n` rows of 64 summed from the all-zero table into the nodes an index list names: the word of
    zero plus column `q` of every row whose index, read signed, is exactly `r`. Both programs' aggregates have this
    form, the kernel's over 802816 rows and the reference's over 800000. -/
theorem rowsSum_at {n : Nat} (d : ScatterDims ⟨2, ![50000, 64]⟩ ⟨2, ![n, 1]⟩ ⟨2, ![n, 64]⟩)
    (huw : d.updateWindowDims = [1]) (hiw : d.insertedWindowDims = [0]) (hsd : d.scatterDimsToOperandDims = [0])
    (hivd : d.indexVectorDim = 1)
    (h0 : (⟨0, ![]⟩ : Shape).BroadcastsInDim ⟨2, ![50000, 64]⟩ ![])
    (h1 : (⟨1, ![n]⟩ : Shape).BroadcastsInDim ⟨2, ![n, 1]⟩ ![0])
    (p : IVec ⟨1, ![n]⟩ 32) (u : FVec Ideal ⟨2, ![n, 64]⟩ .f32) (r : Fin 50000) (q : Fin 64) :
    Host.scatterAdd d (broadcastInDim ⟨2, ![50000, 64]⟩ ![] h0 (constant (F := Ideal) ⟨0, ![]⟩ .f32 0x00000000#32))
        (broadcastInDim ⟨2, ![n, 1]⟩ ![0] h1 p) u (ix2 r q)
      = Cert.Gcn.zeroW + ∑ e : Fin n, if (p (ix1 e)).toInt = (r.val : Int) then u (ix2 e q) else 0 := by
  rw [scatterAdd_rows d huw hiw hsd hivd]
  -- the operand reads the one scalar everywhere; the index column at row `e` is the list at `e`
  congr 1
  refine Finset.sum_congr rfl (fun e _ => ?_)
  rw [bcast_col1, ofFin_eq_ix1]

/-! ## The inputs of a message row that the two programs spell differently -/

/-- The kernel's out-degree vector is the reference's: the same sum of counts into nodes, clamped below at one. -/
theorem degOf_src : degOf x14 x1 = val_main_v9 (F := Ideal) x1 x14 := rfl

/-- The kernel's in-degree vector is the reference's. -/
theorem degOf_dst : degOf x15 x1 = val_main_v4 (F := Ideal) x1 x15 := rfl

/-- A bias vector cast to one row is that vector read along the row. -/
theorem row64_eq (b : FVec Ideal Cert.KernelIdeal.S64 .f32) : row64 b = Cert.Gcn.asRow64 b := by
  funext i
  rw [row64_apply]
  rfl

/-- A one-entry bias cast to one by one is that entry. -/
theorem row1_eq (b : FVec Ideal Cert.KernelIdeal.S1 .f32) : row1 b = Cert.Gcn.asRow1 b := by
  funext i
  rw [row1_apply]
  rfl

/-- On a real edge the row a padded list picks out of a table is the row the list picks. -/
theorem takeRows_head (t : Cert.Gcn.Arr2 50000 64) (x : IVec Cert.KernelIdeal.S800000 32) (e : Fin 800000) (k : Fin 64) :
    Cert.Gcn.takeRows t (listOf (padIdx x)) (ix2 (⟨e.val, by omega⟩ : Fin 802816) k)
      = Cert.Gcn.takeRows t (fun e => x (ix1 e)) (ix2 e k) := by
  show t (ix2 (Cert.Gcn.nodeOf (padIdx x (ix1 (⟨e.val, _⟩ : Fin 802816)))) k) = t (ix2 (Cert.Gcn.nodeOf (x (ix1 e))) k)
  rw [padIdx_head]

/-- On a real edge the entry a padded list picks out of a vector is the entry the list picks. -/
theorem takeEntries_head (t : Cert.Gcn.Arr1 50000) (x : IVec Cert.KernelIdeal.S800000 32) (e : Fin 800000) :
    Cert.Gcn.takeEntries t (listOf (padIdx x)) (ix1 (⟨e.val, by omega⟩ : Fin 802816))
      = Cert.Gcn.takeEntries t (fun e => x (ix1 e)) (ix1 e) := by
  show t (ix1 (Cert.Gcn.nodeOf (padIdx x (ix1 (⟨e.val, _⟩ : Fin 802816))))) = t (ix1 (Cert.Gcn.nodeOf (x (ix1 e))))
  rw [padIdx_head]

/-! ## One entry of the kernel's message tile -/

/-- Entry `(e, q')` of the kernel's tile is the message entry of padded edge `e`, its degree vectors, linear layers and
    bias rows written as the reference writes them. -/
theorem tile_at (e : Fin 802816) (q' : Fin 128) :
    msgTile x0 x1 x2 x3 x4 x5 x6 x7 x8 x9 x14 x15 (ix2 e q')
      = Cert.Gcn.msgAt (Cert.Gcn.takeRows x0 (listOf (padIdx x14))) (Cert.Gcn.takeRows x0 (listOf (padIdx x15)))
          (Cert.Gcn.takeEntries (val_main_v9 (F := Ideal) x1 x14) (listOf (padIdx x14)))
          (Cert.Gcn.takeEntries (val_main_v4 (F := Ideal) x1 x15) (listOf (padIdx x15)))
          (padCnt x1) (Cert.Gcn.takeRows (val_main_v65 (F := Ideal) x0 x2 x3) (listOf (padIdx x14)))
          (Cert.Gcn.takeRows (val_main_v69 (F := Ideal) x0 x4 x5) (listOf (padIdx x15)))
          x6 (Cert.Gcn.asRow64 x7) x8 (Cert.Gcn.asRow1 x9) e q' := by
  rw [msgTile_eq, degOf_src x1 x14, degOf_dst x1 x15, lin_s2d x0 x2 x3, lin_d2s x0 x4 x5, row64_eq x7, row1_eq x9]
  rfl

/-- After the real edges the tile is zero: the padded count is. -/
theorem tile_tail (e : Fin 802816) (he : 800000 ≤ e.val) (q' : Fin 128) :
    msgTile x0 x1 x2 x3 x4 x5 x6 x7 x8 x9 x14 x15 (ix2 e q') = 0 := by
  rw [tile_at]
  exact Cert.Gcn.msgAt_of_cnt_zero _ _ _ _ _ _ _ _ _ _ _ e q' (padCnt_tail x1 e he)

/-- On a real edge the tile's entry is the message entry of that edge of the reference: every per-edge input agrees
    there, the padded lists and counts being the lists and counts. -/
theorem tile_head (e : Fin 800000) (q' : Fin 128) :
    msgTile x0 x1 x2 x3 x4 x5 x6 x7 x8 x9 x14 x15 (ix2 (⟨e.val, by omega⟩ : Fin 802816) q')
      = Cert.Gcn.msgAt (Cert.Gcn.takeRows x0 (srcOf x14)) (Cert.Gcn.takeRows x0 (dstOf x15))
          (Cert.Gcn.takeEntries (val_main_v9 (F := Ideal) x1 x14) (srcOf x14))
          (Cert.Gcn.takeEntries (val_main_v4 (F := Ideal) x1 x15) (dstOf x15)) x1
          (Cert.Gcn.takeRows (val_main_v65 (F := Ideal) x0 x2 x3) (srcOf x14))
          (Cert.Gcn.takeRows (val_main_v69 (F := Ideal) x0 x4 x5) (dstOf x15))
          x6 (Cert.Gcn.asRow64 x7) x8 (Cert.Gcn.asRow1 x9) e q' := by
  rw [tile_at]
  exact Cert.Gcn.msgAt_congr _ _ _ _ _ _ _ _ _ _ _ _ _ _ _ _ _ _ (⟨e.val, by omega⟩ : Fin 802816) e q'
    (fun k => takeRows_head x0 x14 e k) (fun k => takeRows_head x0 x15 e k)
    (takeEntries_head _ x14 e) (takeEntries_head _ x15 e) (padCnt_head x1 e)
    (fun k => takeRows_head _ x14 e k) (fun k => takeRows_head _ x15 e k)

/-! ## The two aggregates -/

/-- The inbound aggregate of the kernel program is the reference's. -/
theorem aggIn_eq :
    aggIn x0 x1 x2 x3 x4 x5 x6 x7 x8 x9 x14 x15 = val_main_v82 (F := Ideal) x0 x1 x2 x3 x6 x7 x8 x9 x14 x15 := by
  funext i
  obtain ⟨r, q, rfl⟩ : ∃ (r : Fin 50000) (q : Fin 64), i = ix2 r q := ⟨i 0, i 1, eq_ix2 i⟩
  unfold aggIn sumInto val_main_v82 Cert.ReferenceIdeal.Read.val_main_v80 Cert.ReferenceIdeal.Read.val_main_v81
    Cert.ReferenceIdeal.Read.val_main_cst_15
  rw [rowsSum_at Cert.KernelIdeal.scatter_S50000x64_S802816x1_S802816x64_1_0_0_1 rfl rfl rfl rfl,
    rowsSum_at Cert.ReferenceIdeal.scatter_S50000x64_S800000x1_S800000x64_1_0_0_1 rfl rfl rfl rfl]
  refine congrArg (fun s => Cert.Gcn.zeroW + s) ?_
  -- the first 64 columns of the tile, row by row
  have hcol : ∀ e : Fin 802816,
      extractStridedSlice Cert.KernelIdeal.S802816x64 ![0, 0] (msgTile x0 x1 x2 x3 x4 x5 x6 x7 x8 x9 x14 x15)
          slices_S802816x128_S802816x64_0_0 (ix2 e q)
        = msgTile x0 x1 x2 x3 x4 x5 x6 x7 x8 x9 x14 x15 (ix2 e (⟨q.val, by omega⟩ : Fin 128)) := fun e =>
    slice2_axis1_apply 0 _ _ e q ⟨q.val, by omega⟩ (Nat.zero_add _).symm
  -- the padding rows add zero
  rw [sum_fin_of_tail_zero (n := 800000) (by omega) _ (fun e he => by
    rw [hcol, tile_tail x0 x1 x2 x3 x4 x5 x6 x7 x8 x9 x14 x15 e he]; exact ite_self 0)]
  -- the real rows are the reference's, under the same test of the same index
  refine Finset.sum_congr rfl (fun e _ => ?_)
  show (if (padIdx x15 (ix1 (⟨e.val, _⟩ : Fin 802816))).toInt = (r.val : Int) then _ else 0) = _
  rw [padIdx_head, hcol, tile_head,
    ← v79_at x0 x1 x2 x3 x6 x7 x8 x9 x14 x15 (Cert.Gcn.takeRows (val_main_v69 (F := Ideal) x0 x4 x5) (dstOf x15)) e q]

/-- The outbound aggregate of the kernel program is the reference's. -/
theorem aggOut_eq :
    aggOut x0 x1 x2 x3 x4 x5 x6 x7 x8 x9 x14 x15 = val_main_v95 (F := Ideal) x0 x1 x4 x5 x6 x7 x8 x9 x14 x15 := by
  funext i
  obtain ⟨r, q, rfl⟩ : ∃ (r : Fin 50000) (q : Fin 64), i = ix2 r q := ⟨i 0, i 1, eq_ix2 i⟩
  unfold aggOut sumInto val_main_v95 Cert.ReferenceIdeal.Read.val_main_v93 Cert.ReferenceIdeal.Read.val_main_v94
    Cert.ReferenceIdeal.Read.val_main_cst_18
  rw [rowsSum_at Cert.KernelIdeal.scatter_S50000x64_S802816x1_S802816x64_1_0_0_1 rfl rfl rfl rfl,
    rowsSum_at Cert.ReferenceIdeal.scatter_S50000x64_S800000x1_S800000x64_1_0_0_1 rfl rfl rfl rfl]
  refine congrArg (fun s => Cert.Gcn.zeroW + s) ?_
  -- the last 64 columns of the tile, row by row
  have hcol : ∀ e : Fin 802816,
      extractStridedSlice Cert.KernelIdeal.S802816x64 ![0, 64] (msgTile x0 x1 x2 x3 x4 x5 x6 x7 x8 x9 x14 x15)
          slices_S802816x128_S802816x64_0_64 (ix2 e q)
        = msgTile x0 x1 x2 x3 x4 x5 x6 x7 x8 x9 x14 x15 (ix2 e (⟨q.val + 64, by omega⟩ : Fin 128)) := fun e =>
    slice2_axis1_apply 64 _ _ e q ⟨q.val + 64, by omega⟩ (Nat.add_comm _ _)
  -- the padding rows add zero
  rw [sum_fin_of_tail_zero (n := 800000) (by omega) _ (fun e he => by
    rw [hcol, tile_tail x0 x1 x2 x3 x4 x5 x6 x7 x8 x9 x14 x15 e he]; exact ite_self 0)]
  -- the real rows are the reference's, under the same test of the same index
  refine Finset.sum_congr rfl (fun e _ => ?_)
  show (if (padIdx x14 (ix1 (⟨e.val, _⟩ : Fin 802816))).toInt = (r.val : Int) then _ else 0) = _
  rw [padIdx_head, hcol, tile_head,
    ← v92_at x0 x1 x4 x5 x6 x7 x8 x9 x14 x15 (Cert.Gcn.takeRows (val_main_v65 (F := Ideal) x0 x2 x3) (srcOf x14)) e q]

end Cert.Gcn.Bridge

end
-- ==== Proof.BrBlend.lean ====
/-
  The gated blend: the third region's rows are the reference's last twenty-eight host operations applied to the two aggregates.
-/
import proofs.«401522_j37752762532077_4_alg».proof.Proof.KTerm
import proofs.«401522_j37752762532077_4_alg».proof.Proof.Keep
import proofs.«401522_j37752762532077_4_alg».proof.Proof.BrLin
import proofs.«401522_j37752762532077_4_alg».proof.Proof.Gen.ReferenceIdeal.Read
import Idealize.ShloMosaic.Lib.ValueLayout
import Idealize.ShloMosaic.Lib.Pipeline.Value

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

/-- Two 64-wide arrays joined along the columns read, at `(n, l)`, the first at column `l` for `l < 64` and the
    second at column `l − 64` after: the two rows laid side by side. -/
theorem concat_sideBySide (A B : Cert.Gcn.Arr2 50000 64)
    (h : Shape.Concatenates [(⟨2, ![50000, 64]⟩ : Shape), ⟨2, ![50000, 64]⟩] ⟨2, ![50000, 128]⟩ 1)
    (n : Fin 50000) (l : Fin 128) :
    concatenate (⟨2, ![50000, 128]⟩ : Shape) 1 [⟨(⟨2, ![50000, 64]⟩ : Shape), A⟩, ⟨(⟨2, ![50000, 64]⟩ : Shape), B⟩] h (ix2 n l)
      = Cert.Gcn.sideBySide A B n l := by
  unfold Cert.Gcn.sideBySide
  by_cases hl : l.val < 64
  · rw [dif_pos hl]
    exact concatenate_pair_apply_left 1 A B h (ix2 n l) rfl (ix2 n ⟨l.val, hl⟩)
      (fun b => by match b with | ⟨0, _⟩ => rfl | ⟨1, _⟩ => rfl)
  · rw [dif_neg hl]
    exact concatenate_pair_apply_right 1 A B h (ix2 n l) rfl rfl (ix2 n ⟨l.val - 64, by omega⟩)
      (fun b hb => by
        match b, hb with
        | ⟨0, _⟩, _ => rfl
        | ⟨1, _⟩, hb => exact absurd rfl hb)
      (by show (l.val - 64) + 64 = l.val; omega)

open Cert.ReferenceIdeal.Read in
/-- The reference's joined aggregates are its two aggregates side by side. -/
theorem v96_sideBySide (n : Fin 50000) (l : Fin 128) :
    val_main_v96 (F := Ideal) x0 x1 x2 x3 x4 x5 x6 x7 x8 x9 x14 x15 (ix2 n l)
      = Cert.Gcn.sideBySide (val_main_v82 (F := Ideal) x0 x1 x2 x3 x6 x7 x8 x9 x14 x15) (val_main_v95 (F := Ideal) x0 x1 x4 x5 x6 x7 x8 x9 x14 x15) n l :=
  concat_sideBySide _ _ _ n l

open Cert.ReferenceIdeal.Read in
/-- Hidden unit `k` of node `n`: the 128-term sum over the joined row, plus the bias, clamped below at the zero word. -/
theorem v101_hidden (n : Fin 50000) (k : Fin 64) :
    val_main_v101 (F := Ideal) x0 x1 x2 x3 x4 x5 x6 x7 x8 x9 x10 x11 x14 x15 (ix2 n k)
      = Cert.Gcn.hidden (val_main_v82 (F := Ideal) x0 x1 x2 x3 x6 x7 x8 x9 x14 x15) (val_main_v95 (F := Ideal) x0 x1 x4 x5 x6 x7 x8 x9 x14 x15) x10 (row64 x11) n k := by
  have el : ∀ l : Fin 128, lidx_main_v97 (ix2 n k) l = ix2 n l := fun l =>
    funext fun a => by match a with | ⟨0, _⟩ => rfl | ⟨1, _⟩ => rfl
  have er : ∀ l : Fin 128, ridx_main_v97 (ix2 n k) l = ix2 l k := fun l =>
    funext fun a => by match a with | ⟨0, _⟩ => rfl | ⟨1, _⟩ => rfl
  have eb : idx_main_v98 (idx_main_v99 (ix2 n k)) = ix1 k :=
    funext fun a => by match a with | ⟨0, _⟩ => rfl
  rw [val_main_v101_apply, val_main_v100_apply, val_main_v97_apply, val_main_v99_apply, val_main_v98_apply,
    val_main_call1_v0_apply, val_main_call1_cst_apply]
  simp only [el, er, eb, v96_sideBySide]
  unfold Cert.Gcn.hidden
  rw [row64_apply]
  rfl

open Cert.ReferenceIdeal.Read in
/-- The perceptron's output for node `n`: the 64-term sum over the hidden units, plus the one bias. -/
theorem v105_logit (n : Fin 50000) :
    val_main_v105 (F := Ideal) x0 x1 x2 x3 x4 x5 x6 x7 x8 x9 x10 x11 x12 x13 x14 x15 (ix2 n (0 : Fin 1))
      = Cert.Gcn.logit (val_main_v82 (F := Ideal) x0 x1 x2 x3 x6 x7 x8 x9 x14 x15) (val_main_v95 (F := Ideal) x0 x1 x4 x5 x6 x7 x8 x9 x14 x15) x10 (row64 x11) x12 (row1 x13) n := by
  have el : ∀ k : Fin 64, lidx_main_v102 (ix2 n (0 : Fin 1)) k = ix2 n k := fun k =>
    funext fun a => by match a with | ⟨0, _⟩ => rfl | ⟨1, _⟩ => rfl
  have er : ∀ k : Fin 64, ridx_main_v102 (ix2 n (0 : Fin 1)) k = ix2 k (0 : Fin 1) := fun k =>
    funext fun a => by match a with | ⟨0, _⟩ => rfl | ⟨1, _⟩ => rfl
  have eb : idx_main_v103 (idx_main_v104 (ix2 n (0 : Fin 1))) = ix1 (0 : Fin 1) :=
    funext fun a => by match a with | ⟨0, _⟩ => rfl
  rw [val_main_v105_apply, val_main_v102_apply, val_main_v104_apply, val_main_v103_apply]
  simp only [el, er, eb, v101_hidden]
  unfold Cert.Gcn.logit
  rw [row1_apply]
  rfl

open Cert.ReferenceIdeal.Read in
/-- The reference's `1 / (1 + exp(−z))` at the perceptron's output is the gate. -/
theorem v111_gate (n : Fin 50000) :
    val_main_v111 (F := Ideal) x0 x1 x2 x3 x4 x5 x6 x7 x8 x9 x10 x11 x12 x13 x14 x15 (ix2 n (0 : Fin 1))
      = Cert.Gcn.gate (val_main_v82 (F := Ideal) x0 x1 x2 x3 x6 x7 x8 x9 x14 x15) (val_main_v95 (F := Ideal) x0 x1 x4 x5 x6 x7 x8 x9 x14 x15) x10 (row64 x11) x12 (row1 x13) n := by
  rw [val_main_v111_apply, val_main_v110_apply, val_main_cst_20_apply, val_main_v109_apply, val_main_v108_apply,
    val_main_cst_19_apply, val_main_v107_apply, val_main_v106_apply, v105_logit]
  unfold Cert.Gcn.gate
  -- the quotient of the one word by the one word plus the exponential of the negated output is the logistic function
  exact sigmoidHost_eq _

open Cert.ReferenceIdeal.Read in
/-- The blend of the reference's two aggregates is the reference's result. -/
theorem blend_ref :
    Cert.Gcn.blend (val_main_v82 (F := Ideal) x0 x1 x2 x3 x6 x7 x8 x9 x14 x15) (val_main_v95 (F := Ideal) x0 x1 x4 x5 x6 x7 x8 x9 x14 x15)
        x0 x10 (row64 x11) x12 (row1 x13)
      = val_main_v123 (F := Ideal) x0 x1 x2 x3 x4 x5 x6 x7 x8 x9 x10 x11 x12 x13 x14 x15 := by
  funext i
  obtain ⟨n, d, rfl⟩ : ∃ (n : Fin 50000) (d : Fin 64), i = ix2 n d := ⟨i 0, i 1, eq_ix2 i⟩
  -- both gate columns are broadcast along the 64 features: entry (n, d) reads them at (n, 0)
  have e1 : idx_main_v114 (ix2 n d) = ix2 n (0 : Fin 1) :=
    funext fun a => by match a with | ⟨0, _⟩ => rfl | ⟨1, _⟩ => rfl
  have e2 : idx_main_v120 (ix2 n d) = ix2 n (0 : Fin 1) :=
    funext fun a => by match a with | ⟨0, _⟩ => rfl | ⟨1, _⟩ => rfl
  rw [val_main_v123_apply, val_main_v122_apply, val_main_v115_apply, val_main_v121_apply, val_main_v114_apply,
    val_main_v120_apply, e1, e2, val_main_v113_apply, val_main_v119_apply, val_main_v117_apply, v111_gate,
    val_main_v112_apply, val_main_cst_21_apply, val_main_v118_apply, val_main_cst_23_apply, val_main_v116_apply,
    val_main_cst_22_apply]
  rfl

end Cert.Gcn.Bridge

end
-- ==== Proof.Bridge.lean ====
/-
  The two programs compute one function of their sixteen arguments: equal aggregates, then one blend.
-/
import proofs.«401522_j37752762532077_4_alg».proof.Proof.KTerm
import proofs.«401522_j37752762532077_4_alg».proof.Proof.BrAgg
import proofs.«401522_j37752762532077_4_alg».proof.Proof.BrBlend
import proofs.«401522_j37752762532077_4_alg».proof.Proof.Gen.ReferenceIdeal.Read

set_option maxRecDepth 16384

noncomputable section

namespace Cert.Gcn.Bridge

open Idealize.ShloMosaic Idealize.ShloMosaic.TcCoe Idealize.ShloMosaic.ValueIdx
open Cert.KernelIdeal.Gcn
open Cert.ReferenceIdeal.Read (val_main_v4 val_main_v9 val_main_v65 val_main_v69 val_main_v79 val_main_v82 val_main_v92 val_main_v95 val_main_v123)

-- the sixteen arguments, typed by the kernel program's shapes (the reference's are the same literal shapes)
variable (x0 : FVec Ideal Cert.KernelIdeal.S50000x64 .f32) (x1 : FVec Ideal Cert.KernelIdeal.S800000 .f32)
  (x2 : FVec Ideal Cert.KernelIdeal.S64x64 .f32) (x3 : FVec Ideal Cert.KernelIdeal.S64 .f32)
  (x4 : FVec Ideal Cert.KernelIdeal.S64x64 .f32) (x5 : FVec Ideal Cert.KernelIdeal.S64 .f32)
  (x6 : FVec Ideal Cert.KernelIdeal.S128x64 .f32) (x7 : FVec Ideal Cert.KernelIdeal.S64 .f32)
  (x8 : FVec Ideal Cert.KernelIdeal.S64x1 .f32) (x9 : FVec Ideal Cert.KernelIdeal.S1 .f32)
  (x10 : FVec Ideal Cert.KernelIdeal.S128x64 .f32) (x11 : FVec Ideal Cert.KernelIdeal.S64 .f32)
  (x12 : FVec Ideal Cert.KernelIdeal.S64x1 .f32) (x13 : FVec Ideal Cert.KernelIdeal.S1 .f32)
  (x14 x15 : IVec Cert.KernelIdeal.S800000 32)

/-- The kernel program's result term is the reference's last stage. -/
theorem kernelOut_eq :
    kernelOut x0 x1 x2 x3 x4 x5 x6 x7 x8 x9 x10 x11 x12 x13 x14 x15
      = val_main_v123 (F := Ideal) x0 x1 x2 x3 x4 x5 x6 x7 x8 x9 x10 x11 x12 x13 x14 x15 := by
  unfold kernelOut
  rw [aggIn_eq, aggOut_eq]
  exact blend_ref x0 x1 x2 x3 x4 x5 x6 x7 x8 x9 x10 x11 x12 x13 x14 x15

end Cert.Gcn.Bridge

end
-- ==== Proof.lean ====
/-
  The certificate. A graph layer: two linear maps of the node features, a per-edge weight (the edge's count, kept
  or dropped by a two-layer perceptron on the two endpoint rows, over the square root of the two endpoint degrees),
  the weighted source-side rows summed into the destination nodes and the weighted destination-side rows summed into
  the source nodes, and a per-node gate blending the two sums onto the features.

  The kernel program computes the three dense stages in three tiled regions, looks rows up and sums them on the
  host over an edge list padded with zero-count edges to a whole number of tiles, and tests the perceptron's logit
  against zero where the reference tests its logistic image against one half. Over the extended reals the two
  programs are one function of the arguments: the tiles cover their arrays; a matrix product into a zero
  accumulator is the host's product; the logistic function passes one half exactly at zero; and a padding edge adds
  zero to an exact sum.
-/
import proofs.«401522_j37752762532077_4_alg».proof.Defs
import proofs.«401522_j37752762532077_4_alg».proof.Proof.Gen.Kernel
import proofs.«401522_j37752762532077_4_alg».proof.Proof.Gen.Kernel.Skeleton
import proofs.«401522_j37752762532077_4_alg».proof.Proof.Gen.Kernel.Launch
import proofs.«401522_j37752762532077_4_alg».proof.Proof.Gen.Kernel.Points
import proofs.«401522_j37752762532077_4_alg».proof.Proof.Gen.Kernel.Frame
import proofs.«401522_j37752762532077_4_alg».proof.Proof.Gen.KernelIdeal
import proofs.«401522_j37752762532077_4_alg».proof.Proof.Gen.KernelIdeal.Skeleton
import proofs.«401522_j37752762532077_4_alg».proof.Proof.Gen.KernelIdeal.Launch
import proofs.«401522_j37752762532077_4_alg».proof.Proof.Gen.KernelIdeal.Points
import proofs.«401522_j37752762532077_4_alg».proof.Proof.Gen.KernelIdeal.Frame
import proofs.«401522_j37752762532077_4_alg».proof.Proof.Gen.ReferenceIdeal
import proofs.«401522_j37752762532077_4_alg».proof.Proof.Gen.ReferenceIdeal.Run
import proofs.«401522_j37752762532077_4_alg».proof.Proof.Gen.ReferenceIdeal.Read
import proofs.«401522_j37752762532077_4_alg».proof.Proof.Gen.Pre_finite_inputs
import proofs.«401522_j37752762532077_4_alg».proof.Proof.KRun
import proofs.«401522_j37752762532077_4_alg».proof.Proof.KHost
import proofs.«401522_j37752762532077_4_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the sixteen arguments both programs end with the result buffer at one function of
    those arguments: the kernel program's at the term its run reads back to, the reference's at its last stage, and
    the two are equal. -/
theorem algebraic : Cert.algebraic_KernelIdeal_ReferenceIdeal := by
  intro m ρ m' ρ' _ hagree
  refine ⟨fun c => Cert.KernelIdeal.Gcn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Gcn.result_eq m ρ c), (h c).2⟩)
      (Cert.KernelIdeal.Gen.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v123_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (Cert.Gcn.Bridge.kernelOut_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
